-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFE967699#32 ⊥
  ∧ IdealRules.named_const.Statement Cert.KernelIdeal.κ "neg_big" .f32 0xFE967699#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S2x18 : Shape := ⟨2, ![2, 18]⟩
abbrev S512x1024 : Shape := ⟨2, ![512, 1024]⟩
abbrev S1x1 : Shape := ⟨2, ![1, 1]⟩
abbrev S512x1 : Shape := ⟨2, ![512, 1]⟩
abbrev S512x512 : Shape := ⟨2, ![512, 512]⟩
abbrev S512 : Shape := ⟨1, ![512]⟩

abbrev nBuf : Space → Nat
  | .hbm => 11
  | .vmem => 22
  | .smem => 2
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | .local _ .vmem, ⟨21, _⟩ => ⟨S512x1024, .f32⟩
  | .local _ .smem, ⟨0, _⟩ => ⟨S2x18, .i32⟩
  | .local _ .smem, ⟨1, _⟩ => ⟨S2x18, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 18], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k1_cond3 (v2 : BitVec 32) (v5 : BitVec 32) : BitVec 1 :=
  let v12 : BitVec 1 := Scalar.cmpi .eq v5 v2
  let v13 : BitVec 32 := Scalar.extui v12
  let c0_i32_2 : BitVec 32 := 0#32
  let v14 : BitVec 1 := Scalar.cmpi .ne v13 c0_i32_2
  v14

def cc1_transform_0 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_1 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_2 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_3 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  numel1_S1x1 : S1x1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  iota_S512x512_d0_w32 : S512x512.Iotas .tc 32 [0]
  iota_S512x512_d1_w32 : S512x512.Iotas .tc 32 [1]
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  k1_off1_inb : ∀ i : grid1.Coords, ∀ a, (k1_off1 i) a + S1x1.size a ≤ S2x18.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1x1 pf i = cc1_transform_0 k1_off1_inb numel1_S1x1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1x1 pf i = cc1_transform_1 k1_off1_inb numel1_S1x1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1x1 pf i = cc1_transform_2 k1_off1_inb numel1_S1x1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1x1 pf i = cc1_transform_3 k1_off1_inb numel1_S1x1 pf i'

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_v3_0) S512x1024.size reads1_0 false false 2 stage1_0 sem1_0 nbuf1_0 hstage1_0

abbrev spec1_1 : Pipeline.WinSpec sig grid1.rank :=
  Pipeline.WinSpec.ofSpec (Memref.whole main_v3_1) S512x1024.size reads1_1 false false 2 stage1_1 sem1_1 nbuf1_1 hstage1_1

abbrev spec1_2 : Pipeline.WinSpec sig grid1.rank :=
  Pipeline.WinSpec.ofSpec (Memref.whole main_v3_2) S512x1024.size reads1_2 false false 2 stage1_2 sem1_2 nbuf1_2 hstage1_2

abbrev spec1_3 : Pipeline.WinSpec sig grid1.rank :=
  Pipeline.WinSpec.ofSpec (Memref.whole main_v4) S512x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1x1 pf | 1 => cc1_transform_1 k1_off1_inb numel1_S1x1 pf | 2 => cc1_transform_2 k1_off1_inb numel1_S1x1 pf | 3 => cc1_transform_3 k1_off1_inb numel1_S1x1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1x1 pf i a + 1) * S512x1024.size a ≤ S4096x1024.size a), EltTy.bits .bf16 = 32 ∨ (Rect.block (s := S4096x1024) S512x1024.size (cc1_transform_0 k1_off1_inb numel1_S1x1 pf i) h).WholeWords (EltTy.packing .bf16)) ∧
  (∀ i : grid1.Coords, ∃ h : (∀ a, (cc1_transform_1 k1_off1_inb numel1_S1x1 pf i a + 1) * S512x1024.size a ≤ S4096x1024.size a), EltTy.bits .bf16 = 32 ∨ (Rect.block (s := S4096x1024) S512x1024.size (cc1_transform_1 k1_off1_inb numel1_S1x1 pf i) h).WholeWords (EltTy.packing .bf16)) ∧
  (∀ i : grid1.Coords, ∃ h : (∀ a, (cc1_transform_2 k1_off1_inb numel1_S1x1 pf i a + 1) * S512x1024.size a ≤ S4096x1024.size a), EltTy.bits .bf16 = 32 ∨ (Rect.block (s := S4096x1024) S512x1024.size (cc1_transform_2 k1_off1_inb numel1_S1x1 pf i) h).WholeWords (EltTy.packing .bf16)) ∧
  (∀ i : grid1.Coords, ∃ h : (∀ a, (cc1_transform_3 k1_off1_inb numel1_S1x1 pf i a + 1) * S512x1024.size a ≤ S4096x1024.size a), EltTy.bits .f32 = 32 ∨ (Rect.block (s := S4096x1024) S512x1024.size (cc1_transform_3 k1_off1_inb numel1_S1x1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond3 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S_, .i1⟩
  | .hbm, ⟨10, _⟩ => ⟨S4096x4096, .i1⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .i1⟩
  | .hbm, ⟨18, _⟩ => ⟨S4096x4096, .i1⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  The specification both programs are compared with: causal softmax attention over the reals.

  From real matrices x : 4096 × 1024 and wq, wk, wv : 1024 × 1024 form the projections q = x·wq, k = x·wk, v = x·wv,
  the scaled scores s r c = (Σ_e q r e · k c e) / 32 (32 = √1024, the width of a key), and for each row r the softmax
  over the columns c ≤ r alone: the weight of column c is exp (s r c) / Σ_{c' ≤ r} exp (s r c'), and the result is
  Σ_{c ≤ r} weight c · v c d. A softmax is unchanged by subtracting one number from every score of a row
  (`softmax_shift` below), so it is written here with no shift at all; either program subtracts a row maximum first.
  `G` is that function of the four argument arrays, read at the real part of each entry: on finite inputs, which is
  all the claim speaks of, the real part is the entry.
-/
import Idealize.ShloMosaic.PureOps.Ideal
import Idealize.ShloMosaic.Lib.ValueIdx
import Mathlib.Analysis.SpecialFunctions.Exp

noncomputable section

open scoped BigOperators

namespace Cert.Spec

open Idealize.ShloMosaic Idealize.ShloMosaic.ValueIdx

abbrev SX : Shape := ⟨2, ![4096, 1024]⟩
abbrev SW : Shape := ⟨2, ![1024, 1024]⟩

/-- A projection x·w. -/
def proj (x : Fin 4096 → Fin 1024 → ℝ) (w : Fin 1024 → Fin 1024 → ℝ) (r : Fin 4096) (e : Fin 1024) : ℝ :=
  ∑ j : Fin 1024, x r j * w j e

/-- The scaled score of query row r against key row c. -/
def score (q k : Fin 4096 → Fin 1024 → ℝ) (r c : Fin 4096) : ℝ :=
  (∑ e : Fin 1024, q r e * k c e) / 32

/-- The columns a row may attend to: those not after it. -/
def cols (r : Fin 4096) : Finset (Fin 4096) := Finset.univ.filter fun c => c ≤ r

/-- Causal softmax attention of scores s and values v at row r, feature d, written without a shift. -/
def attn (s : Fin 4096 → Fin 4096 → ℝ) (v : Fin 4096 → Fin 1024 → ℝ) (r : Fin 4096) (d : Fin 1024) : ℝ :=
  (∑ c ∈ cols r, Real.exp (s r c) * v c d) / (∑ c ∈ cols r, Real.exp (s r c))

/-- The whole computation over the reals. -/
def attnR (x : Fin 4096 → Fin 1024 → ℝ) (wq wk wv : Fin 1024 → Fin 1024 → ℝ) (r : Fin 4096) (d : Fin 1024) : ℝ :=
  attn (score (proj x wq) (proj x wk)) (proj x wv) r d

/-- An array's real part, by coordinates. -/
def re2 {n0 n1 : Nat} (a : (⟨2, ![n0, n1]⟩ : Shape).Idx → EReal) (i : Fin n0) (j : Fin n1) : ℝ := (a (ix2 i j)).toReal

/-- The result array as a function of the four argument arrays. -/
def G (x : FVec Ideal SX .f32) (wq wk wv : FVec Ideal SW .f32) : FVec Ideal SX .f32 :=
  fun i => ((attnR (re2 x) (re2 wq) (re2 wk) (re2 wv) (i 0) (i 1) : ℝ) : EReal)

theorem G_apply (x : FVec Ideal SX .f32) (wq wk wv : FVec Ideal SW .f32) (r : Fin 4096) (d : Fin 1024) :
    G x wq wk wv (ix2 r d) = ((attnR (re2 x) (re2 wq) (re2 wk) (re2 wv) r d : ℝ) : EReal) := rfl

/-- A softmax-weighted sum does not see a common shift of the scores: for any μ, dividing the shifted weighted sum
    by the shifted normaliser gives the unshifted quotient. -/
theorem softmax_shift {ι : Type} (P : Finset ι) (s v : ι → ℝ) (μ : ℝ) :
    (∑ c ∈ P, Real.exp (s c - μ) * v c) / (∑ c ∈ P, Real.exp (s c - μ))
      = (∑ c ∈ P, Real.exp (s c) * v c) / (∑ c ∈ P, Real.exp (s c)) := by
  have h1 : ∀ c, Real.exp (s c - μ) = Real.exp (s c) * Real.exp (-μ) := fun c => by
    rw [sub_eq_add_neg, Real.exp_add]
  simp only [h1]
  rw [← Finset.sum_mul, show (∑ c ∈ P, Real.exp (s c) * Real.exp (-μ) * v c) = (∑ c ∈ P, Real.exp (s c) * v c) * Real.exp (-μ) from by
    rw [Finset.sum_mul]; exact Finset.sum_congr rfl fun c _ => by ring]
  exact mul_div_mul_right _ _ (Real.exp_pos _).ne'

end Cert.Spec

end
-- ==== Proof.Consts.lean ====
/-
  The float constants the two programs spell, as the extended reals their patterns denote: +∞ (the bound the
  precondition compares |x| with), −∞ (the start of a row maximum and the reference's mask fill), 2⁻⁵ = 1/32 (the
  kernel's score scale, 1/√1024), 1024 (whose square root the reference divides by) and 0. One module states
  them all, so that the patterns are evaluated once; every other module reads them here.
-/
import Idealize.ShloMosaic.PureOps.Ideal
import Idealize.ShloMosaic.PureOps.Ideal.Laws

noncomputable section

namespace Cert.Consts

open Idealize.ShloMosaic

/-- The pattern of +∞. -/
theorem ofBits_inf : Ideal.ofBits .f32 0x7F800000#32 = (⊤ : EReal) := by
  simp [Ideal.ofBits, Ideal.ieee]

/-- The pattern of −∞. -/
theorem ofBits_neg_inf : Ideal.ofBits .f32 0xFF800000#32 = (⊥ : EReal) := by
  simp [Ideal.ofBits, Ideal.ieee]

/-- The pattern of +0.0. -/
theorem ofBits_zero : Ideal.ofBits .f32 0x00000000#32 = 0 := Ideal.ofBits_zero_f32

/-- 3.125e-2 is exactly 1/32. -/
theorem ofBits_scale : Ideal.ofBits .f32 0x3D000000#32 = (((1 : ℝ) / 32 : ℝ) : EReal) := by
  simp [Ideal.ofBits, Ideal.ieee, -EReal.coe_mul]; norm_num

/-- 1024.0 is the real 1024. -/
theorem ofBits_1024 : Ideal.ofBits .f32 0x44800000#32 = ((1024 : ℝ) : EReal) := by
  simp [Ideal.ofBits, Ideal.ieee, -EReal.coe_mul]; norm_num

end Cert.Consts

end
-- ==== Proof.Finite.lean ====
import proofs.«430317_j3848290697374_3_alg».proof.Defs
import Idealize.ShloMosaic.Lib.ReduceAll
import Idealize.ShloMosaic.Lib.ValueIdx
import proofs.«430317_j3848290697374_3_alg».proof.Proof.Consts

noncomputable section

namespace Cert.KernelIdeal.Hand

open Idealize.ShloMosaic Idealize.SL.Sem

/-- The scalar shape has a single index. -/
instance : Subsingleton Cert.Pre_finite_inputs.S_.Idx := ⟨fun a b => funext fun d => d.elim0⟩

/-- The pattern 0x7F800000 is +∞. -/
theorem inf_eq_top : Ideal.ofBits .f32 0x7F800000#32 = (⊤ : EReal) := Cert.Consts.ofBits_inf

/-- An extended real whose absolute value max x (-x) lies strictly below +∞ is a real number. -/
theorem real_of_abs_lt (x : EReal)
    (h : Ideal.cmp .olt (max x (-x)) (Ideal.ofBits .f32 0x7F800000#32) = 1#1) : ∃ a : ℝ, x = (a : EReal) := by
  rw [inf_eq_top] at h
  induction x using EReal.rec with
  | bot => simp [Ideal.cmp] at h
  | coe a => exact ⟨a, rfl⟩
  | top => simp [Ideal.cmp] at h

/-- If the conjunction over a whole array of the tests |x i| < +∞ is true, every entry of the array is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
          (cmpf .olt (Host.absf x)
            (broadcastInDim s ![] hb (constant Cert.Pre_finite_inputs.S_ .f32 0x7F800000#32)))
          init hr hu ValueIdx.ix0 = 1#1) (i : s.Idx) : ∃ a : ℝ, x i = (a : EReal) :=
  real_of_abs_lt (x i) (Host.reduce_andi_all _ init hr hu ValueIdx.ix0 h i)

section
variable [Cert.Pre_finite_inputs.Facts]

/-- The printed predicate, true, says that every entry of each of the four arrays is real. -/
theorem fn_one (x : FVec Ideal Cert.Pre_finite_inputs.S4096x1024 .f32)
    (wq wk wv : FVec Ideal Cert.Pre_finite_inputs.S1024x1024 .f32)
    (h : Cert.Pre_finite_inputs.fn (F := Ideal) x wq wk wv = fun _ => 1#1) :
    (∀ i, ∃ a : ℝ, x i = (a : EReal)) ∧ (∀ i, ∃ a : ℝ, wq i = (a : EReal))
    ∧ (∀ i, ∃ a : ℝ, wk i = (a : EReal)) ∧ (∀ i, ∃ a : ℝ, wv i = (a : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real x _ _ _ _ h1, all_real wq _ _ _ _ h2, all_real wk _ _ _ _ h3, all_real wv _ _ _ _ h4⟩

end

section
variable [Cert.KernelIdeal.Facts] [Cert.Pre_finite_inputs.Facts]

/-- Under the precondition, on every device each entry of each of the four argument arrays is a real number. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg1) i = (a : EReal))
    ∧ (∀ i, ∃ a : ℝ, m ((c.tc : Thread Cert.KernelIdeal.nD Cert.KernelIdeal.τ).loc Cert.KernelIdeal.main_arg2) i = (a : EReal))
    ∧ (∀ i, ∃ a : ℝ, m ((c.tc : Thread Cert.KernelIdeal.nD Cert.KernelIdeal.τ).loc Cert.KernelIdeal.main_arg3) i = (a : EReal)) :=
  fn_one _ _ _ _ (h c)

end

end Cert.KernelIdeal.Hand

end
-- ==== Proof.BitsR0Body.lean ====
/-
  Region 0, the projection kernel: at every one of its 8 grid points the body reads the 512 × 1024 tile of x and the
  three 1024 × 1024 weights and leaves in each output tile the product of the x tile with one weight. This file
  states what the body finds in its input tiles (each window's block of its array, whether or not the block was
  moved at that point), what it leaves in the three output tiles as a closed function of those blocks, and the
  body's triple at every point.
-/
import proofs.«430317_j3848290697374_3_alg».proof.Proof.Gen.Kernel.Launch
import proofs.«430317_j3848290697374_3_alg».proof.Proof.Gen.Kernel.Skeleton
import proofs.«430317_j3848290697374_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight's staging buffer holds the whole weight at every point: moved at the first point, and the block
    index never changes after it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The second weight's likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The third weight's likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 1024 tile. -/
abbrev r0_x : Rect S512x1024 := Rect.unit (s := S512x1024) ![0, 0] S512x1024.size inb_S512x1024_S512x1024_0_0
/-- The whole 1024 × 1024 weight. -/
abbrev r0_w : Rect S1024x1024 := Rect.unit (s := S1024x1024) ![0, 0] S1024x1024.size inb_S1024x1024_S1024x1024_0_0

/-! ## What the body leaves in each output tile -/

/-- The q tile after the body: the x tile times the first weight, stored over the whole tile. -/
def out0_4 (x0 : Vec F S512x1024 .f32) (w1 : Vec F S1024x1024 .bf16) : Vec F S512x1024 .bf16 :=
  View.canon [⟨r0_x, k0_pay2 (View.ld x0 r0_x) (View.ld w1 r0_w)⟩]
/-- The k tile after the body: the x tile times the second weight. -/
def out0_5 (x0 : Vec F S512x1024 .f32) (w2 : Vec F S1024x1024 .bf16) : Vec F S512x1024 .bf16 :=
  View.canon [⟨r0_x, k0_pay3 (View.ld x0 r0_x) (View.ld w2 r0_w)⟩]
/-- The v tile after the body: the x tile times the third weight. -/
def out0_6 (x0 : Vec F S512x1024 .f32) (w3 : Vec F S1024x1024 .bf16) : Vec F S512x1024 .bf16 :=
  View.canon [⟨r0_x, k0_pay4 (View.ld x0 r0_x) (View.ld w3 r0_w)⟩]

/-- The one store of an output tile covers it. -/
theorem cover0_out (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

/-! ## The body's triple -/

set_option maxHeartbeats 1000000 in
/-- The body on whole staging buffers, the inputs' at read contents and the outputs' at anything, runs to the
    continuation holding the inputs' as they were and each output's at its product. The body reads each output
    buffer once before it stores over it; what it reads there is used nowhere. -/
theorem sound_kernel0 (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The pipeline's proof data -/

/-- The proof data of the region on core c: the arrays as the region finds them; after the body at point t each
    input's buffer at its block and each output's at the product of the x block with its weight; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1Defs.lean ====
/-
  The flash-attention region at the tables @main writes.

  The two prefetched tables hold, per grid step, the row tile qi and the column tile ki the step works on. @main
  writes them as constants, so the pipeline is taken at exactly those contents (`tblC`, admissible: every block the
  index maps name lies inside its array). Named here: the pipeline at them (`cfgA`, 36 steps), a step's coordinates,
  the staging memrefs the body is called with, the tables and the three scratch buffers as memrefs, the two words
  the body loads from the tables at a step (`wQ`: the row tile, `wK`: the column tile, spelled as a load through the
  table's memref reads them), and the body's three branch conditions at a step: `isFirst` (ki = 0: the running
  state is reset), `isOff` (ki ≠ qi: a tile strictly below the diagonal) and `isDiag` (ki = qi: the diagonal tile,
  after which the row tile's result is written).
-/
import proofs.«430317_j3848290697374_3_alg».proof.Proof.Gen.Kernel.Launch
import proofs.«430317_j3848290697374_3_alg».proof.Proof.Gen.Kernel.Skeleton
import proofs.«430317_j3848290697374_3_alg».proof.Proof.Gen.Kernel.Points
import Idealize.ShloMosaic.Lib.Pipeline.FrameBody
import Idealize.ShloMosaic.Lib.Pipeline.TableIdle
import Idealize.ShloMosaic.Lib.Tactic
import Idealize.ShloMosaic.PureOps.BitExact

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-- The two tables as @main's constants write them: row tiles, then column tiles. -/
def tblC : pre1.Contents (Elt Bits) := fun
  | ⟨0, _⟩ => (fun i => lit0 (S2x18.rowMajor i))
  | ⟨1, _⟩ => (fun i => lit1 (S2x18.rowMajor i))

theorem tblC_0 : tblC (0 : Fin 2) = (fun i => lit0 (S2x18.rowMajor i)) := rfl
theorem tblC_1 : tblC (1 : Fin 2) = (fun i => lit1 (S2x18.rowMajor i)) := rfl

/-- Every block these tables name lies inside its array. -/
theorem ok_tblC : ok1 (F := Bits) tblC := by decide +kernel

/-- The tables as admissible contents, and the pipeline at them. -/
def adm1 : (pcfg1 (F := Bits)).Adm := ⟨tblC, ok_tblC⟩
abbrev cfgA : Pipeline.Cfg sig Λ₀ := cfg1 (F := Bits) adm1

/-- It has 36 steps. -/
theorem N_A : cfgA.N = 36 := by decide +kernel

/-- A step's coordinates. -/
abbrev crd (t : Fin cfgA.N) : cfgA.grid.Coords := cfgA.grid.coords t

/-- Each window's current staging memref at step `t`, as the pipeline passes it, and its wholeness. -/
abbrev ms1_0 (t : Fin cfgA.N) : Memref sig .tc .vmem S512x1024 .bf16 := spec1_0.stage (cfgA.slots t (0 : Fin 4))
abbrev hs1_0 (t : Fin cfgA.N) : (ms1_0 t).IsWhole := hstage1_0 ((cfgA.slots t (0 : Fin 4)).cast nbuf1_0)
abbrev ms1_1 (t : Fin cfgA.N) : Memref sig .tc .vmem S512x1024 .bf16 := spec1_1.stage (cfgA.slots t (1 : Fin 4))
abbrev hs1_1 (t : Fin cfgA.N) : (ms1_1 t).IsWhole := hstage1_1 ((cfgA.slots t (1 : Fin 4)).cast nbuf1_1)
abbrev ms1_2 (t : Fin cfgA.N) : Memref sig .tc .vmem S512x1024 .bf16 := spec1_2.stage (cfgA.slots t (2 : Fin 4))
abbrev hs1_2 (t : Fin cfgA.N) : (ms1_2 t).IsWhole := hstage1_2 ((cfgA.slots t (2 : Fin 4)).cast nbuf1_2)
abbrev ms1_3 (t : Fin cfgA.N) : Memref sig .tc .vmem S512x1024 .f32 := spec1_3.stage (cfgA.slots t (3 : Fin 4))
abbrev hs1_3 (t : Fin cfgA.N) : (ms1_3 t).IsWhole := hstage1_3 ((cfgA.slots t (3 : Fin 4)).cast nbuf1_3)

/-- The tables and the scratch buffers as the body is handed them: whole buffers. -/
abbrev tbQ : Memref sig .tc .smem S2x18 .i32 := Memref.whole main_c
abbrev tbK : Memref sig .tc .smem S2x18 .i32 := Memref.whole main_c_0
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2

/-- The word a scalar load reads from each table held at contents `T`, at the offsets the body computes at `i`. -/
abbrev wordQ (T : S2x18.Idx → Elt Bits .i32) (i : grid1.Coords) : BitVec 32 :=
  View.readAt (Elt Bits) tbQ.view (Rect.unit (s := S2x18) (k1_off1 i) S1x1.size (k1_off1_inb i)).toLoadRect T (Shape.Idx.first (numel1_S1x1.symm ▸ Nat.one_pos))
abbrev wordK (T : S2x18.Idx → Elt Bits .i32) (i : grid1.Coords) : BitVec 32 :=
  View.readAt (Elt Bits) tbK.view (Rect.unit (s := S2x18) (k1_off1 i) S1x1.size (k1_off1_inb i)).toLoadRect T (Shape.Idx.first (numel1_S1x1.symm ▸ Nat.one_pos))

/-- The two tables at their literal types. -/
abbrev tQ : S2x18.Idx → Elt Bits .i32 := fun i => lit0 (S2x18.rowMajor i)
abbrev tK : S2x18.Idx → Elt Bits .i32 := fun i => lit1 (S2x18.rowMajor i)

/-- The row tile and the column tile of step `t`, as the body reads them. -/
abbrev wQ (t : Fin cfgA.N) : BitVec 32 := wordQ tQ (crd t)
abbrev wK (t : Fin cfgA.N) : BitVec 32 := wordK tK (crd t)

/-- The body's three branch conditions over the two words, as it computes them. -/
abbrev condFirst (vq vk : BitVec 32) : Prop := (Scalar.cmpi .ne (Scalar.extui (Scalar.cmpi .eq vk 0#32)) 0#32) = 1#1
abbrev condOff (vq vk : BitVec 32) : Prop := (Scalar.cmpi .ne (Scalar.extui (Scalar.cmpi .ne vk vq)) 0#32) = 1#1
abbrev condDiag (vq vk : BitVec 32) : Prop := k1_cond3 vq vk = 1#1

abbrev isFirst (t : Fin cfgA.N) : Prop := condFirst (wQ t) (wK t)
abbrev isOff (t : Fin cfgA.N) : Prop := condOff (wQ t) (wK t)
abbrev isDiag (t : Fin cfgA.N) : Prop := condDiag (wQ t) (wK t)

/-- The row tile and column tile of each step, as numbers: the rows go 0, 7, 1, 6, 2, 5, 3, 4 and within a row tile
    the column tile ascends from 0 to the row tile. -/
def qiOf : ℕ → ℕ := fun n => [0, 7,7,7,7,7,7,7,7, 1,1, 6,6,6,6,6,6,6, 2,2,2, 5,5,5,5,5,5, 3,3,3,3, 4,4,4,4,4].getD n 0
def kiOf : ℕ → ℕ := fun n => [0, 0,1,2,3,4,5,6,7, 0,1, 0,1,2,3,4,5,6, 0,1,2, 0,1,2,3,4,5, 0,1,2,3, 0,1,2,3,4].getD n 0

/-- The words the body reads are those numbers. -/
theorem wQ_eq : ∀ t : Fin cfgA.N, wQ t = BitVec.ofNat 32 (qiOf t.val) := by decide +kernel
theorem wK_eq : ∀ t : Fin cfgA.N, wK t = BitVec.ofNat 32 (kiOf t.val) := by decide +kernel

/-- The conditions in closed form. -/
theorem isFirst_iff : ∀ t : Fin cfgA.N, isFirst t ↔ kiOf t.val = 0 := by decide +kernel
theorem isOff_iff : ∀ t : Fin cfgA.N, isOff t ↔ kiOf t.val ≠ qiOf t.val := by decide +kernel
theorem isDiag_iff : ∀ t : Fin cfgA.N, isDiag t ↔ kiOf t.val = qiOf t.val := by decide +kernel

end Cert.Kernel.Hand

end
-- ==== Proof.BitsR1RunAB.lean ====
/-
  The flash-attention body on the two control paths that first reset the running state.

  A grid step whose column tile is 0 clears the three scratch buffers (the running shift to the constant the mask
  uses, the normaliser and the weighted sum to zero) before it does anything else. Two such paths exist: the row
  tile 0, whose only tile is the diagonal one (reset, the masked diagonal tile, then the quotient written to the
  output tile), and every later row tile's first step (reset, then an unmasked tile strictly below the diagonal, the
  output tile untouched). For each path this file runs the body once, on whole staging buffers at arbitrary
  contents, and records what it leaves in the three scratch buffers and in the output tile as closed terms of the
  three input tiles (and, on the diagonal, of the two words read from the tables).
-/
import proofs.«430317_j3848290697374_3_alg».proof.Proof.BitsR1Defs
import Idealize.ShloMosaic.PureOps.BitExact

set_option maxRecDepth 16384
set_option Elab.async false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt Bits) ℕ (UR sig nD τ) ℕ

/-! ## Row tile 0: reset, the masked diagonal tile, the quotient written out -/

set_option maxHeartbeats 8000000 in
/-- The path of a step that is both the first and the last of its row tile. What the body leaves: the pieces it
    stores in the output tile and the final contents of the three scratch buffers, none of which depends on what the
    scratch held before (the reset overwrites it). -/
noncomputable def kernelRun1_A (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Bits .i32) (x0 x1 x2 : Vec Bits S512x1024 .bf16)
    (hF : condFirst (wordQ TQ i) (wordK TK i)) (hO : ¬condOff (wordQ TQ i) (wordK TK i)) (hD : condDiag (wordQ TQ i) (wordK TK i)) :
    Σ' (outO : List (View.Piece (Elt Bits) S512x1024 .f32)) (outM : Buf (Elt Bits) ((c : Thread nD τ).loc cc1_scratch0)) (outL : Buf (Elt Bits) ((c : Thread nD τ).loc cc1_scratch1)), { outA : Buf (Elt Bits) ((c : Thread nD τ).loc cc1_scratch2) //
      ∀ (xm : Buf (Elt Bits) ((c : Thread nD τ).loc cc1_scratch0)) (xl : Buf (Elt Bits) ((c : Thread nD τ).loc cc1_scratch1)) (xa : Buf (Elt Bits) ((c : Thread nD τ).loc cc1_scratch2)) (K : PUnit → sProp 𝕄),
        iprop(owns (c : Thread nD τ) arg4 fullShare x0 ∗ owns (c : Thread nD τ) arg5 fullShare x1 ∗ owns (c : Thread nD τ) arg6 fullShare x2
          ∗ (tbQ.view.loc (c : Thread nD τ) ↦{fullShare} TQ) ∗ (tbK.view.loc (c : Thread nD τ) ↦{fullShare} TK)
          ∗ (∃ d, owns (c : Thread nD τ) arg7 fullShare d)
          ∗ (scM.view.loc (c : Thread nD τ) ↦{fullShare} xm) ∗ (scL.view.loc (c : Thread nD τ) ↦{fullShare} xl) ∗ (scA.view.loc (c : Thread nD τ) ↦{fullShare} xa)
          ∗ (iprop(owns (c : Thread nD τ) arg4 fullShare x0 ∗ owns (c : Thread nD τ) arg5 fullShare x1 ∗ owns (c : Thread nD τ) arg6 fullShare x2
              ∗ (tbQ.view.loc (c : Thread nD τ) ↦{fullShare} TQ) ∗ (tbK.view.loc (c : Thread nD τ) ↦{fullShare} TK)
              ∗ (∃ f, arg7.view.loc (c : Thread nD τ) ↦[arg7.view.set]{fullShare} arg7.view.writes (Elt Bits) f outO)
              ∗ (scM.view.loc (c : Thread nD τ) ↦{fullShare} outM) ∗ (scL.view.loc (c : Thread nD τ) ↦{fullShare} outL) ∗ (scA.view.loc (c : Thread nD τ) ↦{fullShare} outA)) -∗ K ⟨⟩))
          ⊢ wp frame (wpE (defs₀ (F := Bits)) Variants.none c none) Set.univ (cc1_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, _, _, _, fun xm xl xa K => by
    unfold owns
    rw [cc1_kernel_eq_skeleton]; unfold cc1_kernel_skel
    rw [k1_part1_eq_skeleton, k1_part2_eq_skeleton]
    iintro ⟨⟨%f0, %hf0, H0⟩, ⟨%f1, %hf1, H1⟩, ⟨%f2, %hf2, H2⟩, HTQ, HTK, ⟨%d3, %f3, -, HO⟩, HM, HL, HA, Hk⟩
    obtain rfl := harg4.eq_unread hf0; obtain rfl := harg5.eq_unread hf1; obtain rfl := harg6.eq_unread hf2
    have hTQ : tbQ.IsWhole := Memref.isWhole_whole _
    have hTK : tbK.IsWhole := Memref.isWhole_whole _
    have hSM : scM.IsWhole := Memref.isWhole_whole _
    have hSL : scL.IsWhole := Memref.isWhole_whole _
    have hSA : scA.IsWhole := Memref.isWhole_whole _
    sl_exec! (disch := first | exact hF | exact hO | exact hD)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HTQ]; · iexact HTQ
    isplitl [HTK]; · iexact HTK
    isplitl [HO]; · iexists _; iexact HO
    isplitl [HM]; · iexact HM
    isplitl [HL]; · iexact HL
    iexact HA⟩

/-! ## A later row tile's first step: reset, then an unmasked tile below the diagonal -/

set_option maxHeartbeats 8000000 in
/-- The path of a step that is the first but not the last of its row tile. The output tile is left as it was; the
    scratch buffers end at contents that do not depend on what they held before. -/
noncomputable def kernelRun1_B (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Bits .i32) (x0 x1 x2 : Vec Bits S512x1024 .bf16)
    (hF : condFirst (wordQ TQ i) (wordK TK i)) (hO : condOff (wordQ TQ i) (wordK TK i)) (hD : ¬condDiag (wordQ TQ i) (wordK TK i)) :
    Σ' (outM : Buf (Elt Bits) ((c : Thread nD τ).loc cc1_scratch0)) (outL : Buf (Elt Bits) ((c : Thread nD τ).loc cc1_scratch1)), { outA : Buf (Elt Bits) ((c : Thread nD τ).loc cc1_scratch2) //
      ∀ (y : Vec Bits S512x1024 .f32) (xm : Buf (Elt Bits) ((c : Thread nD τ).loc cc1_scratch0)) (xl : Buf (Elt Bits) ((c : Thread nD τ).loc cc1_scratch1)) (xa : Buf (Elt Bits) ((c : Thread nD τ).loc cc1_scratch2)) (K : PUnit → sProp 𝕄),
        iprop(owns (c : Thread nD τ) arg4 fullShare x0 ∗ owns (c : Thread nD τ) arg5 fullShare x1 ∗ owns (c : Thread nD τ) arg6 fullShare x2
          ∗ (tbQ.view.loc (c : Thread nD τ) ↦{fullShare} TQ) ∗ (tbK.view.loc (c : Thread nD τ) ↦{fullShare} TK)
          ∗ owns (c : Thread nD τ) arg7 fullShare y
          ∗ (scM.view.loc (c : Thread nD τ) ↦{fullShare} xm) ∗ (scL.view.loc (c : Thread nD τ) ↦{fullShare} xl) ∗ (scA.view.loc (c : Thread nD τ) ↦{fullShare} xa)
          ∗ (iprop(owns (c : Thread nD τ) arg4 fullShare x0 ∗ owns (c : Thread nD τ) arg5 fullShare x1 ∗ owns (c : Thread nD τ) arg6 fullShare x2
              ∗ (tbQ.view.loc (c : Thread nD τ) ↦{fullShare} TQ) ∗ (tbK.view.loc (c : Thread nD τ) ↦{fullShare} TK)
              ∗ owns (c : Thread nD τ) arg7 fullShare y
              ∗ (scM.view.loc (c : Thread nD τ) ↦{fullShare} outM) ∗ (scL.view.loc (c : Thread nD τ) ↦{fullShare} outL) ∗ (scA.view.loc (c : Thread nD τ) ↦{fullShare} outA)) -∗ K ⟨⟩))
          ⊢ wp frame (wpE (defs₀ (F := Bits)) Variants.none c none) Set.univ (cc1_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, _, _, fun y xm xl xa K => by
    unfold owns
    rw [cc1_kernel_eq_skeleton]; unfold cc1_kernel_skel
    rw [k1_part1_eq_skeleton, k1_part2_eq_skeleton]
    iintro ⟨⟨%f0, %hf0, H0⟩, ⟨%f1, %hf1, H1⟩, ⟨%f2, %hf2, H2⟩, HTQ, HTK, ⟨%f3, %hf3, HO⟩, HM, HL, HA, Hk⟩
    obtain rfl := harg4.eq_unread hf0; obtain rfl := harg5.eq_unread hf1; obtain rfl := harg6.eq_unread hf2
    obtain rfl := harg7.eq_unread hf3
    have hTQ : tbQ.IsWhole := Memref.isWhole_whole _
    have hTK : tbK.IsWhole := Memref.isWhole_whole _
    have hSM : scM.IsWhole := Memref.isWhole_whole _
    have hSL : scL.IsWhole := Memref.isWhole_whole _
    have hSA : scA.IsWhole := Memref.isWhole_whole _
    sl_exec! (disch := first | exact hF | exact hO | exact hD)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HTQ]; · iexact HTQ
    isplitl [HTK]; · iexact HTK
    isplitl [HO]
    · iexists _; isplitr; · ipureintro; exact harg7.read_unread _
      iexact HO
    isplitl [HM]; · iexact HM
    isplitl [HL]; · iexact HL
    iexact HA⟩

end Cert.Kernel.Hand

end
-- ==== Proof.BitsR1RunCD.lean ====
/-
  The flash-attention body over a carried running state.

  At a grid step whose column tile is not the first of its row tile, the three scratch buffers hold the row tile's
  running shift, normaliser and weighted sum from the step before. Two control paths remain. Below the diagonal
  (column tile ≠ row tile) the body folds the tile into the running state and leaves the output window alone. On
  the diagonal (column tile = row tile) it folds the masked tile in and then writes sum / normaliser to the output
  window. Each path is run once here over symbolic staging memrefs, and what the run leaves in each buffer is then
  identified with the arithmetic of the step, spelt by the skeleton's payloads.
-/
import proofs.«430317_j3848290697374_3_alg».proof.Proof.BitsR1Defs
import Idealize.ShloMosaic.PureOps.BitExact

set_option maxRecDepth 16384
set_option Elab.async false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt Bits) ℕ (UR sig nD τ) ℕ

/- The contents types of the three scratch buffers (running shift, normaliser, weighted sum) on device `c`. -/
set_option quotPrecheck false in
local notation "BufM[" c "]" => Buf (Elt Bits) ((c : Thread nD τ).loc cc1_scratch0)
set_option quotPrecheck false in
local notation "BufL[" c "]" => Buf (Elt Bits) ((c : Thread nD τ).loc cc1_scratch1)
set_option quotPrecheck false in
local notation "BufA[" c "]" => Buf (Elt Bits) ((c : Thread nD τ).loc cc1_scratch2)

set_option maxHeartbeats 8000000 in
/-- Below the diagonal, over the carried state: what the body leaves in the three scratch buffers, with the proof
    that from the three input blocks, the two tables, an idle output window and the carried scratch, under the
    path's three decisions over the two words the body reads, it runs to a continuation holding all of it. -/
noncomputable def kernelRun1_C (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Bits .i32) (x0 x1 x2 : Vec Bits S512x1024 .bf16)
    (xm : BufM[c]) (xl : BufL[c]) (xa : BufA[c])
    (hF : ¬condFirst (wordQ TQ i) (wordK TK i)) (hO : condOff (wordQ TQ i) (wordK TK i)) (hD : ¬condDiag (wordQ TQ i) (wordK TK i)) :
    Σ' (outM : BufM[c]) (outL : BufL[c]), { outA : BufA[c] //
      ∀ (y : Vec Bits S512x1024 .f32) (K : PUnit → sProp 𝕄),
        iprop(owns (c : Thread nD τ) arg4 fullShare x0
          ∗ owns (c : Thread nD τ) arg5 fullShare x1
          ∗ owns (c : Thread nD τ) arg6 fullShare x2
          ∗ (tbQ.view.loc (c : Thread nD τ) ↦{fullShare} TQ)
          ∗ (tbK.view.loc (c : Thread nD τ) ↦{fullShare} TK)
          ∗ owns (c : Thread nD τ) arg7 fullShare y
          ∗ (scM.view.loc (c : Thread nD τ) ↦{fullShare} xm)
          ∗ (scL.view.loc (c : Thread nD τ) ↦{fullShare} xl)
          ∗ (scA.view.loc (c : Thread nD τ) ↦{fullShare} xa)
          ∗ (iprop(owns (c : Thread nD τ) arg4 fullShare x0
          ∗ owns (c : Thread nD τ) arg5 fullShare x1
          ∗ owns (c : Thread nD τ) arg6 fullShare x2
          ∗ (tbQ.view.loc (c : Thread nD τ) ↦{fullShare} TQ)
          ∗ (tbK.view.loc (c : Thread nD τ) ↦{fullShare} TK)
          ∗ owns (c : Thread nD τ) arg7 fullShare y
          ∗ (scM.view.loc (c : Thread nD τ) ↦{fullShare} outM)
          ∗ (scL.view.loc (c : Thread nD τ) ↦{fullShare} outL)
          ∗ (scA.view.loc (c : Thread nD τ) ↦{fullShare} outA)) -∗ K ⟨⟩))
          ⊢ wp frame (wpE (defs₀ (F := Bits)) Variants.none c none) Set.univ (cc1_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, _, _, fun (y : Vec Bits S512x1024 .f32) K => by
    unfold owns
    rw [cc1_kernel_eq_skeleton]; unfold cc1_kernel_skel
    iintro ⟨⟨%f0, %hf0, H0⟩, ⟨%f1, %hf1, H1⟩, ⟨%f2, %hf2, H2⟩, HTQ, HTK, ⟨%f3, %hf3, HO⟩, HSM, HSL, HSA, Hk⟩
    obtain rfl := harg4.eq_unread hf0
    obtain rfl := harg5.eq_unread hf1
    obtain rfl := harg6.eq_unread hf2
    obtain rfl := harg7.eq_unread hf3
    have hTQ : tbQ.IsWhole := Memref.isWhole_whole _
    have hTK : tbK.IsWhole := Memref.isWhole_whole _
    have hSM : scM.IsWhole := Memref.isWhole_whole _
    have hSL : scL.IsWhole := Memref.isWhole_whole _
    have hSA : scA.IsWhole := Memref.isWhole_whole _
    sl_exec! (disch := first | sl_exact hF | sl_exact hO | sl_exact hD)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HTQ]; · iexact HTQ
    isplitl [HTK]; · iexact HTK
    isplitl [HO]
    · iexists _; isplitr; · ipureintro; exact harg7.read_unread _
      iexact HO
    isplitl [HSM]; · iexact HSM
    isplitl [HSL]; · iexact HSL
    iexact HSA⟩

set_option maxHeartbeats 8000000 in
/-- On the diagonal, over the carried state: what the body leaves in the three scratch buffers and the pieces it
    stores to the output window, with the proof that from the three input blocks, the two tables, the output
    window at any contents and the carried scratch, under the path's three decisions, it runs to a continuation
    holding all of it. -/
noncomputable def kernelRun1_D (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Bits .i32) (x0 x1 x2 : Vec Bits S512x1024 .bf16)
    (xm : BufM[c]) (xl : BufL[c]) (xa : BufA[c])
    (hF : ¬condFirst (wordQ TQ i) (wordK TK i)) (hO : ¬condOff (wordQ TQ i) (wordK TK i)) (hD : condDiag (wordQ TQ i) (wordK TK i)) :
    Σ' (outO : List (View.Piece (Elt Bits) S512x1024 .f32)) (outM : BufM[c]) (outL : BufL[c]), { outA : BufA[c] //
      ∀ (K : PUnit → sProp 𝕄),
        iprop(owns (c : Thread nD τ) arg4 fullShare x0
          ∗ owns (c : Thread nD τ) arg5 fullShare x1
          ∗ owns (c : Thread nD τ) arg6 fullShare x2
          ∗ (tbQ.view.loc (c : Thread nD τ) ↦{fullShare} TQ)
          ∗ (tbK.view.loc (c : Thread nD τ) ↦{fullShare} TK)
          ∗ (∃ d, owns (c : Thread nD τ) arg7 fullShare d)
          ∗ (scM.view.loc (c : Thread nD τ) ↦{fullShare} xm)
          ∗ (scL.view.loc (c : Thread nD τ) ↦{fullShare} xl)
          ∗ (scA.view.loc (c : Thread nD τ) ↦{fullShare} xa)
          ∗ (iprop(owns (c : Thread nD τ) arg4 fullShare x0
          ∗ owns (c : Thread nD τ) arg5 fullShare x1
          ∗ owns (c : Thread nD τ) arg6 fullShare x2
          ∗ (tbQ.view.loc (c : Thread nD τ) ↦{fullShare} TQ)
          ∗ (tbK.view.loc (c : Thread nD τ) ↦{fullShare} TK)
          ∗ (∃ f, arg7.view.loc (c : Thread nD τ) ↦[arg7.view.set]{fullShare} arg7.view.writes (Elt Bits) f outO)
          ∗ (scM.view.loc (c : Thread nD τ) ↦{fullShare} outM)
          ∗ (scL.view.loc (c : Thread nD τ) ↦{fullShare} outL)
          ∗ (scA.view.loc (c : Thread nD τ) ↦{fullShare} outA)) -∗ K ⟨⟩))
          ⊢ wp frame (wpE (defs₀ (F := Bits)) Variants.none c none) Set.univ (cc1_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, _, _, _, fun K => by
    unfold owns
    rw [cc1_kernel_eq_skeleton]; unfold cc1_kernel_skel
    iintro ⟨⟨%f0, %hf0, H0⟩, ⟨%f1, %hf1, H1⟩, ⟨%f2, %hf2, H2⟩, HTQ, HTK, ⟨%d3, %f3, -, HO⟩, HSM, HSL, HSA, Hk⟩
    obtain rfl := harg4.eq_unread hf0
    obtain rfl := harg5.eq_unread hf1
    obtain rfl := harg6.eq_unread hf2
    have hTQ : tbQ.IsWhole := Memref.isWhole_whole _
    have hTK : tbK.IsWhole := Memref.isWhole_whole _
    have hSM : scM.IsWhole := Memref.isWhole_whole _
    have hSL : scL.IsWhole := Memref.isWhole_whole _
    have hSA : scA.IsWhole := Memref.isWhole_whole _
    sl_exec! (disch := first | sl_exact hF | sl_exact hO | sl_exact hD)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HTQ]; · iexact HTQ
    isplitl [HTK]; · iexact HTK
    isplitl [HO]; · iexists _; iexact HO
    isplitl [HSM]; · iexact HSM
    isplitl [HSL]; · iexact HSL
    iexact HSA⟩

end Cert.Kernel.Hand

end
-- ==== Proof.BitsR1Body.lean ====
/-
  The flash-attention region, step by step. At each of its 36 grid steps the body reads the row tile and column tile
  of the step from the two tables and takes one of four courses: the first column tile of a row tile resets the running
  shift, normaliser and sum; a tile strictly below the diagonal folds its scores into them; the diagonal tile folds its
  masked scores in and stores the row tile's result, the sum divided by the normaliser. This file names what the
  three scratch buffers and the output tile hold after every step (each step's course run over what the step before
  left), the invariant the region keeps between steps (the scratch at those contents, the two tables held whole, the
  other region's staging buffers at anything), and proves the body's triple at every step.
-/
import proofs.«430317_j3848290697374_3_alg».proof.Proof.BitsR1Defs
import proofs.«430317_j3848290697374_3_alg».proof.Proof.BitsR1RunAB
import proofs.«430317_j3848290697374_3_alg».proof.Proof.BitsR1RunCD
import Idealize.ShloMosaic.Lib.Pipeline.FrameBody
import Idealize.ShloMosaic.Lib.Pipeline.TableIdle
import Idealize.ShloMosaic.Lib.Writes
import Idealize.ShloMosaic.Lib.Ring
import Idealize.ShloMosaic.Lib.Tactic
import Idealize.ShloMosaic.PureOps.BitExact

set_option maxRecDepth 16384
set_option Elab.async false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt Bits) ℕ (UR sig nD τ) ℕ

-- the core's buffer contents when the region is entered
variable (V : (c : Dev nD) → (b : Ref sig .tc) → Buf (Elt Bits) ((c : Thread nD τ).loc b))

/-- What the three scratch buffers hold: the running shift (512 × 1), the normaliser (512 × 1), the sum (512 × 1024). -/
abbrev BufM (c : Dev nD) : Type := Buf (Elt Bits) ((c : Thread nD τ).loc cc1_scratch0)
abbrev BufL (c : Dev nD) : Type := Buf (Elt Bits) ((c : Thread nD τ).loc cc1_scratch1)
abbrev BufA (c : Dev nD) : Type := Buf (Elt Bits) ((c : Thread nD τ).loc cc1_scratch2)

/-! ## Which of the four courses a step takes -/

/-- A tile is strictly below the diagonal exactly when it is not the diagonal tile. -/
theorem isOff_iff_not_diag (t : Fin cfgA.N) : isOff t ↔ ¬isDiag t := by
  rw [isOff_iff, isDiag_iff]

theorem notOff_of_diag (t : Fin cfgA.N) (h : isDiag t) : ¬isOff t := fun ho => (isOff_iff_not_diag t).mp ho h
theorem off_of_not_diag (t : Fin cfgA.N) (h : ¬isDiag t) : isOff t := (isOff_iff_not_diag t).mpr h

/-- The first step resets. -/
theorem isFirst_of_zero (t : Fin cfgA.N) (h : t.val = 0) : isFirst t := by
  rw [isFirst_iff, h]; rfl

/-- Every step takes exactly one of the four courses: reset and diagonal (the first step only), reset and below the
    diagonal, carried and below the diagonal, carried and diagonal. -/
theorem course_cases (t : Fin cfgA.N) :
    (isFirst t ∧ ¬isOff t ∧ isDiag t) ∨ (isFirst t ∧ isOff t ∧ ¬isDiag t) ∨ (¬isFirst t ∧ isOff t ∧ ¬isDiag t) ∨ (¬isFirst t ∧ ¬isOff t ∧ isDiag t) := by
  by_cases hF : isFirst t <;> by_cases hD : isDiag t
  · exact .inl ⟨hF, notOff_of_diag t hD, hD⟩
  · exact .inr (.inl ⟨hF, off_of_not_diag t hD, hD⟩)
  · exact .inr (.inr (.inr ⟨hF, notOff_of_diag t hD, hD⟩))
  · exact .inr (.inr (.inl ⟨hF, off_of_not_diag t hD, hD⟩))

/-- The reset and the diagonal tile meet at the first step only. -/
theorem zero_of_first_diag : ∀ t : Fin cfgA.N, isFirst t → isDiag t → t.val = 0 := by
  decide +kernel

/-- Away from the diagonal tile the output window is idle and is not written back. -/
theorem idle3_of_not_diag : ∀ t : Fin cfgA.N, ¬isDiag t → cfgA.idle (3 : Fin 4) (crd t) = true ∧ (cfgA.win (3 : Fin 4)).flush t = false := by
  decide +kernel

/-- At the diagonal tile the output window is stored. -/
theorem idle3_of_diag : ∀ t : Fin cfgA.N, isDiag t → cfgA.idle (3 : Fin 4) (crd t) = false := by
  decide +kernel

/-- The three input windows are never idle. -/
theorem idle0_false (i : cfgA.grid.Coords) : cfgA.idle (0 : Fin 4) i = false := rfl
theorem idle1_false (i : cfgA.grid.Coords) : cfgA.idle (1 : Fin 4) i = false := rfl
theorem idle2_false (i : cfgA.grid.Coords) : cfgA.idle (2 : Fin 4) i = false := rfl

/-! ## The windows' blocks -/

/-- Window w's block at step t, read off its array as the region finds it. -/
def iblk1 (c : Dev nD) (w : Fin cfgA.W) (t : Fin cfgA.N) : ((cfgA.win w).xblock (crd t)).Idx → Elt Bits (cfgA.win w).elt :=
  ((cfgA.win w).blk t).view.read (Elt Bits) (V c (Pipeline.arrRef spec1 w))

/-! ## Each course at a step -/

/-- The reset and the diagonal tile at step t. -/
abbrev runA (c : Dev nD) (t : Fin cfgA.N) (hF : isFirst t) (hD : isDiag t) :=
  kernelRun1_A c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (notOff_of_diag t hD) hD
/-- The reset and a tile below the diagonal at step t. -/
abbrev runB (c : Dev nD) (t : Fin cfgA.N) (hF : isFirst t) (hD : ¬isDiag t) :=
  kernelRun1_B c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (off_of_not_diag t hD) hD
/-- A tile below the diagonal at step t, over the scratch the step before left. -/
abbrev runC (c : Dev nD) (t : Fin cfgA.N) (xm : BufM c) (xl : BufL c) (xa : BufA c) (hF : ¬isFirst t) (hD : ¬isDiag t) :=
  kernelRun1_C c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) xm xl xa hF (off_of_not_diag t hD) hD
/-- The diagonal tile at step t, over the scratch the step before left. -/
abbrev runD (c : Dev nD) (t : Fin cfgA.N) (xm : BufM c) (xl : BufL c) (xa : BufA c) (hF : ¬isFirst t) (hD : isDiag t) :=
  kernelRun1_D c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) xm xl xa hF (notOff_of_diag t hD) hD

/-- One staging buffer of the output window, through which a stored tile is read back. -/
abbrev VO1 : View sig .tc .vmem S512x1024 .f32 := (Memref.whole cc1_stg3_0 : Memref sig .tc .vmem S512x1024 .f32).view

/-- The one store of the diagonal tile covers the output tile, -/
theorem coverGen_A (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Bits .i32) (x0 x1 x2 : Vec Bits S512x1024 .bf16)
    (hF : condFirst (wordQ TQ i) (wordK TK i)) (hO : ¬condOff (wordQ TQ i) (wordK TK i)) (hD : condDiag (wordQ TQ i) (wordK TK i)) (y : S512x1024.Idx) :
    ∃ pc ∈ (kernelRun1_A c i arg4 harg4 arg5 harg5 arg6 harg6 arg7 harg7 TQ TK x0 x1 x2 hF hO hD).1, y ∈ pc.1.set :=
  View.cover_of_tiledL (kernelRun1_A c i arg4 harg4 arg5 harg5 arg6 harg6 arg7 harg7 TQ TK x0 x1 x2 hF hO hD).1 S512x1024.size (by sl_kernel_rfl) y
theorem coverGen_D (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Bits .i32) (x0 x1 x2 : Vec Bits S512x1024 .bf16)
    (xm : Buf (Elt Bits) ((c : Thread nD τ).loc cc1_scratch0)) (xl : Buf (Elt Bits) ((c : Thread nD τ).loc cc1_scratch1)) (xa : Buf (Elt Bits) ((c : Thread nD τ).loc cc1_scratch2))
    (hF : ¬condFirst (wordQ TQ i) (wordK TK i)) (hO : ¬condOff (wordQ TQ i) (wordK TK i)) (hD : condDiag (wordQ TQ i) (wordK TK i)) (y : S512x1024.Idx) :
    ∃ pc ∈ (kernelRun1_D c i arg4 harg4 arg5 harg5 arg6 harg6 arg7 harg7 TQ TK x0 x1 x2 xm xl xa hF hO hD).1, y ∈ pc.1.set :=
  View.cover_of_tiledL (kernelRun1_D c i arg4 harg4 arg5 harg5 arg6 harg6 arg7 harg7 TQ TK x0 x1 x2 xm xl xa hF hO hD).1 S512x1024.size (by sl_kernel_rfl) y
/-- at a step. -/
theorem cover3_A (c : Dev nD) (t : Fin cfgA.N) (hF : isFirst t) (hD : isDiag t) (y : S512x1024.Idx) :
    ∃ pc ∈ (runA V c t hF hD).1, y ∈ pc.1.set :=
  coverGen_A _ _ _ _ _ _ _ _ _ _ _ _ _ _ _ _ _ _ y
theorem cover3_D (c : Dev nD) (t : Fin cfgA.N) (xm : BufM c) (xl : BufL c) (xa : BufA c) (hF : ¬isFirst t) (hD : isDiag t) (y : S512x1024.Idx) :
    ∃ pc ∈ (runD V c t xm xl xa hF hD).1, y ∈ pc.1.set :=
  coverGen_D _ _ _ _ _ _ _ _ _ _ _ _ _ _ _ _ _ _ _ _ _ y

/-- What the output tile holds after the diagonal tile's store: the stored pieces read back. -/
def out1_A (c : Dev nD) (t : Fin cfgA.N) (hF : isFirst t) (hD : isDiag t) : Vec Bits S512x1024 .f32 :=
  VO1.read (Elt Bits) (VO1.writes (Elt Bits) VO1.junk (runA V c t hF hD).1)
def out1_D (c : Dev nD) (t : Fin cfgA.N) (xm : BufM c) (xl : BufL c) (xa : BufA c) (hF : ¬isFirst t) (hD : isDiag t) : Vec Bits S512x1024 .f32 :=
  VO1.read (Elt Bits) (VO1.writes (Elt Bits) VO1.junk (runD V c t xm xl xa hF hD).1)

/-! ## What the output tile and the scratch hold after each step -/

/-- The output window's buffer and the three scratch buffers' contents. -/
abbrev St1 (c : Dev nD) : Type := Vec Bits S512x1024 .f32 × BufM c × BufL c × BufA c

/-- Before the first step: nothing any step consults. -/
def init1 (c : Dev nD) : St1 c := (default, default, default, default)

/-- One step: the course the step's words select, over what the step before left. A step that does not store the
    output tile keeps what its buffer held; nothing reads it there. -/
def step1 (c : Dev nD) (t : Fin cfgA.N) (prev : St1 c) : St1 c :=
  if hF : isFirst t then
    if hD : isDiag t then
      (out1_A V c t hF hD, (runA V c t hF hD).2.1, (runA V c t hF hD).2.2.1, (runA V c t hF hD).2.2.2.1)
    else
      (prev.1, (runB V c t hF hD).1, (runB V c t hF hD).2.1, (runB V c t hF hD).2.2.1)
  else
    if hD : isDiag t then
      (out1_D V c t prev.2.1 prev.2.2.1 prev.2.2.2 hF hD, (runD V c t prev.2.1 prev.2.2.1 prev.2.2.2 hF hD).2.1,
        (runD V c t prev.2.1 prev.2.2.1 prev.2.2.2 hF hD).2.2.1, (runD V c t prev.2.1 prev.2.2.1 prev.2.2.2 hF hD).2.2.2.1)
    else
      (prev.1, (runC V c t prev.2.1 prev.2.2.1 prev.2.2.2 hF hD).1, (runC V c t prev.2.1 prev.2.2.1 prev.2.2.2 hF hD).2.1,
        (runC V c t prev.2.1 prev.2.2.1 prev.2.2.2 hF hD).2.2.1)

/-- After step n. -/
def traj1 (c : Dev nD) : (n : ℕ) → n < cfgA.N → St1 c
  | 0, h => step1 V c ⟨0, h⟩ (init1 c)
  | n + 1, h => step1 V c ⟨n + 1, h⟩ (traj1 c n (Nat.lt_of_succ_lt h))

/-- Before step t. -/
def prev1 (c : Dev nD) (t : Fin cfgA.N) : St1 c :=
  if h : t.val = 0 then init1 c else traj1 V c (t.val - 1) (by omega)

theorem traj1_eq (c : Dev nD) (t : Fin cfgA.N) : traj1 V c t.val t.isLt = step1 V c t (prev1 V c t) := by
  obtain ⟨n, hn⟩ := t
  cases n with
  | zero => rfl
  | succ n => unfold prev1; simp only [Nat.add_one_ne_zero, dif_neg, not_false_eq_true]; rfl

theorem step1_A (c : Dev nD) (t : Fin cfgA.N) (prev : St1 c) (hF : isFirst t) (hD : isDiag t) :
    step1 V c t prev = (out1_A V c t hF hD, (runA V c t hF hD).2.1, (runA V c t hF hD).2.2.1, (runA V c t hF hD).2.2.2.1) := by
  unfold step1; simp only [dif_pos hF, dif_pos hD]
theorem step1_B (c : Dev nD) (t : Fin cfgA.N) (prev : St1 c) (hF : isFirst t) (hD : ¬isDiag t) :
    step1 V c t prev = (prev.1, (runB V c t hF hD).1, (runB V c t hF hD).2.1, (runB V c t hF hD).2.2.1) := by
  unfold step1; simp only [dif_pos hF, dif_neg hD]
theorem step1_C (c : Dev nD) (t : Fin cfgA.N) (prev : St1 c) (hF : ¬isFirst t) (hD : ¬isDiag t) :
    step1 V c t prev = (prev.1, (runC V c t prev.2.1 prev.2.2.1 prev.2.2.2 hF hD).1, (runC V c t prev.2.1 prev.2.2.1 prev.2.2.2 hF hD).2.1,
        (runC V c t prev.2.1 prev.2.2.1 prev.2.2.2 hF hD).2.2.1) := by
  unfold step1; simp only [dif_neg hF, dif_neg hD]
theorem step1_D (c : Dev nD) (t : Fin cfgA.N) (prev : St1 c) (hF : ¬isFirst t) (hD : isDiag t) :
    step1 V c t prev = (out1_D V c t prev.2.1 prev.2.2.1 prev.2.2.2 hF hD, (runD V c t prev.2.1 prev.2.2.1 prev.2.2.2 hF hD).2.1,
        (runD V c t prev.2.1 prev.2.2.1 prev.2.2.2 hF hD).2.2.1, (runD V c t prev.2.1 prev.2.2.1 prev.2.2.2 hF hD).2.2.2.1) := by
  unfold step1; simp only [dif_neg hF, dif_pos hD]

/-! ## The invariant between steps -/

/-- The three scratch buffers at given contents, -/
def scrAt (c : Dev nD) (s : St1 c) : sProp 𝕄 :=
  iprop((scM.view.loc (c : Thread nD τ) ↦{fullShare} s.2.1) ∗ (scL.view.loc (c : Thread nD τ) ↦{fullShare} s.2.2.1) ∗ (scA.view.loc (c : Thread nD τ) ↦{fullShare} s.2.2.2))
/-- and at anything. -/
def scrAny (c : Dev nD) : sProp 𝕄 :=
  iprop((∃ a : BufM c, scM.view.loc (c : Thread nD τ) ↦{fullShare} a) ∗ (∃ a : BufL c, scL.view.loc (c : Thread nD τ) ↦{fullShare} a) ∗ (∃ a : BufA c, scA.view.loc (c : Thread nD τ) ↦{fullShare} a))

theorem scrAny_of_at (c : Dev nD) (s : St1 c) : scrAt c s ⊢ scrAny c := by
  unfold scrAt scrAny
  iintro ⟨HM, HL, HA⟩
  isplitl [HM]; · iexists _; iexact HM
  isplitl [HL]; · iexists _; iexact HL
  iexists _; iexact HA

/-- The two tables held whole at their literal contents. -/
def tablesHeld (c : Dev nD) : sProp 𝕄 :=
  iprop((tbQ.view.loc (c : Thread nD τ) ↦{fullShare} tQ) ∗ (tbK.view.loc (c : Thread nD τ) ↦{fullShare} tK))

/-- The other region's eleven staging buffers, each whole at anything. -/
def restOther (c : Dev nD) : sProp 𝕄 :=
  iprop((∃ f : Buf (Elt Bits) ((c : Thread nD τ).loc cc0_stg0_0), ((c : Thread nD τ).loc cc0_stg0_0) ↦{fullShare} f) ∗ (∃ f : Buf (Elt Bits) ((c : Thread nD τ).loc cc0_stg0_1), ((c : Thread nD τ).loc cc0_stg0_1) ↦{fullShare} f) ∗ (∃ f : Buf (Elt Bits) ((c : Thread nD τ).loc cc0_stg1_0), ((c : Thread nD τ).loc cc0_stg1_0) ↦{fullShare} f) ∗ (∃ f : Buf (Elt Bits) ((c : Thread nD τ).loc cc0_stg2_0), ((c : Thread nD τ).loc cc0_stg2_0) ↦{fullShare} f) ∗ (∃ f : Buf (Elt Bits) ((c : Thread nD τ).loc cc0_stg3_0), ((c : Thread nD τ).loc cc0_stg3_0) ↦{fullShare} f) ∗ (∃ f : Buf (Elt Bits) ((c : Thread nD τ).loc cc0_stg4_0), ((c : Thread nD τ).loc cc0_stg4_0) ↦{fullShare} f) ∗ (∃ f : Buf (Elt Bits) ((c : Thread nD τ).loc cc0_stg4_1), ((c : Thread nD τ).loc cc0_stg4_1) ↦{fullShare} f) ∗ (∃ f : Buf (Elt Bits) ((c : Thread nD τ).loc cc0_stg5_0), ((c : Thread nD τ).loc cc0_stg5_0) ↦{fullShare} f) ∗ (∃ f : Buf (Elt Bits) ((c : Thread nD τ).loc cc0_stg5_1), ((c : Thread nD τ).loc cc0_stg5_1) ↦{fullShare} f) ∗ (∃ f : Buf (Elt Bits) ((c : Thread nD τ).loc cc0_stg6_0), ((c : Thread nD τ).loc cc0_stg6_0) ↦{fullShare} f) ∗ (∃ f : Buf (Elt Bits) ((c : Thread nD τ).loc cc0_stg6_1), ((c : Thread nD τ).loc cc0_stg6_1) ↦{fullShare} f))

/-- The scratch before position n: anything before the first step, then what the step before left. -/
def scrBefore (c : Dev nD) : (n : ℕ) → n < cfgA.N + 1 → sProp 𝕄
  | 0, _ => scrAny c
  | n + 1, h => scrAt c (traj1 V c n (Nat.lt_of_succ_lt_succ h))

/-- The invariant before position t: the scratch as the steps so far left it, the tables, the other region's buffers. -/
def Phi1 (c : Dev nD) (t : Fin (cfgA.N + 1)) : sProp 𝕄 :=
  iprop(scrBefore V c t.val t.isLt ∗ tablesHeld c ∗ restOther c)

theorem Phi1_zero (c : Dev nD) : Phi1 V c 0 = iprop(scrAny c ∗ tablesHeld c ∗ restOther c) := rfl

theorem Phi1_succ (c : Dev nD) (t : Fin cfgA.N) :
    Phi1 V c t.succ = iprop(scrAt c (traj1 V c t.val t.isLt) ∗ tablesHeld c ∗ restOther c) := rfl

theorem Phi1_castSucc_pos (c : Dev nD) (t : Fin cfgA.N) (hz : t.val ≠ 0) :
    Phi1 V c t.castSucc = iprop(scrAt c (prev1 V c t) ∗ tablesHeld c ∗ restOther c) := by
  obtain ⟨n, hn⟩ := t
  cases n with
  | zero => exact absurd rfl hz
  | succ n => unfold prev1; simp only [Nat.add_one_ne_zero, dif_neg, not_false_eq_true]; rfl

theorem Phi1_any (c : Dev nD) (t : Fin (cfgA.N + 1)) :
    Phi1 V c t ⊢ iprop(((∃ a : BufM c, scM.view.loc (c : Thread nD τ) ↦{fullShare} a) ∗ (∃ a : BufL c, scL.view.loc (c : Thread nD τ) ↦{fullShare} a) ∗ (∃ a : BufA c, scA.view.loc (c : Thread nD τ) ↦{fullShare} a))
      ∗ ((tbQ.view.loc (c : Thread nD τ) ↦{fullShare} tQ) ∗ (tbK.view.loc (c : Thread nD τ) ↦{fullShare} tK)) ∗ restOther c) := by
  obtain ⟨n, hn⟩ := t
  cases n with
  | zero => exact .rfl
  | succ n => exact sep_mono (scrAny_of_at c _) .rfl

/-! ## The pipeline's proof data -/

/-- The proof data of the region on core c: the arrays as the region finds them; after the body at step t each
    input's buffer at its block and the output's at what the steps so far left; the invariant above; nothing owed;
    full shares. -/
def dat1 (c : Dev nD) : Dat τ (Elt Bits) Unit ℕ (UR sig nD τ) ℕ cfgA c where
  A w := V c (Pipeline.arrRef spec1 w)
  after w t := match w with
    | ⟨0, _⟩ => iblk1 V c (0 : Fin 4) t
    | ⟨1, _⟩ => iblk1 V c (1 : Fin 4) t
    | ⟨2, _⟩ => iblk1 V c (2 : Fin 4) t
    | ⟨3, _⟩ => (traj1 V c t.val t.isLt).1
  Φ t := Phi1 V c t
  q _ := fullShare
  owed _ := 0

/-- The proof data's arrays are the region-entry contents. -/
theorem A_eq1 (c : Dev nD) (w : Fin cfgA.W) : (dat1 V c).A w = V c (Pipeline.arrRef spec1 w) := by
  dsimp only [dat1]

/-- What the body leaves, window by window. -/
theorem after1_0 (c : Dev nD) (t : Fin cfgA.N) : (dat1 V c).after (0 : Fin 4) t = iblk1 V c (0 : Fin 4) t := by dsimp only [dat1]
theorem after1_1 (c : Dev nD) (t : Fin cfgA.N) : (dat1 V c).after (1 : Fin 4) t = iblk1 V c (1 : Fin 4) t := by dsimp only [dat1]
theorem after1_2 (c : Dev nD) (t : Fin cfgA.N) : (dat1 V c).after (2 : Fin 4) t = iblk1 V c (2 : Fin 4) t := by dsimp only [dat1]
theorem after1_3 (c : Dev nD) (t : Fin cfgA.N) : (dat1 V c).after (3 : Fin 4) t = (traj1 V c t.val t.isLt).1 := by dsimp only [dat1]

theorem Phi_eq1 (c : Dev nD) (t : Fin (cfgA.N + 1)) : (dat1 V c).Φ t = Phi1 V c t := by dsimp only [dat1]

/-- Each input's current staging buffer holds its block at every step, moved there at that step or not. -/
theorem before1_0 (c : Dev nD) (t : Fin cfgA.N) (d) : (dat1 V c).before (0 : Fin 4) t d = iblk1 V c (0 : Fin 4) t :=
  ((dat1 V c).before_in_eq_fetched (0 : Fin 4) rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfgA.N) (d) : (dat1 V c).before (1 : Fin 4) t d = iblk1 V c (1 : Fin 4) t :=
  ((dat1 V c).before_in_eq_fetched (1 : Fin 4) rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfgA.N) (d) : (dat1 V c).before (2 : Fin 4) t d = iblk1 V c (2 : Fin 4) t :=
  ((dat1 V c).before_in_eq_fetched (2 : Fin 4) rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- The body at step t on its staging memrefs, as the pipeline calls it. -/
abbrev bodyAt1 (t : Fin cfgA.N) : Prog (TpuEff nD τ sig (Elt Bits) Λ₀ .tc) PUnit :=
  cc1_kernel (crd t) tbQ (Memref.isWhole_whole _) tbK (Memref.isWhole_whole _) (ms1_0 t) (hs1_0 t) (ms1_1 t) (hs1_1 t) (ms1_2 t) (hs1_2 t) (ms1_3 t) (hs1_3 t) scM (Memref.isWhole_whole _) scL (Memref.isWhole_whole _) scA (Memref.isWhole_whole _)

set_option maxHeartbeats 4000000 in
/-- The body at step t: the step's words tell its course; the inputs' buffers hold their blocks; the scratch holds
    what the step before left (anything, at a reset); so the course's triple applies, and what it leaves is what
    the trajectory names. Away from the diagonal tile the output buffer is handed back as found. -/
theorem sound_body1 (c : Dev nD) (t : Fin cfgA.N) :
    iprop((dat1 V c).Φ t.castSucc ∗ (dat1 V c).owesAt () t.castSucc
        ∗ (∃ d, owns (c : Thread nD τ) (ms1_0 t) fullShare ((dat1 V c).before (0 : Fin 4) t d))
        ∗ (∃ d, owns (c : Thread nD τ) (ms1_1 t) fullShare ((dat1 V c).before (1 : Fin 4) t d))
        ∗ (∃ d, owns (c : Thread nD τ) (ms1_2 t) fullShare ((dat1 V c).before (2 : Fin 4) t d))
        ∗ (∃ d, owns (c : Thread nD τ) (ms1_3 t) fullShare ((dat1 V c).before (3 : Fin 4) t d)))
      ⊢ wp frame (wpE (defs₀ (F := Bits)) Variants.none c none) Set.univ (bodyAt1 t) fun _ =>
          iprop((dat1 V c).Φ t.succ ∗ (dat1 V c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dat1 V c).before w t d))
                  | true => owns (c : Thread nD τ) ((cfgA.win w).stage (cfgA.slots t w)) fullShare ((dat1 V c).after w t)
                | false => owns (c : Thread nD τ) ((cfgA.win w).stage (cfgA.slots t w)) fullShare ((dat1 V c).after w t)) := by
  rw [Gen.bigSep_W1]
  by_cases hF : isFirst t
  · by_cases hD : isDiag t
    · -- the reset and the diagonal tile
      have i3 := idle3_of_diag t hD
      rewrite [i3]
      simp only [before1_0, before1_1, before1_2, after1_0, after1_1, after1_2, after1_3, Phi_eq1]
      rewrite [show (dat1 V c).owesAt () t.succ = (dat1 V c).owesAt () t.castSucc from rfl, Phi1_succ, traj1_eq, step1_A V c t _ hF hD]
      unfold scrAt tablesHeld out1_A; dsimp only
      refine (sep_mono (Phi1_any V c t.castSucc) .rfl).trans ?_
      iintro ⟨⟨⟨⟨%xm, HM⟩, ⟨%xl, HL⟩, ⟨%xa, HA⟩⟩, ⟨HQ, HK⟩, HR⟩, Ho, ⟨%d0, H0⟩, ⟨%d1, H1⟩, ⟨%d2, H2⟩, ⟨%d3, H3⟩⟩
      iapply ((runA V c t hF hD).2.2.2.2 xm xl xa _)
      isplitl [H0]; · iexact H0
      isplitl [H1]; · iexact H1
      isplitl [H2]; · iexact H2
      isplitl [HQ]; · iexact HQ
      isplitl [HK]; · iexact HK
      isplitl [H3]; · iexists _; iexact H3
      isplitl [HM]; · iexact HM
      isplitl [HL]; · iexact HL
      isplitl [HA]; · iexact HA
      iintro ⟨H0, H1, H2, HQ, HK, ⟨%e3, H3⟩, HM, HL, HA⟩
      isplitl [HM HL HA HQ HK HR]
      · isplitl [HM HL HA]
        · isplitl [HM]; · iexact HM
          isplitl [HL]; · iexact HL
          iexact HA
        isplitl [HQ HK]
        · isplitl [HQ]; · iexact HQ
          iexact HK
        iexact HR
      isplitl [Ho]; · iexact Ho
      isplitl [H0]; · iexact H0
      isplitl [H1]; · iexact H1
      isplitl [H2]; · iexact H2
      unfold owns; iexists _; isplitr; swap
      · iexact H3
      · ipureintro; exact View.read_writes_of_cover _ _ _ _ _ (cover3_A V c t hF hD)
    · -- the reset and a tile below the diagonal
      obtain ⟨i3, f3⟩ := idle3_of_not_diag t hD
      rewrite [i3]
      simp only [before1_0, before1_1, before1_2, after1_0, after1_1, after1_2, f3, Phi_eq1]
      rewrite [show (dat1 V c).owesAt () t.succ = (dat1 V c).owesAt () t.castSucc from rfl, Phi1_succ, traj1_eq, step1_B V c t _ hF hD]
      unfold scrAt tablesHeld; dsimp only
      refine (sep_mono (Phi1_any V c t.castSucc) .rfl).trans ?_
      iintro ⟨⟨⟨⟨%xm, HM⟩, ⟨%xl, HL⟩, ⟨%xa, HA⟩⟩, ⟨HQ, HK⟩, HR⟩, Ho, ⟨%d0, H0⟩, ⟨%d1, H1⟩, ⟨%d2, H2⟩, ⟨%d3, H3⟩⟩
      iapply ((runB V c t hF hD).2.2.2 _ xm xl xa _)
      isplitl [H0]; · iexact H0
      isplitl [H1]; · iexact H1
      isplitl [H2]; · iexact H2
      isplitl [HQ]; · iexact HQ
      isplitl [HK]; · iexact HK
      isplitl [H3]; · iexact H3
      isplitl [HM]; · iexact HM
      isplitl [HL]; · iexact HL
      isplitl [HA]; · iexact HA
      iintro ⟨H0, H1, H2, HQ, HK, H3, HM, HL, HA⟩
      isplitl [HM HL HA HQ HK HR]
      · isplitl [HM HL HA]
        · isplitl [HM]; · iexact HM
          isplitl [HL]; · iexact HL
          iexact HA
        isplitl [HQ HK]
        · isplitl [HQ]; · iexact HQ
          iexact HK
        iexact HR
      isplitl [Ho]; · iexact Ho
      isplitl [H0]; · iexact H0
      isplitl [H1]; · iexact H1
      isplitl [H2]; · iexact H2
      iexists d3; iexact H3
  · have hz : t.val ≠ 0 := fun h => hF (isFirst_of_zero t h)
    by_cases hD : isDiag t
    · -- the diagonal tile over the carried scratch
      have i3 := idle3_of_diag t hD
      rewrite [i3]
      simp only [before1_0, before1_1, before1_2, after1_0, after1_1, after1_2, after1_3, Phi_eq1]
      rewrite [show (dat1 V c).owesAt () t.succ = (dat1 V c).owesAt () t.castSucc from rfl, Phi1_succ, traj1_eq, step1_D V c t _ hF hD]
      unfold out1_D
      rewrite [Phi1_castSucc_pos V c t hz]
      unfold scrAt tablesHeld; dsimp only
      iintro ⟨⟨⟨HM, HL, HA⟩, ⟨HQ, HK⟩, HR⟩, Ho, ⟨%d0, H0⟩, ⟨%d1, H1⟩, ⟨%d2, H2⟩, ⟨%d3, H3⟩⟩
      iapply ((runD V c t _ _ _ hF hD).2.2.2.2 _)
      isplitl [H0]; · iexact H0
      isplitl [H1]; · iexact H1
      isplitl [H2]; · iexact H2
      isplitl [HQ]; · iexact HQ
      isplitl [HK]; · iexact HK
      isplitl [H3]; · iexists _; iexact H3
      isplitl [HM]; · iexact HM
      isplitl [HL]; · iexact HL
      isplitl [HA]; · iexact HA
      iintro ⟨H0, H1, H2, HQ, HK, ⟨%e3, H3⟩, HM, HL, HA⟩
      isplitl [HM HL HA HQ HK HR]
      · isplitl [HM HL HA]
        · isplitl [HM]; · iexact HM
          isplitl [HL]; · iexact HL
          iexact HA
        isplitl [HQ HK]
        · isplitl [HQ]; · iexact HQ
          iexact HK
        iexact HR
      isplitl [Ho]; · iexact Ho
      isplitl [H0]; · iexact H0
      isplitl [H1]; · iexact H1
      isplitl [H2]; · iexact H2
      unfold owns; iexists _; isplitr; swap
      · iexact H3
      · ipureintro; exact View.read_writes_of_cover _ _ _ _ _ (cover3_D V c t _ _ _ hF hD)
    · -- a tile below the diagonal over the carried scratch
      obtain ⟨i3, f3⟩ := idle3_of_not_diag t hD
      rewrite [i3]
      simp only [before1_0, before1_1, before1_2, after1_0, after1_1, after1_2, f3, Phi_eq1]
      rewrite [show (dat1 V c).owesAt () t.succ = (dat1 V c).owesAt () t.castSucc from rfl, Phi1_succ, traj1_eq, step1_C V c t _ hF hD]
      rewrite [Phi1_castSucc_pos V c t hz]
      unfold scrAt tablesHeld; dsimp only
      iintro ⟨⟨⟨HM, HL, HA⟩, ⟨HQ, HK⟩, HR⟩, Ho, ⟨%d0, H0⟩, ⟨%d1, H1⟩, ⟨%d2, H2⟩, ⟨%d3, H3⟩⟩
      iapply ((runC V c t _ _ _ hF hD).2.2.2 _ _)
      isplitl [H0]; · iexact H0
      isplitl [H1]; · iexact H1
      isplitl [H2]; · iexact H2
      isplitl [HQ]; · iexact HQ
      isplitl [HK]; · iexact HK
      isplitl [H3]; · iexact H3
      isplitl [HM]; · iexact HM
      isplitl [HL]; · iexact HL
      isplitl [HA]; · iexact HA
      iintro ⟨H0, H1, H2, HQ, HK, H3, HM, HL, HA⟩
      isplitl [HM HL HA HQ HK HR]
      · isplitl [HM HL HA]
        · isplitl [HM]; · iexact HM
          isplitl [HL]; · iexact HL
          iexact HA
        isplitl [HQ HK]
        · isplitl [HQ]; · iexact HQ
          iexact HK
        iexact HR
      isplitl [Ho]; · iexact Ho
      isplitl [H0]; · iexact H0
      isplitl [H1]; · iexact H1
      isplitl [H2]; · iexact H2
      iexists d3; iexact H3

/-- The library's body obligation, at every step. -/
theorem body_obligation1 (c : Dev nD) : BodyObligation (dat1 V c) (defs₀ (F := Bits)) Variants.none () Set.univ := fun t => by
  rw [Gen.bigSep_W1]
  exact sound_body1 V c t

/-! ## Entering and leaving the region -/

/-- The two tables as the region is handed them, one by one. -/
theorem prefHeld1_eq (c : Dev nD) (q : Fin 2 → PosShare TreeShare) (v : pre1.Contents (Elt Bits)) :
    (Pipeline.prefHeld (Ix := Unit) (Name := ℕ) (U := UR sig nD τ) (Lvl := ℕ) pre1 c q v : sProp 𝕄)
      = iprop((((c : Thread nD τ).loc main_c) ↦{q 0} (show Buf (Elt Bits) ((c : Thread nD τ).loc main_c) from v 0))
          ∗ (((c : Thread nD τ).loc main_c_0) ↦{q 1} (show Buf (Elt Bits) ((c : Thread nD τ).loc main_c_0) from v 1))) := by
  unfold Pipeline.prefHeld
  rw [show (Finset.univ : Finset (Fin 2)) = insert 0 {1} from by decide, bigSep_insert (by decide), bigSep_singleton]
  rfl

/-- The invariant before the first step, from the tables and the scoped buffers the region does not stage. -/
theorem hin1 (c : Dev nD) :
    iprop(BI.emp ∗ Pipeline.prefHeld (Ix := Unit) (Name := ℕ) (U := UR sig nD τ) (Lvl := ℕ) pre1 c (fun _ => fullShare) (adm1).1
        ∗ Pipeline.scopedRest (Ix := Unit) (Name := ℕ) (U := UR sig nD τ) (Lvl := ℕ) (Val := Elt Bits) spec1 c) ⊢ (dat1 V c).Φ 0 := by
  rw [prefHeld1_eq, Gen.scopedRest1_eq, Phi_eq1, Phi1_zero]
  unfold scrAny tablesHeld restOther
  iintro ⟨-, ⟨HQ, HK⟩, R0, R1, R2, R3, R4, R5, R6, R7, R8, R9, R10, SM, SL, SA⟩
  isplitl [SM SL SA]
  · isplitl [SM]; · iexact SM
    isplitl [SL]; · iexact SL
    iexact SA
  isplitl [HQ HK]
  · isplitl [HQ]; · iexact HQ
    iexact HK
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

/-- After the last step the invariant gives the tables and those scoped buffers back. -/
theorem hout1 (c : Dev nD) :
    (dat1 V c).Φ (Fin.last cfgA.N) ⊢ iprop(Pipeline.prefHeld (Ix := Unit) (Name := ℕ) (U := UR sig nD τ) (Lvl := ℕ) pre1 c (fun _ => fullShare) (adm1).1
        ∗ Pipeline.scopedRest (Ix := Unit) (Name := ℕ) (U := UR sig nD τ) (Lvl := ℕ) (Val := Elt Bits) spec1 c) := by
  rw [prefHeld1_eq, Gen.scopedRest1_eq, Phi_eq1]
  refine (Phi1_any V c _).trans ?_
  unfold restOther
  iintro ⟨⟨SM, SL, SA⟩, ⟨HQ, HK⟩, R0, R1, R2, R3, R4, R5, R6, R7, R8, R9, R10⟩
  isplitl [HQ HK]
  · isplitl [HQ]; · iexact HQ
    iexact HK
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [SM]; · iexact SM
  isplitl [SL]; · iexact SL
  iexact SA

end Cert.Kernel.Hand

end
-- ==== Proof.BitsRunAll.lean ====
/-
  The run of the kernel program's @main, from the launch to the return: one stretch of host operations (the two
  index tables written as constants, the three weights cast to bf16), then the projection region, then the
  flash-attention region. The buffer contents are followed from boundary to boundary: at launch, after the host
  stretch, after the projection (its three outputs hold what its write-backs leave, everything else as entered) and
  after the attention region (its output likewise). The attention region reads its two index tables whole; what it
  finds in them is what the host stretch wrote, which is the table contents the region's pipeline is taken at. At the
  end every buffer the program does not scope holds the last boundary's contents: the result array what the
  attention region's write-backs leave, the four arguments what they held at launch.
-/
import proofs.«430317_j3848290697374_3_alg».proof.Proof.BitsR0Body
import proofs.«430317_j3848290697374_3_alg».proof.Proof.BitsR1Defs
import proofs.«430317_j3848290697374_3_alg».proof.Proof.BitsR1Body
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.BitExact

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt Bits) ℕ (UR sig nD τ) ℕ

variable (m : (ℓ : Loc nD τ sig) → Buf (Elt Bits) ℓ) (ρ : Dev nD → PrngReg)

/-! # The buffer contents at each boundary -/

/-- The core's buffers at launch. -/
abbrev W0 : Dev nD → Valuation τ sig (Elt Bits) := fun c b => (s₀ m ρ).mem ((c : Dev nD), b)
/-- After the host stretch: where the projection region is entered. -/
abbrev W1 : Dev nD → Valuation τ sig (Elt Bits) := fun c => StableHlo.after hostOps0 (W0 m ρ c)
/-- The same read at the core's references. -/
abbrev V1 : (c : Dev nD) → (b : Ref sig .tc) → Buf (Elt Bits) ((c : Thread nD τ).loc b) := fun c b => W1 m ρ c b
/-- After the projection region: its arrays at what its write-backs leave, every other buffer as entered. This is
    where the attention region is entered. -/
def W2 (c : Dev nD) : Valuation τ sig (Elt Bits) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := Bits)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt Bits) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region: its arrays at what its write-backs leave, every other buffer as entered. -/
def W3 (c : Dev nD) : Valuation τ sig (Elt Bits) :=
  Pipeline.withArrays spec1 c (W2 m ρ c) fun w => (dat1 (V2 m ρ) c).arrAt w cfgA.N
theorem W3_arr (c : Dev nD) (w : Fin cfgA.W) :
    W3 m ρ c (Proc.devRef .tc (Pipeline.arrRef spec1 w)) = (dat1 (V2 m ρ) c).arrAt w cfgA.N := by
  unfold W3; exact Pipeline.withArrays_arr spec1 (launch1 (F := Bits)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt Bits) ((c : Thread nD τ).loc b) := fun c b => W3 m ρ c b
theorem hF1 (c : Dev nD) (w : Fin cfgA.W) : (dat1 (V2 m ρ) c).arrAt w cfgA.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no host operation and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array ends at what the attention region's write-backs leave. -/
theorem W3_main_v4 (c : Dev nD) : W3 m ρ c (Proc.devRef .tc main_v4) = (dat1 (V2 m ρ) c).arrAt 3 cfgA.N :=
  W3_arr m ρ c 3

/-! ## What each region finds at its entry -/

/-- The attention region finds the two index tables as the host stretch wrote them. -/
theorem V2_tbl0 (c : Dev nD) : V2 m ρ c main_c = (fun i => lit0 (S2x18.rowMajor i)) := by
  refine (W2_of_ne m ρ c main_c (by decide)).trans ?_
  show StableHlo.after hostOps0 (W0 m ρ c) (Proc.devRef .tc main_c) = _
  after_results; rfl
theorem V2_tbl1 (c : Dev nD) : V2 m ρ c main_c_0 = (fun i => lit1 (S2x18.rowMajor i)) := by
  refine (W2_of_ne m ρ c main_c_0 (by decide)).trans ?_
  show StableHlo.after hostOps0 (W0 m ρ c) (Proc.devRef .tc main_c_0) = _
  after_results; rfl
/-- Together they are the table contents the attention region's pipeline is taken at. -/
theorem V2_tbl (c : Dev nD) : (fun k => V2 m ρ c (pre1.ref k)) = (adm1).1 := by
  funext k
  match k with
  | ⟨0, _⟩ => exact V2_tbl0 m ρ c
  | ⟨1, _⟩ => exact V2_tbl1 m ρ c

/-! # The proof data of both regions and what rides beside the buffers -/

/-- The tables' contents each pipeline is taken at: the projection has no table; the attention region's are the two
    constants of @main. -/
abbrev adm : (p : Fin 2) → (pcfgs (F := Bits) p).Adm := fun
  | ⟨0, _⟩ => cfg0.toPCfg_adm
  | ⟨1, _⟩ => adm1
/-- Each region's proof data at the contents the region is entered from. -/
def pdats : (p : Fin 2) → (c : Dev nD) → Dat τ (Elt Bits) Unit ℕ (UR sig nD τ) ℕ (Pipeline.pin (pcfgs (F := Bits)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch over every unscoped buffer from the contents W. -/
abbrev hseg (ops : List (HloOp τ sig (Elt Bits))) (hsub : ops.Forall fun op => op.bufs ⊆ StableHlo.tcRefs τ sig)
    (hfresh : ops.Forall fun op => op.fresh = ∅) (W : Dev nD → Valuation τ sig (Elt Bits)) :
    Pipeline.HostSeg (Name := ℕ) (U := UR sig nD τ) (pcfgs (F := Bits)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt Bits))).Forall fun op => op.fresh = ∅ := by
  simp only [List.Forall]; repeat' constructor
/-- An unscoped reference of the core is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the end: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-- The unscoped buffers that are no array of the attention region are its two tables, held whole at the contents its
    pipeline is taken at, and seven more. -/
theorem rest1_split (c : Dev nD) :
    (Pipeline.unscopedRest (Ix := Unit) (Name := ℕ) (U := UR sig nD τ) (Lvl := ℕ) spec1 c (V2 m ρ c) : sProp 𝕄)
      = iprop(Pipeline.prefHeld (Ix := Unit) (Name := ℕ) (U := UR sig nD τ) (Lvl := ℕ) pre1 c (fun _ => fullShare) (adm1).1
          ∗ Pipeline.unscopedRestP (Ix := Unit) (Name := ℕ) (U := UR sig nD τ) (Lvl := ℕ) pre1 spec1 c (V2 m ρ c)) := by
  rw [Pipeline.unscopedRest_split preFacts1 c (V2 m ρ c), V2_tbl m ρ c]

/-! # The regions as segments -/

set_option backward.isDefEq.respectTransparency.types false in
/-- The projection region: entered from every unscoped buffer at W1, left at W2. Its arrays are split out of the
    unscoped buffers and put back at the exit contents; the generator register goes into the region's invariant and
    comes back; nothing owed; no semaphore of the kernel's own. -/
def reg0 : Pipeline.RegionSeg (pcfgs (F := Bits)) adm (pdats m ρ) () defs₀ 𝒱₀ L lv 0 where
  win := (launch0 (F := Bits)).win.to₀
  block_pos := (launch0 (F := Bits)).block_pos
  stage_whole := (launch0 (F := Bits)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Bits)) adm (pdats m ρ) (launch0 (F := Bits)).win (launch0 (F := Bits)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Bits)) adm (Ix := Unit) (Name := ℕ) (U := UR sig nD τ) (Lvl := ℕ)
      (launch0 (F := Bits)).win (launch0 (F := Bits)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W2, left at W3. Its arrays are split out of the
    unscoped buffers and put back at the exit contents; its two tables, which hold the contents its pipeline is taken
    at, go into the region's invariant and come back unchanged; the seven other buffers and the generator register
    pass beside it; nothing owed; no semaphore of the kernel's own. -/
def reg1 : Pipeline.RegionSeg (pcfgs (F := Bits)) adm (pdats m ρ) () defs₀ 𝒱₀ L lv 1 where
  win := (launch1 (F := Bits)).win.to₀
  block_pos := (launch1 (F := Bits)).block_pos
  stage_whole := (launch1 (F := Bits)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(emp)
  Y c := Pipeline.prefHeld (Ix := Unit) (Name := ℕ) (U := UR sig nD τ) (Lvl := ℕ) pre1 c (fun _ => fullShare) (adm1).1
  Z c := iprop(Pipeline.unscopedRestP (Ix := Unit) (Name := ℕ) (U := UR sig nD τ) (Lvl := ℕ) pre1 spec1 c (V2 m ρ c) ∗ ∃ r, prngReg c r)
  hentry c := by
    rw [Pipeline.ownSems0_none]
    have hsplit := Pipeline.arrays_of_unscopedBufs (p := 1) (pcfgs (F := Bits)) adm (pdats m ρ) (launch1 (F := Bits)).win (launch1 (F := Bits)).arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    ihave Hrest := (Entails.of_eq (rest1_split m ρ c)) $$ Hrest
    icases Hrest with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := hin1 (V2 m ρ) c
  hout c := by
    rw [Pipeline.ownSems0_none]
    refine (hout1 (V2 m ρ) c).trans ?_
    iintro ⟨Hpf, Hs⟩
    isplitl [Hpf]; · iexact Hpf
    isplitr; · iempintro
    iexact Hs
  hexit c := by
    have hjoin := Pipeline.unscopedBufs_of_arrays (p := 1) (pcfgs (F := Bits)) adm (Ix := Unit) (Name := ℕ) (U := UR sig nD τ) (Lvl := ℕ)
      (launch1 (F := Bits)).win (launch1 (F := Bits)).arr_whole c (pdats m ρ) ((pdats m ρ 1 c).share_full fun _ => rfl)
      (V2 m ρ c) (V3 m ρ c) ((pdats m ρ 1 c).arrAt · cfgA.N) (hF1 m ρ c) (hrest1 m ρ c)
    rw [Pipeline.unscopedBufs_held] at hjoin
    iintro ⟨Ha, HO, HY, Hrest, Hp⟩
    ihave Hrest := (Entails.of_eq (rest1_split m ρ c).symm) $$ [HY Hrest]
    · isplitl [HY]; · iexact HY
      iexact Hrest
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! # @main as segments, and the launch -/

/-- @main's three segments in order: the host stretch from the launch contents, then the two regions. -/
abbrev segs : List (Pipeline.Seg (pcfgs (F := Bits)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := Bits) c = Pipeline.Seg.run (segs m ρ) := (main_chain c).trans (by chain_rfl)

set_option backward.isDefEq.respectTransparency.types false in
/-- THE RUN. From any memory with zero counters, every weakly fair execution of @main on the cores terminates, nothing
    faulting, and in every final state the result array holds what the attention region's write-backs leave and the
    four argument arrays hold what they held at launch. -/
theorem run_all : θ_run defs (onTc (τ := τ) (main (F := Bits))) ⟨m, fun _ => 0, ρ⟩ (fun r => ∀ c : Dev nD,
      r.2.mem ((c.tc : Thread nD τ).loc main_v4) = (dat1 (V2 m ρ) c).arrAt 3 cfgA.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Bits)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := Bits)) adm) (cellOf_inj adm)) (Pipeline.launchToks (Pipeline.pin (pcfgs (F := Bits)) adm) (cellOf_inj adm)))
    (hu₀ := by
      iintro Hu; imodintro
      isplitl [Hu]
      · iapply (show (ownU (initOf (Pipeline.cells (Pipeline.pin (pcfgs (F := Bits)) adm) (cellOf_inj adm)) (Pipeline.launchToks (Pipeline.pin (pcfgs (F := Bits)) adm) (cellOf_inj adm))) : sProp 𝕄)
            ⊢ BI.own (emb₁ (initOf (Pipeline.cells (Pipeline.pin (pcfgs (F := Bits)) adm) (cellOf_inj adm)) (Pipeline.launchToks (Pipeline.pin (pcfgs (F := Bits)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v4 (by decide))).trans (W3_main_v4 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- info: 'Cert.Kernel.Hand.run_all' depends on axioms: [propext, Classical.choice, Quot.sound] -/
#guard_msgs in #print axioms run_all

end Cert.Kernel.Hand

end
-- ==== Proof.R0Body.lean ====
/-
  Region 0, the projection kernel: at every one of its 8 grid points the body reads the 512 × 1024 tile of x and the
  three 1024 × 1024 weights and leaves in each output tile the product of the x tile with one weight. This file
  states what the body finds in its input tiles (each window's block of its array, whether or not the block was
  moved at that point), what it leaves in the three output tiles as a closed function of those blocks, and the
  body's triple at every point.
-/
import proofs.«430317_j3848290697374_3_alg».proof.Proof.Gen.KernelIdeal.Launch
import proofs.«430317_j3848290697374_3_alg».proof.Proof.Gen.KernelIdeal.Skeleton
import proofs.«430317_j3848290697374_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight's staging buffer holds the whole weight at every point: moved at the first point, and the block
    index never changes after it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The second weight's likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The third weight's likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 1024 tile. -/
abbrev r0_x : Rect S512x1024 := Rect.unit (s := S512x1024) ![0, 0] S512x1024.size inb_S512x1024_S512x1024_0_0
/-- The whole 1024 × 1024 weight. -/
abbrev r0_w : Rect S1024x1024 := Rect.unit (s := S1024x1024) ![0, 0] S1024x1024.size inb_S1024x1024_S1024x1024_0_0

/-! ## What the body leaves in each output tile -/

/-- The q tile after the body: the x tile times the first weight, stored over the whole tile. -/
def out0_4 (x0 : Vec F S512x1024 .f32) (w1 : Vec F S1024x1024 .bf16) : Vec F S512x1024 .bf16 :=
  View.canon [⟨r0_x, k0_pay2 (View.ld x0 r0_x) (View.ld w1 r0_w)⟩]
/-- The k tile after the body: the x tile times the second weight. -/
def out0_5 (x0 : Vec F S512x1024 .f32) (w2 : Vec F S1024x1024 .bf16) : Vec F S512x1024 .bf16 :=
  View.canon [⟨r0_x, k0_pay3 (View.ld x0 r0_x) (View.ld w2 r0_w)⟩]
/-- The v tile after the body: the x tile times the third weight. -/
def out0_6 (x0 : Vec F S512x1024 .f32) (w3 : Vec F S1024x1024 .bf16) : Vec F S512x1024 .bf16 :=
  View.canon [⟨r0_x, k0_pay4 (View.ld x0 r0_x) (View.ld w3 r0_w)⟩]

/-- The one store of an output tile covers it. -/
theorem cover0_out (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

/-! ## The body's triple -/

set_option maxHeartbeats 1000000 in
/-- The body on whole staging buffers, the inputs' at read contents and the outputs' at anything, runs to the
    continuation holding the inputs' as they were and each output's at its product. The body reads each output
    buffer once before it stores over it; what it reads there is used nowhere. -/
theorem sound_kernel0 (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The pipeline's proof data -/

/-- The proof data of the region on core c: the arrays as the region finds them; after the body at point t each
    input's buffer at its block and each output's at the product of the x block with its weight; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Defs.lean ====
/-
  The flash-attention region at the tables @main writes.

  The two prefetched tables hold, per grid step, the row tile qi and the column tile ki the step works on. @main
  writes them as constants, so the pipeline is taken at exactly those contents (`tblC`, admissible: every block the
  index maps name lies inside its array). Named here: the pipeline at them (`cfgA`, 36 steps), a step's coordinates,
  the staging memrefs the body is called with, the tables and the three scratch buffers as memrefs, the two words
  the body loads from the tables at a step (`wQ`: the row tile, `wK`: the column tile, spelled as a load through the
  table's memref reads them), and the body's three branch conditions at a step: `isFirst` (ki = 0: the running
  state is reset), `isOff` (ki ≠ qi: a tile strictly below the diagonal) and `isDiag` (ki = qi: the diagonal tile,
  after which the row tile's result is written).
-/
import proofs.«430317_j3848290697374_3_alg».proof.Proof.Gen.KernelIdeal.Launch
import proofs.«430317_j3848290697374_3_alg».proof.Proof.Gen.KernelIdeal.Skeleton
import proofs.«430317_j3848290697374_3_alg».proof.Proof.Gen.KernelIdeal.Points
import Idealize.ShloMosaic.Lib.Pipeline.FrameBody
import Idealize.ShloMosaic.Lib.Pipeline.TableIdle
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The two tables as @main's constants write them: row tiles, then column tiles. -/
def tblC : pre1.Contents (Elt Ideal) := fun
  | ⟨0, _⟩ => (fun i => lit0 (S2x18.rowMajor i))
  | ⟨1, _⟩ => (fun i => lit1 (S2x18.rowMajor i))

theorem tblC_0 : tblC (0 : Fin 2) = (fun i => lit0 (S2x18.rowMajor i)) := rfl
theorem tblC_1 : tblC (1 : Fin 2) = (fun i => lit1 (S2x18.rowMajor i)) := rfl

/-- Every block these tables name lies inside its array. -/
theorem ok_tblC : ok1 (F := Ideal) tblC := by decide +kernel

/-- The tables as admissible contents, and the pipeline at them. -/
def adm1 : (pcfg1 (F := Ideal)).Adm := ⟨tblC, ok_tblC⟩
abbrev cfgA : Pipeline.Cfg sig Λ₀ := cfg1 (F := Ideal) adm1

/-- It has 36 steps. -/
theorem N_A : cfgA.N = 36 := by decide +kernel

/-- A step's coordinates. -/
abbrev crd (t : Fin cfgA.N) : cfgA.grid.Coords := cfgA.grid.coords t

/-- Each window's current staging memref at step `t`, as the pipeline passes it, and its wholeness. -/
abbrev ms1_0 (t : Fin cfgA.N) : Memref sig .tc .vmem S512x1024 .bf16 := spec1_0.stage (cfgA.slots t (0 : Fin 4))
abbrev hs1_0 (t : Fin cfgA.N) : (ms1_0 t).IsWhole := hstage1_0 ((cfgA.slots t (0 : Fin 4)).cast nbuf1_0)
abbrev ms1_1 (t : Fin cfgA.N) : Memref sig .tc .vmem S512x1024 .bf16 := spec1_1.stage (cfgA.slots t (1 : Fin 4))
abbrev hs1_1 (t : Fin cfgA.N) : (ms1_1 t).IsWhole := hstage1_1 ((cfgA.slots t (1 : Fin 4)).cast nbuf1_1)
abbrev ms1_2 (t : Fin cfgA.N) : Memref sig .tc .vmem S512x1024 .bf16 := spec1_2.stage (cfgA.slots t (2 : Fin 4))
abbrev hs1_2 (t : Fin cfgA.N) : (ms1_2 t).IsWhole := hstage1_2 ((cfgA.slots t (2 : Fin 4)).cast nbuf1_2)
abbrev ms1_3 (t : Fin cfgA.N) : Memref sig .tc .vmem S512x1024 .f32 := spec1_3.stage (cfgA.slots t (3 : Fin 4))
abbrev hs1_3 (t : Fin cfgA.N) : (ms1_3 t).IsWhole := hstage1_3 ((cfgA.slots t (3 : Fin 4)).cast nbuf1_3)

/-- The tables and the scratch buffers as the body is handed them: whole buffers. -/
abbrev tbQ : Memref sig .tc .smem S2x18 .i32 := Memref.whole main_c
abbrev tbK : Memref sig .tc .smem S2x18 .i32 := Memref.whole main_c_0
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2

/-- The word a scalar load reads from each table held at contents `T`, at the offsets the body computes at `i`. -/
abbrev wordQ (T : S2x18.Idx → Elt Ideal .i32) (i : grid1.Coords) : BitVec 32 :=
  View.readAt (Elt Ideal) tbQ.view (Rect.unit (s := S2x18) (k1_off1 i) S1x1.size (k1_off1_inb i)).toLoadRect T (Shape.Idx.first (numel1_S1x1.symm ▸ Nat.one_pos))
abbrev wordK (T : S2x18.Idx → Elt Ideal .i32) (i : grid1.Coords) : BitVec 32 :=
  View.readAt (Elt Ideal) tbK.view (Rect.unit (s := S2x18) (k1_off1 i) S1x1.size (k1_off1_inb i)).toLoadRect T (Shape.Idx.first (numel1_S1x1.symm ▸ Nat.one_pos))

/-- The two tables at their literal types. -/
abbrev tQ : S2x18.Idx → Elt Ideal .i32 := fun i => lit0 (S2x18.rowMajor i)
abbrev tK : S2x18.Idx → Elt Ideal .i32 := fun i => lit1 (S2x18.rowMajor i)

/-- The row tile and the column tile of step `t`, as the body reads them. -/
abbrev wQ (t : Fin cfgA.N) : BitVec 32 := wordQ tQ (crd t)
abbrev wK (t : Fin cfgA.N) : BitVec 32 := wordK tK (crd t)

/-- The body's three branch conditions over the two words, as it computes them. -/
abbrev condFirst (vq vk : BitVec 32) : Prop := (Scalar.cmpi .ne (Scalar.extui (Scalar.cmpi .eq vk 0#32)) 0#32) = 1#1
abbrev condOff (vq vk : BitVec 32) : Prop := (Scalar.cmpi .ne (Scalar.extui (Scalar.cmpi .ne vk vq)) 0#32) = 1#1
abbrev condDiag (vq vk : BitVec 32) : Prop := k1_cond3 vq vk = 1#1

abbrev isFirst (t : Fin cfgA.N) : Prop := condFirst (wQ t) (wK t)
abbrev isOff (t : Fin cfgA.N) : Prop := condOff (wQ t) (wK t)
abbrev isDiag (t : Fin cfgA.N) : Prop := condDiag (wQ t) (wK t)

/-- The row tile and column tile of each step, as numbers: the rows go 0, 7, 1, 6, 2, 5, 3, 4 and within a row tile
    the column tile ascends from 0 to the row tile. -/
def qiOf : ℕ → ℕ := fun n => [0, 7,7,7,7,7,7,7,7, 1,1, 6,6,6,6,6,6,6, 2,2,2, 5,5,5,5,5,5, 3,3,3,3, 4,4,4,4,4].getD n 0
def kiOf : ℕ → ℕ := fun n => [0, 0,1,2,3,4,5,6,7, 0,1, 0,1,2,3,4,5,6, 0,1,2, 0,1,2,3,4,5, 0,1,2,3, 0,1,2,3,4].getD n 0

/-- The words the body reads are those numbers. -/
theorem wQ_eq : ∀ t : Fin cfgA.N, wQ t = BitVec.ofNat 32 (qiOf t.val) := by decide +kernel
theorem wK_eq : ∀ t : Fin cfgA.N, wK t = BitVec.ofNat 32 (kiOf t.val) := by decide +kernel

/-- The conditions in closed form. -/
theorem isFirst_iff : ∀ t : Fin cfgA.N, isFirst t ↔ kiOf t.val = 0 := by decide +kernel
theorem isOff_iff : ∀ t : Fin cfgA.N, isOff t ↔ kiOf t.val ≠ qiOf t.val := by decide +kernel
theorem isDiag_iff : ∀ t : Fin cfgA.N, isDiag t ↔ kiOf t.val = qiOf t.val := by decide +kernel

end Cert.KernelIdeal.Hand

end
-- ==== Proof.R1RunAB.lean ====
/-
  The flash-attention body on the two control paths that first reset the running state.

  A grid step whose column tile is 0 clears the three scratch buffers (the running shift to the constant the mask
  uses, the normaliser and the weighted sum to zero) before it does anything else. Two such paths exist: the row
  tile 0, whose only tile is the diagonal one (reset, the masked diagonal tile, then the quotient written to the
  output tile), and every later row tile's first step (reset, then an unmasked tile strictly below the diagonal, the
  output tile untouched). For each path this file runs the body once, on whole staging buffers at arbitrary
  contents, and records what it leaves in the three scratch buffers and in the output tile as closed terms of the
  three input tiles (and, on the diagonal, of the two words read from the tables).
-/
import proofs.«430317_j3848290697374_3_alg».proof.Proof.R1Defs
-- [ideal-only]
import Idealize.ShloMosaic.Lib.Pipeline.Value
-- [/ideal-only]

set_option maxRecDepth 16384
set_option Elab.async false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

-- [ideal-only]
/-- The zero offsets of a rank-2 whole-buffer access, however spelled. -/
private theorem hz : (![0, 0] : Fin 2 → Nat) = fun _ => 0 := funext fun a => by
  fin_cases a <;> rfl

/-- A list of stores whose last one (the head) fills the whole shape reads back as that store's payload, through
    any view and over any earlier contents. -/
private theorem read_writes_cons_unit_zero {Val : EltTy → Type} [∀ e, Nonempty (Val e)] {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) (f : v.ty.Contents Val) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h inb]

/-- A load of the whole shape after such a list of stores reads the last store's payload. -/
private theorem readCov_cons_unit_zero {Val : EltTy → Type} [∀ e, Nonempty (Val e)] {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.Mem.head _, View.mem_set_unit_zero h inb y⟩),
    View.canon_cons_unit_zero h inb, View.ld_unit_zero h inb]

/-- A load of a whole input tile reads the tile. -/
private theorem readAt_unread (m : Memref sig .tc .vmem S512x1024 .bf16) (h : m.IsWhole) (x : Vec Ideal S512x1024 .bf16) :
    View.readAt (Elt Ideal) m.view (Rect.unit (s := S512x1024) ![0, 0] S512x1024.size inb_S512x1024_S512x1024_0_0).toLoadRect (h.unread x) = x := by
  rw [View.readAt_eq_ld, h.read_unread, View.ld_unit_zero (S := S512x1024) hz]
-- [/ideal-only]

/-! ## Row tile 0: reset, the masked diagonal tile, the quotient written out -/

set_option maxHeartbeats 8000000 in
/-- The path of a step that is both the first and the last of its row tile. What the body leaves: the pieces it
    stores in the output tile and the final contents of the three scratch buffers, none of which depends on what the
    scratch held before (the reset overwrites it). -/
noncomputable def kernelRun1_A (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : ¬condOff (wordQ TQ i) (wordK TK i)) (hD : condDiag (wordQ TQ i) (wordK TK i)) :
    Σ' (outO : List (View.Piece (Elt Ideal) S512x1024 .f32)) (outM : Buf (Elt Ideal) ((c : Thread nD τ).loc cc1_scratch0)) (outL : Buf (Elt Ideal) ((c : Thread nD τ).loc cc1_scratch1)), { outA : Buf (Elt Ideal) ((c : Thread nD τ).loc cc1_scratch2) //
      ∀ (xm : Buf (Elt Ideal) ((c : Thread nD τ).loc cc1_scratch0)) (xl : Buf (Elt Ideal) ((c : Thread nD τ).loc cc1_scratch1)) (xa : Buf (Elt Ideal) ((c : Thread nD τ).loc cc1_scratch2)) (K : PUnit → sProp 𝕄),
        iprop(owns (c : Thread nD τ) arg4 fullShare x0 ∗ owns (c : Thread nD τ) arg5 fullShare x1 ∗ owns (c : Thread nD τ) arg6 fullShare x2
          ∗ (tbQ.view.loc (c : Thread nD τ) ↦{fullShare} TQ) ∗ (tbK.view.loc (c : Thread nD τ) ↦{fullShare} TK)
          ∗ (∃ d, owns (c : Thread nD τ) arg7 fullShare d)
          ∗ (scM.view.loc (c : Thread nD τ) ↦{fullShare} xm) ∗ (scL.view.loc (c : Thread nD τ) ↦{fullShare} xl) ∗ (scA.view.loc (c : Thread nD τ) ↦{fullShare} xa)
          ∗ (iprop(owns (c : Thread nD τ) arg4 fullShare x0 ∗ owns (c : Thread nD τ) arg5 fullShare x1 ∗ owns (c : Thread nD τ) arg6 fullShare x2
              ∗ (tbQ.view.loc (c : Thread nD τ) ↦{fullShare} TQ) ∗ (tbK.view.loc (c : Thread nD τ) ↦{fullShare} TK)
              ∗ (∃ f, arg7.view.loc (c : Thread nD τ) ↦[arg7.view.set]{fullShare} arg7.view.writes (Elt Ideal) f outO)
              ∗ (scM.view.loc (c : Thread nD τ) ↦{fullShare} outM) ∗ (scL.view.loc (c : Thread nD τ) ↦{fullShare} outL) ∗ (scA.view.loc (c : Thread nD τ) ↦{fullShare} outA)) -∗ K ⟨⟩))
          ⊢ wp frame (wpE (defs₀ (F := Ideal)) Variants.none c none) Set.univ (cc1_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, _, _, _, fun xm xl xa K => by
    unfold owns
    rw [cc1_kernel_eq_skeleton]; unfold cc1_kernel_skel
    rw [k1_part1_eq_skeleton, k1_part2_eq_skeleton]
    iintro ⟨⟨%f0, %hf0, H0⟩, ⟨%f1, %hf1, H1⟩, ⟨%f2, %hf2, H2⟩, HTQ, HTK, ⟨%d3, %f3, -, HO⟩, HM, HL, HA, Hk⟩
    obtain rfl := harg4.eq_unread hf0; obtain rfl := harg5.eq_unread hf1; obtain rfl := harg6.eq_unread hf2
    have hTQ : tbQ.IsWhole := Memref.isWhole_whole _
    have hTK : tbK.IsWhole := Memref.isWhole_whole _
    have hSM : scM.IsWhole := Memref.isWhole_whole _
    have hSL : scL.IsWhole := Memref.isWhole_whole _
    have hSA : scA.IsWhole := Memref.isWhole_whole _
    sl_exec! (disch := first | exact hF | exact hO | exact hD)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HTQ]; · iexact HTQ
    isplitl [HTK]; · iexact HTK
    isplitl [HO]; · iexists _; iexact HO
    isplitl [HM]; · iexact HM
    isplitl [HL]; · iexact HL
    iexact HA⟩

/-! ## A later row tile's first step: reset, then an unmasked tile below the diagonal -/

set_option maxHeartbeats 8000000 in
/-- The path of a step that is the first but not the last of its row tile. The output tile is left as it was; the
    scratch buffers end at contents that do not depend on what they held before. -/
noncomputable def kernelRun1_B (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : condOff (wordQ TQ i) (wordK TK i)) (hD : ¬condDiag (wordQ TQ i) (wordK TK i)) :
    Σ' (outM : Buf (Elt Ideal) ((c : Thread nD τ).loc cc1_scratch0)) (outL : Buf (Elt Ideal) ((c : Thread nD τ).loc cc1_scratch1)), { outA : Buf (Elt Ideal) ((c : Thread nD τ).loc cc1_scratch2) //
      ∀ (y : Vec Ideal S512x1024 .f32) (xm : Buf (Elt Ideal) ((c : Thread nD τ).loc cc1_scratch0)) (xl : Buf (Elt Ideal) ((c : Thread nD τ).loc cc1_scratch1)) (xa : Buf (Elt Ideal) ((c : Thread nD τ).loc cc1_scratch2)) (K : PUnit → sProp 𝕄),
        iprop(owns (c : Thread nD τ) arg4 fullShare x0 ∗ owns (c : Thread nD τ) arg5 fullShare x1 ∗ owns (c : Thread nD τ) arg6 fullShare x2
          ∗ (tbQ.view.loc (c : Thread nD τ) ↦{fullShare} TQ) ∗ (tbK.view.loc (c : Thread nD τ) ↦{fullShare} TK)
          ∗ owns (c : Thread nD τ) arg7 fullShare y
          ∗ (scM.view.loc (c : Thread nD τ) ↦{fullShare} xm) ∗ (scL.view.loc (c : Thread nD τ) ↦{fullShare} xl) ∗ (scA.view.loc (c : Thread nD τ) ↦{fullShare} xa)
          ∗ (iprop(owns (c : Thread nD τ) arg4 fullShare x0 ∗ owns (c : Thread nD τ) arg5 fullShare x1 ∗ owns (c : Thread nD τ) arg6 fullShare x2
              ∗ (tbQ.view.loc (c : Thread nD τ) ↦{fullShare} TQ) ∗ (tbK.view.loc (c : Thread nD τ) ↦{fullShare} TK)
              ∗ owns (c : Thread nD τ) arg7 fullShare y
              ∗ (scM.view.loc (c : Thread nD τ) ↦{fullShare} outM) ∗ (scL.view.loc (c : Thread nD τ) ↦{fullShare} outL) ∗ (scA.view.loc (c : Thread nD τ) ↦{fullShare} outA)) -∗ K ⟨⟩))
          ⊢ wp frame (wpE (defs₀ (F := Ideal)) Variants.none c none) Set.univ (cc1_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, _, _, fun y xm xl xa K => by
    unfold owns
    rw [cc1_kernel_eq_skeleton]; unfold cc1_kernel_skel
    rw [k1_part1_eq_skeleton, k1_part2_eq_skeleton]
    iintro ⟨⟨%f0, %hf0, H0⟩, ⟨%f1, %hf1, H1⟩, ⟨%f2, %hf2, H2⟩, HTQ, HTK, ⟨%f3, %hf3, HO⟩, HM, HL, HA, Hk⟩
    obtain rfl := harg4.eq_unread hf0; obtain rfl := harg5.eq_unread hf1; obtain rfl := harg6.eq_unread hf2
    obtain rfl := harg7.eq_unread hf3
    have hTQ : tbQ.IsWhole := Memref.isWhole_whole _
    have hTK : tbK.IsWhole := Memref.isWhole_whole _
    have hSM : scM.IsWhole := Memref.isWhole_whole _
    have hSL : scL.IsWhole := Memref.isWhole_whole _
    have hSA : scA.IsWhole := Memref.isWhole_whole _
    sl_exec! (disch := first | exact hF | exact hO | exact hD)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HTQ]; · iexact HTQ
    isplitl [HTK]; · iexact HTK
    isplitl [HO]
    · iexists _; isplitr; · ipureintro; exact harg7.read_unread _
      iexact HO
    isplitl [HM]; · iexact HM
    isplitl [HL]; · iexact HL
    iexact HA⟩

-- [ideal-only]
/-! ## What the two runs found, as the body's payload terms -/

/-- Row tile 0: the running shift ends at the diagonal tile's row maxima taken against the reset value. -/
theorem run_A_m (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : ¬condOff (wordQ TQ i) (wordK TK i)) (hD : condDiag (wordQ TQ i) (wordK TK i)) :
    ((kernelRun1_A c i arg4 harg4 arg5 harg5 arg6 harg6 arg7 harg7 TQ TK x0 x1 x2 hF hO hD).2.1 : S512x1.Idx → Elt Ideal .f32) = k1_pay6 (k1_pay15 (wordQ TQ i) (wordK TK i) x0 x1 (k1_pay1 (F := Ideal))) := by
  unfold kernelRun1_A
  dsimp only
  sl_unfold_words
  refine Eq.trans (View.read_whole cc1_scratch0 _).symm ?_
  refine (read_writes_cons_unit_zero (View.whole cc1_scratch0) hz _ _ _ _).trans ?_
  rw [readAt_unread arg4 harg4 x0, readAt_unread arg5 harg5 x1]
  simp only [View.readCov_unit_zero (S := S512x1) _ hz, View.readCov_unit_zero (S := S512x1024) _ hz,
    readCov_cons_unit_zero (S := S512x1) _ hz, readCov_cons_unit_zero (S := S512x1024) _ hz]
  rfl

/-- Row tile 0: the normaliser ends at the diagonal tile's update of the reset normaliser. -/
theorem run_A_l (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : ¬condOff (wordQ TQ i) (wordK TK i)) (hD : condDiag (wordQ TQ i) (wordK TK i)) :
    ((kernelRun1_A c i arg4 harg4 arg5 harg5 arg6 harg6 arg7 harg7 TQ TK x0 x1 x2 hF hO hD).2.2.1 : S512x1.Idx → Elt Ideal .f32) = k1_pay18 (wordQ TQ i) (wordK TK i) x0 x1 (k1_pay1 (F := Ideal)) (k1_pay1 (F := Ideal)) (k1_pay2 (F := Ideal)) := by
  unfold kernelRun1_A
  dsimp only
  sl_unfold_words
  refine Eq.trans (View.read_whole cc1_scratch1 _).symm ?_
  refine (read_writes_cons_unit_zero (View.whole cc1_scratch1) hz _ _ _ _).trans ?_
  rw [readAt_unread arg4 harg4 x0, readAt_unread arg5 harg5 x1]
  simp only [View.readCov_unit_zero (S := S512x1) _ hz, View.readCov_unit_zero (S := S512x1024) _ hz,
    readCov_cons_unit_zero (S := S512x1) _ hz, readCov_cons_unit_zero (S := S512x1024) _ hz]
  rfl

/-- Row tile 0: the weighted sum ends at the diagonal tile's update of the reset sum. -/
theorem run_A_acc (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : ¬condOff (wordQ TQ i) (wordK TK i)) (hD : condDiag (wordQ TQ i) (wordK TK i)) :
    ((kernelRun1_A c i arg4 harg4 arg5 harg5 arg6 harg6 arg7 harg7 TQ TK x0 x1 x2 hF hO hD).2.2.2.1 : S512x1024.Idx → Elt Ideal .f32) = k1_pay5 (k1_pay16 (wordQ TQ i) (wordK TK i) x0 x1 (k1_pay1 (F := Ideal)) (k1_pay1 (F := Ideal))) (k1_pay19 (wordQ TQ i) (wordK TK i) x0 x1 (k1_pay1 (F := Ideal))) x2 (k1_pay3 (F := Ideal)) := by
  unfold kernelRun1_A
  dsimp only
  sl_unfold_words
  refine Eq.trans (View.read_whole cc1_scratch2 _).symm ?_
  refine (read_writes_cons_unit_zero (View.whole cc1_scratch2) hz _ _ _ _).trans ?_
  rw [readAt_unread arg4 harg4 x0, readAt_unread arg5 harg5 x1, readAt_unread arg6 harg6 x2]
  simp only [View.readCov_unit_zero (S := S512x1) _ hz, View.readCov_unit_zero (S := S512x1024) _ hz,
    readCov_cons_unit_zero (S := S512x1) _ hz, readCov_cons_unit_zero (S := S512x1024) _ hz]
  rfl

/-- Row tile 0: the output tile, whatever it held, reads back as the quotient of the final sum by the final normaliser. -/
theorem run_A_out (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : ¬condOff (wordQ TQ i) (wordK TK i)) (hD : condDiag (wordQ TQ i) (wordK TK i)) (f : arg7.view.ty.Contents (Elt Ideal)) :
    arg7.view.read (Elt Ideal) (arg7.view.writes (Elt Ideal) f (kernelRun1_A c i arg4 harg4 arg5 harg5 arg6 harg6 arg7 harg7 TQ TK x0 x1 x2 hF hO hD).1)
      = k1_pay7 ((kernelRun1_A c i arg4 harg4 arg5 harg5 arg6 harg6 arg7 harg7 TQ TK x0 x1 x2 hF hO hD).2.2.2.1 : S512x1024.Idx → Elt Ideal .f32) ((kernelRun1_A c i arg4 harg4 arg5 harg5 arg6 harg6 arg7 harg7 TQ TK x0 x1 x2 hF hO hD).2.2.1 : S512x1.Idx → Elt Ideal .f32) := by
  rw [run_A_acc c i arg4 harg4 arg5 harg5 arg6 harg6 arg7 harg7 TQ TK x0 x1 x2 hF hO hD, run_A_l c i arg4 harg4 arg5 harg5 arg6 harg6 arg7 harg7 TQ TK x0 x1 x2 hF hO hD]
  unfold kernelRun1_A
  dsimp only
  sl_unfold_words
  refine (read_writes_cons_unit_zero arg7.view hz _ _ _ _).trans ?_
  rw [readAt_unread arg4 harg4 x0, readAt_unread arg5 harg5 x1, readAt_unread arg6 harg6 x2]
  simp only [View.readCov_unit_zero (S := S512x1) _ hz, View.readCov_unit_zero (S := S512x1024) _ hz,
    readCov_cons_unit_zero (S := S512x1) _ hz, readCov_cons_unit_zero (S := S512x1024) _ hz]
  rfl

/-- A later row tile's first step: the running shift ends at the tile's row maxima taken against the reset value. -/
theorem run_B_m (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : condOff (wordQ TQ i) (wordK TK i)) (hD : ¬condDiag (wordQ TQ i) (wordK TK i)) :
    ((kernelRun1_B c i arg4 harg4 arg5 harg5 arg6 harg6 arg7 harg7 TQ TK x0 x1 x2 hF hO hD).1 : S512x1.Idx → Elt Ideal .f32) = k1_pay4 (k1_pay9 x0 x1 (k1_pay1 (F := Ideal))) := by
  unfold kernelRun1_B
  dsimp only
  sl_unfold_words
  refine Eq.trans (View.read_whole cc1_scratch0 _).symm ?_
  refine (read_writes_cons_unit_zero (View.whole cc1_scratch0) hz _ _ _ _).trans ?_
  rw [readAt_unread arg4 harg4 x0, readAt_unread arg5 harg5 x1]
  simp only [View.readCov_unit_zero (S := S512x1) _ hz, View.readCov_unit_zero (S := S512x1024) _ hz,
    readCov_cons_unit_zero (S := S512x1) _ hz, readCov_cons_unit_zero (S := S512x1024) _ hz]

/-- A later row tile's first step: the normaliser ends at the tile's update of the reset normaliser. -/
theorem run_B_l (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : condOff (wordQ TQ i) (wordK TK i)) (hD : ¬condDiag (wordQ TQ i) (wordK TK i)) :
    ((kernelRun1_B c i arg4 harg4 arg5 harg5 arg6 harg6 arg7 harg7 TQ TK x0 x1 x2 hF hO hD).2.1 : S512x1.Idx → Elt Ideal .f32) = k1_pay12 x0 x1 (k1_pay1 (F := Ideal)) (k1_pay1 (F := Ideal)) (k1_pay2 (F := Ideal)) := by
  unfold kernelRun1_B
  dsimp only
  sl_unfold_words
  refine Eq.trans (View.read_whole cc1_scratch1 _).symm ?_
  refine (read_writes_cons_unit_zero (View.whole cc1_scratch1) hz _ _ _ _).trans ?_
  rw [readAt_unread arg4 harg4 x0, readAt_unread arg5 harg5 x1]
  simp only [View.readCov_unit_zero (S := S512x1) _ hz, View.readCov_unit_zero (S := S512x1024) _ hz,
    readCov_cons_unit_zero (S := S512x1) _ hz, readCov_cons_unit_zero (S := S512x1024) _ hz]

/-- A later row tile's first step: the weighted sum ends at the tile's update of the reset sum. -/
theorem run_B_acc (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : condOff (wordQ TQ i) (wordK TK i)) (hD : ¬condDiag (wordQ TQ i) (wordK TK i)) :
    ((kernelRun1_B c i arg4 harg4 arg5 harg5 arg6 harg6 arg7 harg7 TQ TK x0 x1 x2 hF hO hD).2.2.1 : S512x1024.Idx → Elt Ideal .f32) = k1_pay13 x0 x1 (k1_pay1 (F := Ideal)) (k1_pay1 (F := Ideal)) x2 (k1_pay3 (F := Ideal)) := by
  unfold kernelRun1_B
  dsimp only
  sl_unfold_words
  refine Eq.trans (View.read_whole cc1_scratch2 _).symm ?_
  refine (read_writes_cons_unit_zero (View.whole cc1_scratch2) hz _ _ _ _).trans ?_
  rw [readAt_unread arg4 harg4 x0, readAt_unread arg5 harg5 x1, readAt_unread arg6 harg6 x2]
  simp only [View.readCov_unit_zero (S := S512x1) _ hz, View.readCov_unit_zero (S := S512x1024) _ hz,
    readCov_cons_unit_zero (S := S512x1) _ hz, readCov_cons_unit_zero (S := S512x1024) _ hz]

-- [/ideal-only]

end Cert.KernelIdeal.Hand

end
-- ==== Proof.R1RunCD.lean ====
/-
  The flash-attention body over a carried running state.

  At a grid step whose column tile is not the first of its row tile, the three scratch buffers hold the row tile's
  running shift, normaliser and weighted sum from the step before. Two control paths remain. Below the diagonal
  (column tile ≠ row tile) the body folds the tile into the running state and leaves the output window alone. On
  the diagonal (column tile = row tile) it folds the masked tile in and then writes sum / normaliser to the output
  window. Each path is run once here over symbolic staging memrefs, and what the run leaves in each buffer is then
  identified with the arithmetic of the step, spelt by the skeleton's payloads.
-/
import proofs.«430317_j3848290697374_3_alg».proof.Proof.R1Defs
-- [ideal-only]
import Idealize.ShloMosaic.Lib.Pipeline.Value
-- [/ideal-only]

set_option maxRecDepth 16384
set_option Elab.async false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/- The contents types of the three scratch buffers (running shift, normaliser, weighted sum) on device `c`. -/
set_option quotPrecheck false in
local notation "BufM[" c "]" => Buf (Elt Ideal) ((c : Thread nD τ).loc cc1_scratch0)
set_option quotPrecheck false in
local notation "BufL[" c "]" => Buf (Elt Ideal) ((c : Thread nD τ).loc cc1_scratch1)
set_option quotPrecheck false in
local notation "BufA[" c "]" => Buf (Elt Ideal) ((c : Thread nD τ).loc cc1_scratch2)

set_option maxHeartbeats 8000000 in
/-- Below the diagonal, over the carried state: what the body leaves in the three scratch buffers, with the proof
    that from the three input blocks, the two tables, an idle output window and the carried scratch, under the
    path's three decisions over the two words the body reads, it runs to a continuation holding all of it. -/
noncomputable def kernelRun1_C (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Ideal .i32) (x0 x1 x2 : Vec Ideal S512x1024 .bf16)
    (xm : BufM[c]) (xl : BufL[c]) (xa : BufA[c])
    (hF : ¬condFirst (wordQ TQ i) (wordK TK i)) (hO : condOff (wordQ TQ i) (wordK TK i)) (hD : ¬condDiag (wordQ TQ i) (wordK TK i)) :
    Σ' (outM : BufM[c]) (outL : BufL[c]), { outA : BufA[c] //
      ∀ (y : Vec Ideal S512x1024 .f32) (K : PUnit → sProp 𝕄),
        iprop(owns (c : Thread nD τ) arg4 fullShare x0
          ∗ owns (c : Thread nD τ) arg5 fullShare x1
          ∗ owns (c : Thread nD τ) arg6 fullShare x2
          ∗ (tbQ.view.loc (c : Thread nD τ) ↦{fullShare} TQ)
          ∗ (tbK.view.loc (c : Thread nD τ) ↦{fullShare} TK)
          ∗ owns (c : Thread nD τ) arg7 fullShare y
          ∗ (scM.view.loc (c : Thread nD τ) ↦{fullShare} xm)
          ∗ (scL.view.loc (c : Thread nD τ) ↦{fullShare} xl)
          ∗ (scA.view.loc (c : Thread nD τ) ↦{fullShare} xa)
          ∗ (iprop(owns (c : Thread nD τ) arg4 fullShare x0
          ∗ owns (c : Thread nD τ) arg5 fullShare x1
          ∗ owns (c : Thread nD τ) arg6 fullShare x2
          ∗ (tbQ.view.loc (c : Thread nD τ) ↦{fullShare} TQ)
          ∗ (tbK.view.loc (c : Thread nD τ) ↦{fullShare} TK)
          ∗ owns (c : Thread nD τ) arg7 fullShare y
          ∗ (scM.view.loc (c : Thread nD τ) ↦{fullShare} outM)
          ∗ (scL.view.loc (c : Thread nD τ) ↦{fullShare} outL)
          ∗ (scA.view.loc (c : Thread nD τ) ↦{fullShare} outA)) -∗ K ⟨⟩))
          ⊢ wp frame (wpE (defs₀ (F := Ideal)) Variants.none c none) Set.univ (cc1_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, _, _, fun (y : Vec Ideal S512x1024 .f32) K => by
    unfold owns
    rw [cc1_kernel_eq_skeleton]; unfold cc1_kernel_skel
    iintro ⟨⟨%f0, %hf0, H0⟩, ⟨%f1, %hf1, H1⟩, ⟨%f2, %hf2, H2⟩, HTQ, HTK, ⟨%f3, %hf3, HO⟩, HSM, HSL, HSA, Hk⟩
    obtain rfl := harg4.eq_unread hf0
    obtain rfl := harg5.eq_unread hf1
    obtain rfl := harg6.eq_unread hf2
    obtain rfl := harg7.eq_unread hf3
    have hTQ : tbQ.IsWhole := Memref.isWhole_whole _
    have hTK : tbK.IsWhole := Memref.isWhole_whole _
    have hSM : scM.IsWhole := Memref.isWhole_whole _
    have hSL : scL.IsWhole := Memref.isWhole_whole _
    have hSA : scA.IsWhole := Memref.isWhole_whole _
    sl_exec! (disch := first | sl_exact hF | sl_exact hO | sl_exact hD)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HTQ]; · iexact HTQ
    isplitl [HTK]; · iexact HTK
    isplitl [HO]
    · iexists _; isplitr; · ipureintro; exact harg7.read_unread _
      iexact HO
    isplitl [HSM]; · iexact HSM
    isplitl [HSL]; · iexact HSL
    iexact HSA⟩

set_option maxHeartbeats 8000000 in
/-- On the diagonal, over the carried state: what the body leaves in the three scratch buffers and the pieces it
    stores to the output window, with the proof that from the three input blocks, the two tables, the output
    window at any contents and the carried scratch, under the path's three decisions, it runs to a continuation
    holding all of it. -/
noncomputable def kernelRun1_D (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Ideal .i32) (x0 x1 x2 : Vec Ideal S512x1024 .bf16)
    (xm : BufM[c]) (xl : BufL[c]) (xa : BufA[c])
    (hF : ¬condFirst (wordQ TQ i) (wordK TK i)) (hO : ¬condOff (wordQ TQ i) (wordK TK i)) (hD : condDiag (wordQ TQ i) (wordK TK i)) :
    Σ' (outO : List (View.Piece (Elt Ideal) S512x1024 .f32)) (outM : BufM[c]) (outL : BufL[c]), { outA : BufA[c] //
      ∀ (K : PUnit → sProp 𝕄),
        iprop(owns (c : Thread nD τ) arg4 fullShare x0
          ∗ owns (c : Thread nD τ) arg5 fullShare x1
          ∗ owns (c : Thread nD τ) arg6 fullShare x2
          ∗ (tbQ.view.loc (c : Thread nD τ) ↦{fullShare} TQ)
          ∗ (tbK.view.loc (c : Thread nD τ) ↦{fullShare} TK)
          ∗ (∃ d, owns (c : Thread nD τ) arg7 fullShare d)
          ∗ (scM.view.loc (c : Thread nD τ) ↦{fullShare} xm)
          ∗ (scL.view.loc (c : Thread nD τ) ↦{fullShare} xl)
          ∗ (scA.view.loc (c : Thread nD τ) ↦{fullShare} xa)
          ∗ (iprop(owns (c : Thread nD τ) arg4 fullShare x0
          ∗ owns (c : Thread nD τ) arg5 fullShare x1
          ∗ owns (c : Thread nD τ) arg6 fullShare x2
          ∗ (tbQ.view.loc (c : Thread nD τ) ↦{fullShare} TQ)
          ∗ (tbK.view.loc (c : Thread nD τ) ↦{fullShare} TK)
          ∗ (∃ f, arg7.view.loc (c : Thread nD τ) ↦[arg7.view.set]{fullShare} arg7.view.writes (Elt Ideal) f outO)
          ∗ (scM.view.loc (c : Thread nD τ) ↦{fullShare} outM)
          ∗ (scL.view.loc (c : Thread nD τ) ↦{fullShare} outL)
          ∗ (scA.view.loc (c : Thread nD τ) ↦{fullShare} outA)) -∗ K ⟨⟩))
          ⊢ wp frame (wpE (defs₀ (F := Ideal)) Variants.none c none) Set.univ (cc1_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, _, _, _, fun K => by
    unfold owns
    rw [cc1_kernel_eq_skeleton]; unfold cc1_kernel_skel
    iintro ⟨⟨%f0, %hf0, H0⟩, ⟨%f1, %hf1, H1⟩, ⟨%f2, %hf2, H2⟩, HTQ, HTK, ⟨%d3, %f3, -, HO⟩, HSM, HSL, HSA, Hk⟩
    obtain rfl := harg4.eq_unread hf0
    obtain rfl := harg5.eq_unread hf1
    obtain rfl := harg6.eq_unread hf2
    have hTQ : tbQ.IsWhole := Memref.isWhole_whole _
    have hTK : tbK.IsWhole := Memref.isWhole_whole _
    have hSM : scM.IsWhole := Memref.isWhole_whole _
    have hSL : scL.IsWhole := Memref.isWhole_whole _
    have hSA : scA.IsWhole := Memref.isWhole_whole _
    sl_exec! (disch := first | sl_exact hF | sl_exact hO | sl_exact hD)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HTQ]; · iexact HTQ
    isplitl [HTK]; · iexact HTK
    isplitl [HO]; · iexists _; iexact HO
    isplitl [HSM]; · iexact HSM
    isplitl [HSL]; · iexact HSL
    iexact HSA⟩

-- [ideal-only]
/-! ## What the runs found, as the step's arithmetic

Each scratch buffer is stored to once on either path, through the rectangle of its whole shape, so what it holds
afterwards is that store's payload; every load the payload is computed from reads a whole buffer through the same
rectangle, so it reads the buffer's contents. -/

private theorem zero2 : (![0, 0] : Fin 2 → Nat) = fun _ => 0 := funext fun a => by fin_cases a <;> rfl

/-- A whole buffer written over junk holds what its pieces say: the last piece covering an index decides it. -/
private theorem whole_writes_junk (b : Ref sig .tc) (L : List (View.Piece (Elt Ideal) (View.whole b).ty.shape (View.whole b).ty.elt)) :
    (View.whole b).writes (Elt Ideal) (View.whole b).junk L = View.canon L :=
  View.read_writes_junk_eq_canon (View.whole b) L

/-- What one store through the whole-shape rectangle leaves, read back: its payload, whatever was there before. -/
private theorem read_writes_unit_zero {κ : Kind} {sp : Space} {S : Shape} {e : EltTy} (v : View sig κ sp S e)
    (f : v.ty.Contents (Elt Ideal)) {off : Fin S.rank → Nat} (h : off = fun _ => 0) (inb : ∀ a, off a + S.size a ≤ S.size a)
    (w : S.Idx → Elt Ideal e) :
    v.read (Elt Ideal) (v.writes (Elt Ideal) f [(⟨Rect.unit off S.size inb, w⟩ : View.Piece (Elt Ideal) S e)]) = w := by
  rw [View.read_writes_eq_canon v f _ (fun y => ⟨_, List.mem_singleton_self _, View.mem_set_unit_zero h inb y⟩),
    View.canon_unit_zero h]

/-- Below the diagonal the new running shift is the maximum of the old one and the tile's row maxima. -/
theorem run_C_m (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Ideal .i32) (x0 x1 x2 : Vec Ideal S512x1024 .bf16)
    (xm : BufM[c]) (xl : BufL[c]) (xa : BufA[c])
    (hF : ¬condFirst (wordQ TQ i) (wordK TK i)) (hO : condOff (wordQ TQ i) (wordK TK i)) (hD : ¬condDiag (wordQ TQ i) (wordK TK i)) :
    ((kernelRun1_C c i arg4 harg4 arg5 harg5 arg6 harg6 arg7 harg7 TQ TK x0 x1 x2 xm xl xa hF hO hD).1 : S512x1.Idx → Elt Ideal .f32) = k1_pay4 (k1_pay9 x0 x1 xm) := by
  unfold kernelRun1_C
  dsimp only
  rw [whole_writes_junk]
  sl_unfold_words
  rw [View.canon_unit_zero (S := S512x1) zero2]
  simp only [View.readAt_eq_ld, harg4.read_unread, harg5.read_unread, View.read_whole, Memref.view_whole, View.ld_unit_zero (S := S512x1024) zero2, View.ld_unit_zero (S := S512x1) zero2]
  rfl

/-- Below the diagonal the new normaliser is the old one rescaled plus the tile's row sums of exponentials. -/
theorem run_C_l (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Ideal .i32) (x0 x1 x2 : Vec Ideal S512x1024 .bf16)
    (xm : BufM[c]) (xl : BufL[c]) (xa : BufA[c])
    (hF : ¬condFirst (wordQ TQ i) (wordK TK i)) (hO : condOff (wordQ TQ i) (wordK TK i)) (hD : ¬condDiag (wordQ TQ i) (wordK TK i)) :
    ((kernelRun1_C c i arg4 harg4 arg5 harg5 arg6 harg6 arg7 harg7 TQ TK x0 x1 x2 xm xl xa hF hO hD).2.1 : S512x1.Idx → Elt Ideal .f32) = k1_pay12 x0 x1 xm xm xl := by
  unfold kernelRun1_C
  dsimp only
  rw [whole_writes_junk]
  sl_unfold_words
  rw [View.canon_unit_zero (S := S512x1) zero2]
  simp only [View.readAt_eq_ld, harg4.read_unread, harg5.read_unread, View.read_whole, Memref.view_whole, View.ld_unit_zero (S := S512x1024) zero2, View.ld_unit_zero (S := S512x1) zero2]
  rfl

/-- Below the diagonal the new weighted sum is the old one rescaled plus the tile's exponentials times the value block. -/
theorem run_C_acc (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Ideal .i32) (x0 x1 x2 : Vec Ideal S512x1024 .bf16)
    (xm : BufM[c]) (xl : BufL[c]) (xa : BufA[c])
    (hF : ¬condFirst (wordQ TQ i) (wordK TK i)) (hO : condOff (wordQ TQ i) (wordK TK i)) (hD : ¬condDiag (wordQ TQ i) (wordK TK i)) :
    ((kernelRun1_C c i arg4 harg4 arg5 harg5 arg6 harg6 arg7 harg7 TQ TK x0 x1 x2 xm xl xa hF hO hD).2.2.1 : S512x1024.Idx → Elt Ideal .f32) = k1_pay13 x0 x1 xm xm x2 xa := by
  unfold kernelRun1_C
  dsimp only
  rw [whole_writes_junk]
  sl_unfold_words
  rw [View.canon_unit_zero (S := S512x1024) zero2]
  simp only [View.readAt_eq_ld, harg4.read_unread, harg5.read_unread, harg6.read_unread, View.read_whole, Memref.view_whole, View.ld_unit_zero (S := S512x1024) zero2, View.ld_unit_zero (S := S512x1) zero2]
  rfl

/-- On the diagonal the new running shift is the maximum of the old one and the masked tile's row maxima. -/
theorem run_D_m (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Ideal .i32) (x0 x1 x2 : Vec Ideal S512x1024 .bf16)
    (xm : BufM[c]) (xl : BufL[c]) (xa : BufA[c])
    (hF : ¬condFirst (wordQ TQ i) (wordK TK i)) (hO : ¬condOff (wordQ TQ i) (wordK TK i)) (hD : condDiag (wordQ TQ i) (wordK TK i)) :
    ((kernelRun1_D c i arg4 harg4 arg5 harg5 arg6 harg6 arg7 harg7 TQ TK x0 x1 x2 xm xl xa hF hO hD).2.1 : S512x1.Idx → Elt Ideal .f32) = k1_pay6 (k1_pay15 (wordQ TQ i) (wordK TK i) x0 x1 xm) := by
  unfold kernelRun1_D
  dsimp only
  rw [whole_writes_junk]
  sl_unfold_words
  rw [View.canon_unit_zero (S := S512x1) zero2]
  simp only [View.readAt_eq_ld, harg4.read_unread, harg5.read_unread, View.read_whole, Memref.view_whole, View.ld_unit_zero (S := S512x1024) zero2, View.ld_unit_zero (S := S512x1) zero2]
  rfl

/-- On the diagonal the new normaliser is the old one rescaled plus the masked tile's row sums of exponentials. -/
theorem run_D_l (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Ideal .i32) (x0 x1 x2 : Vec Ideal S512x1024 .bf16)
    (xm : BufM[c]) (xl : BufL[c]) (xa : BufA[c])
    (hF : ¬condFirst (wordQ TQ i) (wordK TK i)) (hO : ¬condOff (wordQ TQ i) (wordK TK i)) (hD : condDiag (wordQ TQ i) (wordK TK i)) :
    ((kernelRun1_D c i arg4 harg4 arg5 harg5 arg6 harg6 arg7 harg7 TQ TK x0 x1 x2 xm xl xa hF hO hD).2.2.1 : S512x1.Idx → Elt Ideal .f32) = k1_pay18 (wordQ TQ i) (wordK TK i) x0 x1 xm xm xl := by
  unfold kernelRun1_D
  dsimp only
  rw [whole_writes_junk]
  sl_unfold_words
  rw [View.canon_unit_zero (S := S512x1) zero2]
  simp only [View.readAt_eq_ld, harg4.read_unread, harg5.read_unread, View.read_whole, Memref.view_whole, View.ld_unit_zero (S := S512x1024) zero2, View.ld_unit_zero (S := S512x1) zero2]
  rfl

/-- On the diagonal the new weighted sum is the old one rescaled plus the masked tile's exponentials times the value block. -/
theorem run_D_acc (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Ideal .i32) (x0 x1 x2 : Vec Ideal S512x1024 .bf16)
    (xm : BufM[c]) (xl : BufL[c]) (xa : BufA[c])
    (hF : ¬condFirst (wordQ TQ i) (wordK TK i)) (hO : ¬condOff (wordQ TQ i) (wordK TK i)) (hD : condDiag (wordQ TQ i) (wordK TK i)) :
    ((kernelRun1_D c i arg4 harg4 arg5 harg5 arg6 harg6 arg7 harg7 TQ TK x0 x1 x2 xm xl xa hF hO hD).2.2.2.1 : S512x1024.Idx → Elt Ideal .f32) = k1_pay5 (k1_pay16 (wordQ TQ i) (wordK TK i) x0 x1 xm xm) (k1_pay19 (wordQ TQ i) (wordK TK i) x0 x1 xm) x2 xa := by
  unfold kernelRun1_D
  dsimp only
  rw [whole_writes_junk]
  sl_unfold_words
  rw [View.canon_unit_zero (S := S512x1024) zero2]
  simp only [View.readAt_eq_ld, harg4.read_unread, harg5.read_unread, harg6.read_unread, View.read_whole, Memref.view_whole, View.ld_unit_zero (S := S512x1024) zero2, View.ld_unit_zero (S := S512x1) zero2]
  rfl

/-- On the diagonal the output window then holds the new weighted sum divided by the new normaliser, whatever it held before. -/
theorem run_D_out (c : Dev nD) (i : grid1.Coords)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .f32) (harg7 : arg7.IsWhole)
    (TQ TK : S2x18.Idx → Elt Ideal .i32) (x0 x1 x2 : Vec Ideal S512x1024 .bf16)
    (xm : BufM[c]) (xl : BufL[c]) (xa : BufA[c])
    (hF : ¬condFirst (wordQ TQ i) (wordK TK i)) (hO : ¬condOff (wordQ TQ i) (wordK TK i)) (hD : condDiag (wordQ TQ i) (wordK TK i)) (f : arg7.view.ty.Contents (Elt Ideal)) :
    arg7.view.read (Elt Ideal) (arg7.view.writes (Elt Ideal) f (kernelRun1_D c i arg4 harg4 arg5 harg5 arg6 harg6 arg7 harg7 TQ TK x0 x1 x2 xm xl xa hF hO hD).1)
      = k1_pay7 ((kernelRun1_D c i arg4 harg4 arg5 harg5 arg6 harg6 arg7 harg7 TQ TK x0 x1 x2 xm xl xa hF hO hD).2.2.2.1 : S512x1024.Idx → Elt Ideal .f32) ((kernelRun1_D c i arg4 harg4 arg5 harg5 arg6 harg6 arg7 harg7 TQ TK x0 x1 x2 xm xl xa hF hO hD).2.2.1 : S512x1.Idx → Elt Ideal .f32) := by
  unfold kernelRun1_D
  dsimp only
  rw [whole_writes_junk, whole_writes_junk]
  sl_unfold_words
  rw [read_writes_unit_zero (S := S512x1024) _ _ zero2]
  simp only [View.canon_unit_zero (S := S512x1024) zero2, View.canon_unit_zero (S := S512x1) zero2,
    View.readCov_unit_zero (S := S512x1024) _ zero2, View.readCov_unit_zero (S := S512x1) _ zero2,
    View.readAt_eq_ld, harg4.read_unread, harg5.read_unread, harg6.read_unread, View.read_whole, Memref.view_whole,
    View.ld_unit_zero (S := S512x1024) zero2, View.ld_unit_zero (S := S512x1) zero2]

-- [/ideal-only]

end Cert.KernelIdeal.Hand

end
-- ==== Proof.R1Body.lean ====
/-
  The flash-attention region, step by step. At each of its 36 grid steps the body reads the row tile and column tile
  of the step from the two tables and takes one of four courses: the first column tile of a row tile resets the running
  shift, normaliser and sum; a tile strictly below the diagonal folds its scores into them; the diagonal tile folds its
  masked scores in and stores the row tile's result, the sum divided by the normaliser. This file names what the
  three scratch buffers and the output tile hold after every step (each step's course run over what the step before
  left), the invariant the region keeps between steps (the scratch at those contents, the two tables held whole, the
  other region's staging buffers at anything), and proves the body's triple at every step.
-/
import proofs.«430317_j3848290697374_3_alg».proof.Proof.R1Defs
import proofs.«430317_j3848290697374_3_alg».proof.Proof.R1RunAB
import proofs.«430317_j3848290697374_3_alg».proof.Proof.R1RunCD
import Idealize.ShloMosaic.Lib.Pipeline.FrameBody
import Idealize.ShloMosaic.Lib.Pipeline.TableIdle
import Idealize.ShloMosaic.Lib.Writes
import Idealize.ShloMosaic.Lib.Ring
import Idealize.ShloMosaic.Lib.Tactic

set_option maxRecDepth 16384
set_option Elab.async false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

-- the core's buffer contents when the region is entered
variable (V : (c : Dev nD) → (b : Ref sig .tc) → Buf (Elt Ideal) ((c : Thread nD τ).loc b))

/-- What the three scratch buffers hold: the running shift (512 × 1), the normaliser (512 × 1), the sum (512 × 1024). -/
abbrev BufM (c : Dev nD) : Type := Buf (Elt Ideal) ((c : Thread nD τ).loc cc1_scratch0)
abbrev BufL (c : Dev nD) : Type := Buf (Elt Ideal) ((c : Thread nD τ).loc cc1_scratch1)
abbrev BufA (c : Dev nD) : Type := Buf (Elt Ideal) ((c : Thread nD τ).loc cc1_scratch2)

/-! ## Which of the four courses a step takes -/

/-- A tile is strictly below the diagonal exactly when it is not the diagonal tile. -/
theorem isOff_iff_not_diag (t : Fin cfgA.N) : isOff t ↔ ¬isDiag t := by
  rw [isOff_iff, isDiag_iff]

theorem notOff_of_diag (t : Fin cfgA.N) (h : isDiag t) : ¬isOff t := fun ho => (isOff_iff_not_diag t).mp ho h
theorem off_of_not_diag (t : Fin cfgA.N) (h : ¬isDiag t) : isOff t := (isOff_iff_not_diag t).mpr h

/-- The first step resets. -/
theorem isFirst_of_zero (t : Fin cfgA.N) (h : t.val = 0) : isFirst t := by
  rw [isFirst_iff, h]; rfl

/-- Every step takes exactly one of the four courses: reset and diagonal (the first step only), reset and below the
    diagonal, carried and below the diagonal, carried and diagonal. -/
theorem course_cases (t : Fin cfgA.N) :
    (isFirst t ∧ ¬isOff t ∧ isDiag t) ∨ (isFirst t ∧ isOff t ∧ ¬isDiag t) ∨ (¬isFirst t ∧ isOff t ∧ ¬isDiag t) ∨ (¬isFirst t ∧ ¬isOff t ∧ isDiag t) := by
  by_cases hF : isFirst t <;> by_cases hD : isDiag t
  · exact .inl ⟨hF, notOff_of_diag t hD, hD⟩
  · exact .inr (.inl ⟨hF, off_of_not_diag t hD, hD⟩)
  · exact .inr (.inr (.inr ⟨hF, notOff_of_diag t hD, hD⟩))
  · exact .inr (.inr (.inl ⟨hF, off_of_not_diag t hD, hD⟩))

/-- The reset and the diagonal tile meet at the first step only. -/
theorem zero_of_first_diag : ∀ t : Fin cfgA.N, isFirst t → isDiag t → t.val = 0 := by
  decide +kernel

/-- Away from the diagonal tile the output window is idle and is not written back. -/
theorem idle3_of_not_diag : ∀ t : Fin cfgA.N, ¬isDiag t → cfgA.idle (3 : Fin 4) (crd t) = true ∧ (cfgA.win (3 : Fin 4)).flush t = false := by
  decide +kernel

/-- At the diagonal tile the output window is stored. -/
theorem idle3_of_diag : ∀ t : Fin cfgA.N, isDiag t → cfgA.idle (3 : Fin 4) (crd t) = false := by
  decide +kernel

/-- The three input windows are never idle. -/
theorem idle0_false (i : cfgA.grid.Coords) : cfgA.idle (0 : Fin 4) i = false := rfl
theorem idle1_false (i : cfgA.grid.Coords) : cfgA.idle (1 : Fin 4) i = false := rfl
theorem idle2_false (i : cfgA.grid.Coords) : cfgA.idle (2 : Fin 4) i = false := rfl

/-! ## The windows' blocks -/

/-- Window w's block at step t, read off its array as the region finds it. -/
def iblk1 (c : Dev nD) (w : Fin cfgA.W) (t : Fin cfgA.N) : ((cfgA.win w).xblock (crd t)).Idx → Elt Ideal (cfgA.win w).elt :=
  ((cfgA.win w).blk t).view.read (Elt Ideal) (V c (Pipeline.arrRef spec1 w))

/-! ## Each course at a step -/

/-- The reset and the diagonal tile at step t. -/
abbrev runA (c : Dev nD) (t : Fin cfgA.N) (hF : isFirst t) (hD : isDiag t) :=
  kernelRun1_A c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (notOff_of_diag t hD) hD
/-- The reset and a tile below the diagonal at step t. -/
abbrev runB (c : Dev nD) (t : Fin cfgA.N) (hF : isFirst t) (hD : ¬isDiag t) :=
  kernelRun1_B c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (off_of_not_diag t hD) hD
/-- A tile below the diagonal at step t, over the scratch the step before left. -/
abbrev runC (c : Dev nD) (t : Fin cfgA.N) (xm : BufM c) (xl : BufL c) (xa : BufA c) (hF : ¬isFirst t) (hD : ¬isDiag t) :=
  kernelRun1_C c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) xm xl xa hF (off_of_not_diag t hD) hD
/-- The diagonal tile at step t, over the scratch the step before left. -/
abbrev runD (c : Dev nD) (t : Fin cfgA.N) (xm : BufM c) (xl : BufL c) (xa : BufA c) (hF : ¬isFirst t) (hD : isDiag t) :=
  kernelRun1_D c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) xm xl xa hF (notOff_of_diag t hD) hD

/-- One staging buffer of the output window, through which a stored tile is read back. -/
abbrev VO1 : View sig .tc .vmem S512x1024 .f32 := (Memref.whole cc1_stg3_0 : Memref sig .tc .vmem S512x1024 .f32).view

/-- The one store of the diagonal tile covers the output tile, -/
theorem coverGen_A (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (hF : condFirst (wordQ TQ i) (wordK TK i)) (hO : ¬condOff (wordQ TQ i) (wordK TK i)) (hD : condDiag (wordQ TQ i) (wordK TK i)) (y : S512x1024.Idx) :
    ∃ pc ∈ (kernelRun1_A c i arg4 harg4 arg5 harg5 arg6 harg6 arg7 harg7 TQ TK x0 x1 x2 hF hO hD).1, y ∈ pc.1.set :=
  View.cover_of_tiledL (kernelRun1_A c i arg4 harg4 arg5 harg5 arg6 harg6 arg7 harg7 TQ TK x0 x1 x2 hF hO hD).1 S512x1024.size (by sl_kernel_rfl) y
theorem coverGen_D (c : Dev nD) (i : grid1.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole)
    (TQ TK : S2x18.Idx → Elt Ideal .i32) (x0 x1 x2 : Vec Ideal S512x1024 .bf16)
    (xm : Buf (Elt Ideal) ((c : Thread nD τ).loc cc1_scratch0)) (xl : Buf (Elt Ideal) ((c : Thread nD τ).loc cc1_scratch1)) (xa : Buf (Elt Ideal) ((c : Thread nD τ).loc cc1_scratch2))
    (hF : ¬condFirst (wordQ TQ i) (wordK TK i)) (hO : ¬condOff (wordQ TQ i) (wordK TK i)) (hD : condDiag (wordQ TQ i) (wordK TK i)) (y : S512x1024.Idx) :
    ∃ pc ∈ (kernelRun1_D c i arg4 harg4 arg5 harg5 arg6 harg6 arg7 harg7 TQ TK x0 x1 x2 xm xl xa hF hO hD).1, y ∈ pc.1.set :=
  View.cover_of_tiledL (kernelRun1_D c i arg4 harg4 arg5 harg5 arg6 harg6 arg7 harg7 TQ TK x0 x1 x2 xm xl xa hF hO hD).1 S512x1024.size (by sl_kernel_rfl) y
/-- at a step. -/
theorem cover3_A (c : Dev nD) (t : Fin cfgA.N) (hF : isFirst t) (hD : isDiag t) (y : S512x1024.Idx) :
    ∃ pc ∈ (runA V c t hF hD).1, y ∈ pc.1.set :=
  coverGen_A _ _ _ _ _ _ _ _ _ _ _ _ _ _ _ _ _ _ y
theorem cover3_D (c : Dev nD) (t : Fin cfgA.N) (xm : BufM c) (xl : BufL c) (xa : BufA c) (hF : ¬isFirst t) (hD : isDiag t) (y : S512x1024.Idx) :
    ∃ pc ∈ (runD V c t xm xl xa hF hD).1, y ∈ pc.1.set :=
  coverGen_D _ _ _ _ _ _ _ _ _ _ _ _ _ _ _ _ _ _ _ _ _ y

/-- What the output tile holds after the diagonal tile's store: the stored pieces read back. -/
def out1_A (c : Dev nD) (t : Fin cfgA.N) (hF : isFirst t) (hD : isDiag t) : Vec Ideal S512x1024 .f32 :=
  VO1.read (Elt Ideal) (VO1.writes (Elt Ideal) VO1.junk (runA V c t hF hD).1)
def out1_D (c : Dev nD) (t : Fin cfgA.N) (xm : BufM c) (xl : BufL c) (xa : BufA c) (hF : ¬isFirst t) (hD : isDiag t) : Vec Ideal S512x1024 .f32 :=
  VO1.read (Elt Ideal) (VO1.writes (Elt Ideal) VO1.junk (runD V c t xm xl xa hF hD).1)

/-! ## What the output tile and the scratch hold after each step -/

/-- The output window's buffer and the three scratch buffers' contents. -/
abbrev St1 (c : Dev nD) : Type := Vec Ideal S512x1024 .f32 × BufM c × BufL c × BufA c

/-- Before the first step: nothing any step consults. -/
def init1 (c : Dev nD) : St1 c := (default, default, default, default)

/-- One step: the course the step's words select, over what the step before left. A step that does not store the
    output tile keeps what its buffer held; nothing reads it there. -/
def step1 (c : Dev nD) (t : Fin cfgA.N) (prev : St1 c) : St1 c :=
  if hF : isFirst t then
    if hD : isDiag t then
      (out1_A V c t hF hD, (runA V c t hF hD).2.1, (runA V c t hF hD).2.2.1, (runA V c t hF hD).2.2.2.1)
    else
      (prev.1, (runB V c t hF hD).1, (runB V c t hF hD).2.1, (runB V c t hF hD).2.2.1)
  else
    if hD : isDiag t then
      (out1_D V c t prev.2.1 prev.2.2.1 prev.2.2.2 hF hD, (runD V c t prev.2.1 prev.2.2.1 prev.2.2.2 hF hD).2.1,
        (runD V c t prev.2.1 prev.2.2.1 prev.2.2.2 hF hD).2.2.1, (runD V c t prev.2.1 prev.2.2.1 prev.2.2.2 hF hD).2.2.2.1)
    else
      (prev.1, (runC V c t prev.2.1 prev.2.2.1 prev.2.2.2 hF hD).1, (runC V c t prev.2.1 prev.2.2.1 prev.2.2.2 hF hD).2.1,
        (runC V c t prev.2.1 prev.2.2.1 prev.2.2.2 hF hD).2.2.1)

/-- After step n. -/
def traj1 (c : Dev nD) : (n : ℕ) → n < cfgA.N → St1 c
  | 0, h => step1 V c ⟨0, h⟩ (init1 c)
  | n + 1, h => step1 V c ⟨n + 1, h⟩ (traj1 c n (Nat.lt_of_succ_lt h))

/-- Before step t. -/
def prev1 (c : Dev nD) (t : Fin cfgA.N) : St1 c :=
  if h : t.val = 0 then init1 c else traj1 V c (t.val - 1) (by omega)

theorem traj1_eq (c : Dev nD) (t : Fin cfgA.N) : traj1 V c t.val t.isLt = step1 V c t (prev1 V c t) := by
  obtain ⟨n, hn⟩ := t
  cases n with
  | zero => rfl
  | succ n => unfold prev1; simp only [Nat.add_one_ne_zero, dif_neg, not_false_eq_true]; rfl

theorem step1_A (c : Dev nD) (t : Fin cfgA.N) (prev : St1 c) (hF : isFirst t) (hD : isDiag t) :
    step1 V c t prev = (out1_A V c t hF hD, (runA V c t hF hD).2.1, (runA V c t hF hD).2.2.1, (runA V c t hF hD).2.2.2.1) := by
  unfold step1; simp only [dif_pos hF, dif_pos hD]
theorem step1_B (c : Dev nD) (t : Fin cfgA.N) (prev : St1 c) (hF : isFirst t) (hD : ¬isDiag t) :
    step1 V c t prev = (prev.1, (runB V c t hF hD).1, (runB V c t hF hD).2.1, (runB V c t hF hD).2.2.1) := by
  unfold step1; simp only [dif_pos hF, dif_neg hD]
theorem step1_C (c : Dev nD) (t : Fin cfgA.N) (prev : St1 c) (hF : ¬isFirst t) (hD : ¬isDiag t) :
    step1 V c t prev = (prev.1, (runC V c t prev.2.1 prev.2.2.1 prev.2.2.2 hF hD).1, (runC V c t prev.2.1 prev.2.2.1 prev.2.2.2 hF hD).2.1,
        (runC V c t prev.2.1 prev.2.2.1 prev.2.2.2 hF hD).2.2.1) := by
  unfold step1; simp only [dif_neg hF, dif_neg hD]
theorem step1_D (c : Dev nD) (t : Fin cfgA.N) (prev : St1 c) (hF : ¬isFirst t) (hD : isDiag t) :
    step1 V c t prev = (out1_D V c t prev.2.1 prev.2.2.1 prev.2.2.2 hF hD, (runD V c t prev.2.1 prev.2.2.1 prev.2.2.2 hF hD).2.1,
        (runD V c t prev.2.1 prev.2.2.1 prev.2.2.2 hF hD).2.2.1, (runD V c t prev.2.1 prev.2.2.1 prev.2.2.2 hF hD).2.2.2.1) := by
  unfold step1; simp only [dif_neg hF, dif_pos hD]

/-! ## The invariant between steps -/

/-- The three scratch buffers at given contents, -/
def scrAt (c : Dev nD) (s : St1 c) : sProp 𝕄 :=
  iprop((scM.view.loc (c : Thread nD τ) ↦{fullShare} s.2.1) ∗ (scL.view.loc (c : Thread nD τ) ↦{fullShare} s.2.2.1) ∗ (scA.view.loc (c : Thread nD τ) ↦{fullShare} s.2.2.2))
/-- and at anything. -/
def scrAny (c : Dev nD) : sProp 𝕄 :=
  iprop((∃ a : BufM c, scM.view.loc (c : Thread nD τ) ↦{fullShare} a) ∗ (∃ a : BufL c, scL.view.loc (c : Thread nD τ) ↦{fullShare} a) ∗ (∃ a : BufA c, scA.view.loc (c : Thread nD τ) ↦{fullShare} a))

theorem scrAny_of_at (c : Dev nD) (s : St1 c) : scrAt c s ⊢ scrAny c := by
  unfold scrAt scrAny
  iintro ⟨HM, HL, HA⟩
  isplitl [HM]; · iexists _; iexact HM
  isplitl [HL]; · iexists _; iexact HL
  iexists _; iexact HA

/-- The two tables held whole at their literal contents. -/
def tablesHeld (c : Dev nD) : sProp 𝕄 :=
  iprop((tbQ.view.loc (c : Thread nD τ) ↦{fullShare} tQ) ∗ (tbK.view.loc (c : Thread nD τ) ↦{fullShare} tK))

/-- The other region's eleven staging buffers, each whole at anything. -/
def restOther (c : Dev nD) : sProp 𝕄 :=
  iprop((∃ f : Buf (Elt Ideal) ((c : Thread nD τ).loc cc0_stg0_0), ((c : Thread nD τ).loc cc0_stg0_0) ↦{fullShare} f) ∗ (∃ f : Buf (Elt Ideal) ((c : Thread nD τ).loc cc0_stg0_1), ((c : Thread nD τ).loc cc0_stg0_1) ↦{fullShare} f) ∗ (∃ f : Buf (Elt Ideal) ((c : Thread nD τ).loc cc0_stg1_0), ((c : Thread nD τ).loc cc0_stg1_0) ↦{fullShare} f) ∗ (∃ f : Buf (Elt Ideal) ((c : Thread nD τ).loc cc0_stg2_0), ((c : Thread nD τ).loc cc0_stg2_0) ↦{fullShare} f) ∗ (∃ f : Buf (Elt Ideal) ((c : Thread nD τ).loc cc0_stg3_0), ((c : Thread nD τ).loc cc0_stg3_0) ↦{fullShare} f) ∗ (∃ f : Buf (Elt Ideal) ((c : Thread nD τ).loc cc0_stg4_0), ((c : Thread nD τ).loc cc0_stg4_0) ↦{fullShare} f) ∗ (∃ f : Buf (Elt Ideal) ((c : Thread nD τ).loc cc0_stg4_1), ((c : Thread nD τ).loc cc0_stg4_1) ↦{fullShare} f) ∗ (∃ f : Buf (Elt Ideal) ((c : Thread nD τ).loc cc0_stg5_0), ((c : Thread nD τ).loc cc0_stg5_0) ↦{fullShare} f) ∗ (∃ f : Buf (Elt Ideal) ((c : Thread nD τ).loc cc0_stg5_1), ((c : Thread nD τ).loc cc0_stg5_1) ↦{fullShare} f) ∗ (∃ f : Buf (Elt Ideal) ((c : Thread nD τ).loc cc0_stg6_0), ((c : Thread nD τ).loc cc0_stg6_0) ↦{fullShare} f) ∗ (∃ f : Buf (Elt Ideal) ((c : Thread nD τ).loc cc0_stg6_1), ((c : Thread nD τ).loc cc0_stg6_1) ↦{fullShare} f))

/-- The scratch before position n: anything before the first step, then what the step before left. -/
def scrBefore (c : Dev nD) : (n : ℕ) → n < cfgA.N + 1 → sProp 𝕄
  | 0, _ => scrAny c
  | n + 1, h => scrAt c (traj1 V c n (Nat.lt_of_succ_lt_succ h))

/-- The invariant before position t: the scratch as the steps so far left it, the tables, the other region's buffers. -/
def Phi1 (c : Dev nD) (t : Fin (cfgA.N + 1)) : sProp 𝕄 :=
  iprop(scrBefore V c t.val t.isLt ∗ tablesHeld c ∗ restOther c)

theorem Phi1_zero (c : Dev nD) : Phi1 V c 0 = iprop(scrAny c ∗ tablesHeld c ∗ restOther c) := rfl

theorem Phi1_succ (c : Dev nD) (t : Fin cfgA.N) :
    Phi1 V c t.succ = iprop(scrAt c (traj1 V c t.val t.isLt) ∗ tablesHeld c ∗ restOther c) := rfl

theorem Phi1_castSucc_pos (c : Dev nD) (t : Fin cfgA.N) (hz : t.val ≠ 0) :
    Phi1 V c t.castSucc = iprop(scrAt c (prev1 V c t) ∗ tablesHeld c ∗ restOther c) := by
  obtain ⟨n, hn⟩ := t
  cases n with
  | zero => exact absurd rfl hz
  | succ n => unfold prev1; simp only [Nat.add_one_ne_zero, dif_neg, not_false_eq_true]; rfl

theorem Phi1_any (c : Dev nD) (t : Fin (cfgA.N + 1)) :
    Phi1 V c t ⊢ iprop(((∃ a : BufM c, scM.view.loc (c : Thread nD τ) ↦{fullShare} a) ∗ (∃ a : BufL c, scL.view.loc (c : Thread nD τ) ↦{fullShare} a) ∗ (∃ a : BufA c, scA.view.loc (c : Thread nD τ) ↦{fullShare} a))
      ∗ ((tbQ.view.loc (c : Thread nD τ) ↦{fullShare} tQ) ∗ (tbK.view.loc (c : Thread nD τ) ↦{fullShare} tK)) ∗ restOther c) := by
  obtain ⟨n, hn⟩ := t
  cases n with
  | zero => exact .rfl
  | succ n => exact sep_mono (scrAny_of_at c _) .rfl

/-! ## The pipeline's proof data -/

/-- The proof data of the region on core c: the arrays as the region finds them; after the body at step t each
    input's buffer at its block and the output's at what the steps so far left; the invariant above; nothing owed;
    full shares. -/
def dat1 (c : Dev nD) : Dat τ (Elt Ideal) Unit ℕ (UR sig nD τ) ℕ cfgA c where
  A w := V c (Pipeline.arrRef spec1 w)
  after w t := match w with
    | ⟨0, _⟩ => iblk1 V c (0 : Fin 4) t
    | ⟨1, _⟩ => iblk1 V c (1 : Fin 4) t
    | ⟨2, _⟩ => iblk1 V c (2 : Fin 4) t
    | ⟨3, _⟩ => (traj1 V c t.val t.isLt).1
  Φ t := Phi1 V c t
  q _ := fullShare
  owed _ := 0

/-- The proof data's arrays are the region-entry contents. -/
theorem A_eq1 (c : Dev nD) (w : Fin cfgA.W) : (dat1 V c).A w = V c (Pipeline.arrRef spec1 w) := by
  dsimp only [dat1]

/-- What the body leaves, window by window. -/
theorem after1_0 (c : Dev nD) (t : Fin cfgA.N) : (dat1 V c).after (0 : Fin 4) t = iblk1 V c (0 : Fin 4) t := by dsimp only [dat1]
theorem after1_1 (c : Dev nD) (t : Fin cfgA.N) : (dat1 V c).after (1 : Fin 4) t = iblk1 V c (1 : Fin 4) t := by dsimp only [dat1]
theorem after1_2 (c : Dev nD) (t : Fin cfgA.N) : (dat1 V c).after (2 : Fin 4) t = iblk1 V c (2 : Fin 4) t := by dsimp only [dat1]
theorem after1_3 (c : Dev nD) (t : Fin cfgA.N) : (dat1 V c).after (3 : Fin 4) t = (traj1 V c t.val t.isLt).1 := by dsimp only [dat1]

theorem Phi_eq1 (c : Dev nD) (t : Fin (cfgA.N + 1)) : (dat1 V c).Φ t = Phi1 V c t := by dsimp only [dat1]

/-- Each input's current staging buffer holds its block at every step, moved there at that step or not. -/
theorem before1_0 (c : Dev nD) (t : Fin cfgA.N) (d) : (dat1 V c).before (0 : Fin 4) t d = iblk1 V c (0 : Fin 4) t :=
  ((dat1 V c).before_in_eq_fetched (0 : Fin 4) rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfgA.N) (d) : (dat1 V c).before (1 : Fin 4) t d = iblk1 V c (1 : Fin 4) t :=
  ((dat1 V c).before_in_eq_fetched (1 : Fin 4) rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfgA.N) (d) : (dat1 V c).before (2 : Fin 4) t d = iblk1 V c (2 : Fin 4) t :=
  ((dat1 V c).before_in_eq_fetched (2 : Fin 4) rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- The body at step t on its staging memrefs, as the pipeline calls it. -/
abbrev bodyAt1 (t : Fin cfgA.N) : Prog (TpuEff nD τ sig (Elt Ideal) Λ₀ .tc) PUnit :=
  cc1_kernel (crd t) tbQ (Memref.isWhole_whole _) tbK (Memref.isWhole_whole _) (ms1_0 t) (hs1_0 t) (ms1_1 t) (hs1_1 t) (ms1_2 t) (hs1_2 t) (ms1_3 t) (hs1_3 t) scM (Memref.isWhole_whole _) scL (Memref.isWhole_whole _) scA (Memref.isWhole_whole _)

set_option maxHeartbeats 4000000 in
/-- The body at step t: the step's words tell its course; the inputs' buffers hold their blocks; the scratch holds
    what the step before left (anything, at a reset); so the course's triple applies, and what it leaves is what
    the trajectory names. Away from the diagonal tile the output buffer is handed back as found. -/
theorem sound_body1 (c : Dev nD) (t : Fin cfgA.N) :
    iprop((dat1 V c).Φ t.castSucc ∗ (dat1 V c).owesAt () t.castSucc
        ∗ (∃ d, owns (c : Thread nD τ) (ms1_0 t) fullShare ((dat1 V c).before (0 : Fin 4) t d))
        ∗ (∃ d, owns (c : Thread nD τ) (ms1_1 t) fullShare ((dat1 V c).before (1 : Fin 4) t d))
        ∗ (∃ d, owns (c : Thread nD τ) (ms1_2 t) fullShare ((dat1 V c).before (2 : Fin 4) t d))
        ∗ (∃ d, owns (c : Thread nD τ) (ms1_3 t) fullShare ((dat1 V c).before (3 : Fin 4) t d)))
      ⊢ wp frame (wpE (defs₀ (F := Ideal)) Variants.none c none) Set.univ (bodyAt1 t) fun _ =>
          iprop((dat1 V c).Φ t.succ ∗ (dat1 V c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dat1 V c).before w t d))
                  | true => owns (c : Thread nD τ) ((cfgA.win w).stage (cfgA.slots t w)) fullShare ((dat1 V c).after w t)
                | false => owns (c : Thread nD τ) ((cfgA.win w).stage (cfgA.slots t w)) fullShare ((dat1 V c).after w t)) := by
  rw [Gen.bigSep_W1]
  by_cases hF : isFirst t
  · by_cases hD : isDiag t
    · -- the reset and the diagonal tile
      have i3 := idle3_of_diag t hD
      rewrite [i3]
      simp only [before1_0, before1_1, before1_2, after1_0, after1_1, after1_2, after1_3, Phi_eq1]
      rewrite [show (dat1 V c).owesAt () t.succ = (dat1 V c).owesAt () t.castSucc from rfl, Phi1_succ, traj1_eq, step1_A V c t _ hF hD]
      unfold scrAt tablesHeld out1_A; dsimp only
      refine (sep_mono (Phi1_any V c t.castSucc) .rfl).trans ?_
      iintro ⟨⟨⟨⟨%xm, HM⟩, ⟨%xl, HL⟩, ⟨%xa, HA⟩⟩, ⟨HQ, HK⟩, HR⟩, Ho, ⟨%d0, H0⟩, ⟨%d1, H1⟩, ⟨%d2, H2⟩, ⟨%d3, H3⟩⟩
      iapply ((runA V c t hF hD).2.2.2.2 xm xl xa _)
      isplitl [H0]; · iexact H0
      isplitl [H1]; · iexact H1
      isplitl [H2]; · iexact H2
      isplitl [HQ]; · iexact HQ
      isplitl [HK]; · iexact HK
      isplitl [H3]; · iexists _; iexact H3
      isplitl [HM]; · iexact HM
      isplitl [HL]; · iexact HL
      isplitl [HA]; · iexact HA
      iintro ⟨H0, H1, H2, HQ, HK, ⟨%e3, H3⟩, HM, HL, HA⟩
      isplitl [HM HL HA HQ HK HR]
      · isplitl [HM HL HA]
        · isplitl [HM]; · iexact HM
          isplitl [HL]; · iexact HL
          iexact HA
        isplitl [HQ HK]
        · isplitl [HQ]; · iexact HQ
          iexact HK
        iexact HR
      isplitl [Ho]; · iexact Ho
      isplitl [H0]; · iexact H0
      isplitl [H1]; · iexact H1
      isplitl [H2]; · iexact H2
      unfold owns; iexists _; isplitr; swap
      · iexact H3
      · ipureintro; exact View.read_writes_of_cover _ _ _ _ _ (cover3_A V c t hF hD)
    · -- the reset and a tile below the diagonal
      obtain ⟨i3, f3⟩ := idle3_of_not_diag t hD
      rewrite [i3]
      simp only [before1_0, before1_1, before1_2, after1_0, after1_1, after1_2, f3, Phi_eq1]
      rewrite [show (dat1 V c).owesAt () t.succ = (dat1 V c).owesAt () t.castSucc from rfl, Phi1_succ, traj1_eq, step1_B V c t _ hF hD]
      unfold scrAt tablesHeld; dsimp only
      refine (sep_mono (Phi1_any V c t.castSucc) .rfl).trans ?_
      iintro ⟨⟨⟨⟨%xm, HM⟩, ⟨%xl, HL⟩, ⟨%xa, HA⟩⟩, ⟨HQ, HK⟩, HR⟩, Ho, ⟨%d0, H0⟩, ⟨%d1, H1⟩, ⟨%d2, H2⟩, ⟨%d3, H3⟩⟩
      iapply ((runB V c t hF hD).2.2.2 _ xm xl xa _)
      isplitl [H0]; · iexact H0
      isplitl [H1]; · iexact H1
      isplitl [H2]; · iexact H2
      isplitl [HQ]; · iexact HQ
      isplitl [HK]; · iexact HK
      isplitl [H3]; · iexact H3
      isplitl [HM]; · iexact HM
      isplitl [HL]; · iexact HL
      isplitl [HA]; · iexact HA
      iintro ⟨H0, H1, H2, HQ, HK, H3, HM, HL, HA⟩
      isplitl [HM HL HA HQ HK HR]
      · isplitl [HM HL HA]
        · isplitl [HM]; · iexact HM
          isplitl [HL]; · iexact HL
          iexact HA
        isplitl [HQ HK]
        · isplitl [HQ]; · iexact HQ
          iexact HK
        iexact HR
      isplitl [Ho]; · iexact Ho
      isplitl [H0]; · iexact H0
      isplitl [H1]; · iexact H1
      isplitl [H2]; · iexact H2
      iexists d3; iexact H3
  · have hz : t.val ≠ 0 := fun h => hF (isFirst_of_zero t h)
    by_cases hD : isDiag t
    · -- the diagonal tile over the carried scratch
      have i3 := idle3_of_diag t hD
      rewrite [i3]
      simp only [before1_0, before1_1, before1_2, after1_0, after1_1, after1_2, after1_3, Phi_eq1]
      rewrite [show (dat1 V c).owesAt () t.succ = (dat1 V c).owesAt () t.castSucc from rfl, Phi1_succ, traj1_eq, step1_D V c t _ hF hD]
      unfold out1_D
      rewrite [Phi1_castSucc_pos V c t hz]
      unfold scrAt tablesHeld; dsimp only
      iintro ⟨⟨⟨HM, HL, HA⟩, ⟨HQ, HK⟩, HR⟩, Ho, ⟨%d0, H0⟩, ⟨%d1, H1⟩, ⟨%d2, H2⟩, ⟨%d3, H3⟩⟩
      iapply ((runD V c t _ _ _ hF hD).2.2.2.2 _)
      isplitl [H0]; · iexact H0
      isplitl [H1]; · iexact H1
      isplitl [H2]; · iexact H2
      isplitl [HQ]; · iexact HQ
      isplitl [HK]; · iexact HK
      isplitl [H3]; · iexists _; iexact H3
      isplitl [HM]; · iexact HM
      isplitl [HL]; · iexact HL
      isplitl [HA]; · iexact HA
      iintro ⟨H0, H1, H2, HQ, HK, ⟨%e3, H3⟩, HM, HL, HA⟩
      isplitl [HM HL HA HQ HK HR]
      · isplitl [HM HL HA]
        · isplitl [HM]; · iexact HM
          isplitl [HL]; · iexact HL
          iexact HA
        isplitl [HQ HK]
        · isplitl [HQ]; · iexact HQ
          iexact HK
        iexact HR
      isplitl [Ho]; · iexact Ho
      isplitl [H0]; · iexact H0
      isplitl [H1]; · iexact H1
      isplitl [H2]; · iexact H2
      unfold owns; iexists _; isplitr; swap
      · iexact H3
      · ipureintro; exact View.read_writes_of_cover _ _ _ _ _ (cover3_D V c t _ _ _ hF hD)
    · -- a tile below the diagonal over the carried scratch
      obtain ⟨i3, f3⟩ := idle3_of_not_diag t hD
      rewrite [i3]
      simp only [before1_0, before1_1, before1_2, after1_0, after1_1, after1_2, f3, Phi_eq1]
      rewrite [show (dat1 V c).owesAt () t.succ = (dat1 V c).owesAt () t.castSucc from rfl, Phi1_succ, traj1_eq, step1_C V c t _ hF hD]
      rewrite [Phi1_castSucc_pos V c t hz]
      unfold scrAt tablesHeld; dsimp only
      iintro ⟨⟨⟨HM, HL, HA⟩, ⟨HQ, HK⟩, HR⟩, Ho, ⟨%d0, H0⟩, ⟨%d1, H1⟩, ⟨%d2, H2⟩, ⟨%d3, H3⟩⟩
      iapply ((runC V c t _ _ _ hF hD).2.2.2 _ _)
      isplitl [H0]; · iexact H0
      isplitl [H1]; · iexact H1
      isplitl [H2]; · iexact H2
      isplitl [HQ]; · iexact HQ
      isplitl [HK]; · iexact HK
      isplitl [H3]; · iexact H3
      isplitl [HM]; · iexact HM
      isplitl [HL]; · iexact HL
      isplitl [HA]; · iexact HA
      iintro ⟨H0, H1, H2, HQ, HK, H3, HM, HL, HA⟩
      isplitl [HM HL HA HQ HK HR]
      · isplitl [HM HL HA]
        · isplitl [HM]; · iexact HM
          isplitl [HL]; · iexact HL
          iexact HA
        isplitl [HQ HK]
        · isplitl [HQ]; · iexact HQ
          iexact HK
        iexact HR
      isplitl [Ho]; · iexact Ho
      isplitl [H0]; · iexact H0
      isplitl [H1]; · iexact H1
      isplitl [H2]; · iexact H2
      iexists d3; iexact H3

/-- The library's body obligation, at every step. -/
theorem body_obligation1 (c : Dev nD) : BodyObligation (dat1 V c) (defs₀ (F := Ideal)) Variants.none () Set.univ := fun t => by
  rw [Gen.bigSep_W1]
  exact sound_body1 V c t

/-! ## Entering and leaving the region -/

/-- The two tables as the region is handed them, one by one. -/
theorem prefHeld1_eq (c : Dev nD) (q : Fin 2 → PosShare TreeShare) (v : pre1.Contents (Elt Ideal)) :
    (Pipeline.prefHeld (Ix := Unit) (Name := ℕ) (U := UR sig nD τ) (Lvl := ℕ) pre1 c q v : sProp 𝕄)
      = iprop((((c : Thread nD τ).loc main_c) ↦{q 0} (show Buf (Elt Ideal) ((c : Thread nD τ).loc main_c) from v 0))
          ∗ (((c : Thread nD τ).loc main_c_0) ↦{q 1} (show Buf (Elt Ideal) ((c : Thread nD τ).loc main_c_0) from v 1))) := by
  unfold Pipeline.prefHeld
  rw [show (Finset.univ : Finset (Fin 2)) = insert 0 {1} from by decide, bigSep_insert (by decide), bigSep_singleton]
  rfl

/-- The invariant before the first step, from the tables and the scoped buffers the region does not stage. -/
theorem hin1 (c : Dev nD) :
    iprop(BI.emp ∗ Pipeline.prefHeld (Ix := Unit) (Name := ℕ) (U := UR sig nD τ) (Lvl := ℕ) pre1 c (fun _ => fullShare) (adm1).1
        ∗ Pipeline.scopedRest (Ix := Unit) (Name := ℕ) (U := UR sig nD τ) (Lvl := ℕ) (Val := Elt Ideal) spec1 c) ⊢ (dat1 V c).Φ 0 := by
  rw [prefHeld1_eq, Gen.scopedRest1_eq, Phi_eq1, Phi1_zero]
  unfold scrAny tablesHeld restOther
  iintro ⟨-, ⟨HQ, HK⟩, R0, R1, R2, R3, R4, R5, R6, R7, R8, R9, R10, SM, SL, SA⟩
  isplitl [SM SL SA]
  · isplitl [SM]; · iexact SM
    isplitl [SL]; · iexact SL
    iexact SA
  isplitl [HQ HK]
  · isplitl [HQ]; · iexact HQ
    iexact HK
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

/-- After the last step the invariant gives the tables and those scoped buffers back. -/
theorem hout1 (c : Dev nD) :
    (dat1 V c).Φ (Fin.last cfgA.N) ⊢ iprop(Pipeline.prefHeld (Ix := Unit) (Name := ℕ) (U := UR sig nD τ) (Lvl := ℕ) pre1 c (fun _ => fullShare) (adm1).1
        ∗ Pipeline.scopedRest (Ix := Unit) (Name := ℕ) (U := UR sig nD τ) (Lvl := ℕ) (Val := Elt Ideal) spec1 c) := by
  rw [prefHeld1_eq, Gen.scopedRest1_eq, Phi_eq1]
  refine (Phi1_any V c _).trans ?_
  unfold restOther
  iintro ⟨⟨SM, SL, SA⟩, ⟨HQ, HK⟩, R0, R1, R2, R3, R4, R5, R6, R7, R8, R9, R10⟩
  isplitl [HQ HK]
  · isplitl [HQ]; · iexact HQ
    iexact HK
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [SM]; · iexact SM
  isplitl [SL]; · iexact SL
  iexact SA

end Cert.KernelIdeal.Hand

end
-- ==== Proof.RunAll.lean ====
/-
  The run of the kernel program's @main, from the launch to the return: one stretch of host operations (the two
  index tables written as constants, the three weights cast to bf16), then the projection region, then the
  flash-attention region. The buffer contents are followed from boundary to boundary: at launch, after the host
  stretch, after the projection (its three outputs hold what its write-backs leave, everything else as entered) and
  after the attention region (its output likewise). The attention region reads its two index tables whole; what it
  finds in them is what the host stretch wrote, which is the table contents the region's pipeline is taken at. At the
  end every buffer the program does not scope holds the last boundary's contents: the result array what the
  attention region's write-backs leave, the four arguments what they held at launch.
-/
import proofs.«430317_j3848290697374_3_alg».proof.Proof.R0Body
import proofs.«430317_j3848290697374_3_alg».proof.Proof.R1Defs
import proofs.«430317_j3848290697374_3_alg».proof.Proof.R1Body
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! # The buffer contents at each boundary -/

/-- The core's buffers at launch. -/
abbrev W0 : Dev nD → Valuation τ sig (Elt Ideal) := fun c b => (s₀ m ρ).mem ((c : Dev nD), b)
/-- After the host stretch: where the projection region is entered. -/
abbrev W1 : Dev nD → Valuation τ sig (Elt Ideal) := fun c => StableHlo.after hostOps0 (W0 m ρ c)
/-- The same read at the core's references. -/
abbrev V1 : (c : Dev nD) → (b : Ref sig .tc) → Buf (Elt Ideal) ((c : Thread nD τ).loc b) := fun c b => W1 m ρ c b
/-- After the projection region: its arrays at what its write-backs leave, every other buffer as entered. This is
    where the attention region is entered. -/
def W2 (c : Dev nD) : Valuation τ sig (Elt Ideal) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := Ideal)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt Ideal) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region: its arrays at what its write-backs leave, every other buffer as entered. -/
def W3 (c : Dev nD) : Valuation τ sig (Elt Ideal) :=
  Pipeline.withArrays spec1 c (W2 m ρ c) fun w => (dat1 (V2 m ρ) c).arrAt w cfgA.N
theorem W3_arr (c : Dev nD) (w : Fin cfgA.W) :
    W3 m ρ c (Proc.devRef .tc (Pipeline.arrRef spec1 w)) = (dat1 (V2 m ρ) c).arrAt w cfgA.N := by
  unfold W3; exact Pipeline.withArrays_arr spec1 (launch1 (F := Ideal)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt Ideal) ((c : Thread nD τ).loc b) := fun c b => W3 m ρ c b
theorem hF1 (c : Dev nD) (w : Fin cfgA.W) : (dat1 (V2 m ρ) c).arrAt w cfgA.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no host operation and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array ends at what the attention region's write-backs leave. -/
theorem W3_main_v4 (c : Dev nD) : W3 m ρ c (Proc.devRef .tc main_v4) = (dat1 (V2 m ρ) c).arrAt 3 cfgA.N :=
  W3_arr m ρ c 3

/-! ## What each region finds at its entry -/

-- [ideal-only]
/-- The projection region finds x as launched, -/
theorem V1_x (c : Dev nD) : V1 m ρ c main_arg0 = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- and each weight cast to bf16. -/
theorem V1_wq (c : Dev nD) : V1 m ρ c main_v0 = ((truncf (F := Ideal) .bf16 · bitsLt_bf16_f32) : (⟨S1024x1024, .f32⟩ : BufTy).Contents (Elt Ideal) → (⟨S1024x1024, .bf16⟩ : BufTy).Contents (Elt Ideal)) (m ((c : Thread nD τ).loc main_arg1)) := by
  show StableHlo.after hostOps0 (W0 m ρ c) (Proc.devRef .tc main_v0) = _
  after_results
theorem V1_wk (c : Dev nD) : V1 m ρ c main_v1 = ((truncf (F := Ideal) .bf16 · bitsLt_bf16_f32) : (⟨S1024x1024, .f32⟩ : BufTy).Contents (Elt Ideal) → (⟨S1024x1024, .bf16⟩ : BufTy).Contents (Elt Ideal)) (m ((c : Thread nD τ).loc main_arg2)) := by
  show StableHlo.after hostOps0 (W0 m ρ c) (Proc.devRef .tc main_v1) = _
  after_results
theorem V1_wv (c : Dev nD) : V1 m ρ c main_v2 = ((truncf (F := Ideal) .bf16 · bitsLt_bf16_f32) : (⟨S1024x1024, .f32⟩ : BufTy).Contents (Elt Ideal) → (⟨S1024x1024, .bf16⟩ : BufTy).Contents (Elt Ideal)) (m ((c : Thread nD τ).loc main_arg3)) := by
  show StableHlo.after hostOps0 (W0 m ρ c) (Proc.devRef .tc main_v2) = _
  after_results
/-- The attention region finds q, k, v as the projection's write-backs leave them. -/
theorem V2_q (c : Dev nD) : V2 m ρ c main_v3_0 = (dat0 (V1 m ρ) c).arrAt 4 cfg0.N := W2_arr m ρ c 4
theorem V2_k (c : Dev nD) : V2 m ρ c main_v3_1 = (dat0 (V1 m ρ) c).arrAt 5 cfg0.N := W2_arr m ρ c 5
theorem V2_v (c : Dev nD) : V2 m ρ c main_v3_2 = (dat0 (V1 m ρ) c).arrAt 6 cfg0.N := W2_arr m ρ c 6
-- [/ideal-only]
/-- The attention region finds the two index tables as the host stretch wrote them. -/
theorem V2_tbl0 (c : Dev nD) : V2 m ρ c main_c = (fun i => lit0 (S2x18.rowMajor i)) := by
  refine (W2_of_ne m ρ c main_c (by decide)).trans ?_
  show StableHlo.after hostOps0 (W0 m ρ c) (Proc.devRef .tc main_c) = _
  after_results; rfl
theorem V2_tbl1 (c : Dev nD) : V2 m ρ c main_c_0 = (fun i => lit1 (S2x18.rowMajor i)) := by
  refine (W2_of_ne m ρ c main_c_0 (by decide)).trans ?_
  show StableHlo.after hostOps0 (W0 m ρ c) (Proc.devRef .tc main_c_0) = _
  after_results; rfl
/-- Together they are the table contents the attention region's pipeline is taken at. -/
theorem V2_tbl (c : Dev nD) : (fun k => V2 m ρ c (pre1.ref k)) = (adm1).1 := by
  funext k
  match k with
  | ⟨0, _⟩ => exact V2_tbl0 m ρ c
  | ⟨1, _⟩ => exact V2_tbl1 m ρ c

/-! # The proof data of both regions and what rides beside the buffers -/

/-- The tables' contents each pipeline is taken at: the projection has no table; the attention region's are the two
    constants of @main. -/
abbrev adm : (p : Fin 2) → (pcfgs (F := Ideal) p).Adm := fun
  | ⟨0, _⟩ => cfg0.toPCfg_adm
  | ⟨1, _⟩ => adm1
/-- Each region's proof data at the contents the region is entered from. -/
def pdats : (p : Fin 2) → (c : Dev nD) → Dat τ (Elt Ideal) Unit ℕ (UR sig nD τ) ℕ (Pipeline.pin (pcfgs (F := Ideal)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch over every unscoped buffer from the contents W. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt Ideal))).Forall fun op => op.fresh = ∅ := by
  simp only [List.Forall]; repeat' constructor
/-- An unscoped reference of the core is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the end: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-- The unscoped buffers that are no array of the attention region are its two tables, held whole at the contents its
    pipeline is taken at, and seven more. -/
theorem rest1_split (c : Dev nD) :
    (Pipeline.unscopedRest (Ix := Unit) (Name := ℕ) (U := UR sig nD τ) (Lvl := ℕ) spec1 c (V2 m ρ c) : sProp 𝕄)
      = iprop(Pipeline.prefHeld (Ix := Unit) (Name := ℕ) (U := UR sig nD τ) (Lvl := ℕ) pre1 c (fun _ => fullShare) (adm1).1
          ∗ Pipeline.unscopedRestP (Ix := Unit) (Name := ℕ) (U := UR sig nD τ) (Lvl := ℕ) pre1 spec1 c (V2 m ρ c)) := by
  rw [Pipeline.unscopedRest_split preFacts1 c (V2 m ρ c), V2_tbl m ρ c]

/-! # The regions as segments -/

set_option backward.isDefEq.respectTransparency.types false in
/-- The projection region: entered from every unscoped buffer at W1, left at W2. Its arrays are split out of the
    unscoped buffers and put back at the exit contents; the generator register goes into the region's invariant and
    comes back; nothing owed; no semaphore of the kernel's own. -/
def reg0 : Pipeline.RegionSeg (pcfgs (F := Ideal)) adm (pdats m ρ) () defs₀ 𝒱₀ L lv 0 where
  win := (launch0 (F := Ideal)).win.to₀
  block_pos := (launch0 (F := Ideal)).block_pos
  stage_whole := (launch0 (F := Ideal)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Ideal)) adm (pdats m ρ) (launch0 (F := Ideal)).win (launch0 (F := Ideal)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      (launch0 (F := Ideal)).win (launch0 (F := Ideal)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W2, left at W3. Its arrays are split out of the
    unscoped buffers and put back at the exit contents; its two tables, which hold the contents its pipeline is taken
    at, go into the region's invariant and come back unchanged; the seven other buffers and the generator register
    pass beside it; nothing owed; no semaphore of the kernel's own. -/
def reg1 : Pipeline.RegionSeg (pcfgs (F := Ideal)) adm (pdats m ρ) () defs₀ 𝒱₀ L lv 1 where
  win := (launch1 (F := Ideal)).win.to₀
  block_pos := (launch1 (F := Ideal)).block_pos
  stage_whole := (launch1 (F := Ideal)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(emp)
  Y c := Pipeline.prefHeld (Ix := Unit) (Name := ℕ) (U := UR sig nD τ) (Lvl := ℕ) pre1 c (fun _ => fullShare) (adm1).1
  Z c := iprop(Pipeline.unscopedRestP (Ix := Unit) (Name := ℕ) (U := UR sig nD τ) (Lvl := ℕ) pre1 spec1 c (V2 m ρ c) ∗ ∃ r, prngReg c r)
  hentry c := by
    rw [Pipeline.ownSems0_none]
    have hsplit := Pipeline.arrays_of_unscopedBufs (p := 1) (pcfgs (F := Ideal)) adm (pdats m ρ) (launch1 (F := Ideal)).win (launch1 (F := Ideal)).arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    ihave Hrest := (Entails.of_eq (rest1_split m ρ c)) $$ Hrest
    icases Hrest with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := hin1 (V2 m ρ) c
  hout c := by
    rw [Pipeline.ownSems0_none]
    refine (hout1 (V2 m ρ) c).trans ?_
    iintro ⟨Hpf, Hs⟩
    isplitl [Hpf]; · iexact Hpf
    isplitr; · iempintro
    iexact Hs
  hexit c := by
    have hjoin := Pipeline.unscopedBufs_of_arrays (p := 1) (pcfgs (F := Ideal)) adm (Ix := Unit) (Name := ℕ) (U := UR sig nD τ) (Lvl := ℕ)
      (launch1 (F := Ideal)).win (launch1 (F := Ideal)).arr_whole c (pdats m ρ) ((pdats m ρ 1 c).share_full fun _ => rfl)
      (V2 m ρ c) (V3 m ρ c) ((pdats m ρ 1 c).arrAt · cfgA.N) (hF1 m ρ c) (hrest1 m ρ c)
    rw [Pipeline.unscopedBufs_held] at hjoin
    iintro ⟨Ha, HO, HY, Hrest, Hp⟩
    ihave Hrest := (Entails.of_eq (rest1_split m ρ c).symm) $$ [HY Hrest]
    · isplitl [HY]; · iexact HY
      iexact Hrest
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! # @main as segments, and the launch -/

/-- @main's three segments in order: the host stretch from the launch contents, then the two regions. -/
abbrev segs : List (Pipeline.Seg (pcfgs (F := Ideal)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := Ideal) c = Pipeline.Seg.run (segs m ρ) := (main_chain c).trans (by chain_rfl)

set_option backward.isDefEq.respectTransparency.types false in
/-- THE RUN. From any memory with zero counters, every weakly fair execution of @main on the cores terminates, nothing
    faulting, and in every final state the result array holds what the attention region's write-backs leave and the
    four argument arrays hold what they held at launch. -/
theorem run_all : θ_run defs (onTc (τ := τ) (main (F := Ideal))) ⟨m, fun _ => 0, ρ⟩ (fun r => ∀ c : Dev nD,
      r.2.mem ((c.tc : Thread nD τ).loc main_v4) = (dat1 (V2 m ρ) c).arrAt 3 cfgA.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := Ideal)) adm) (cellOf_inj adm)) (Pipeline.launchToks (Pipeline.pin (pcfgs (F := Ideal)) adm) (cellOf_inj adm)))
    (hu₀ := by
      iintro Hu; imodintro
      isplitl [Hu]
      · iapply (show (ownU (initOf (Pipeline.cells (Pipeline.pin (pcfgs (F := Ideal)) adm) (cellOf_inj adm)) (Pipeline.launchToks (Pipeline.pin (pcfgs (F := Ideal)) adm) (cellOf_inj adm))) : sProp 𝕄)
            ⊢ BI.own (emb₁ (initOf (Pipeline.cells (Pipeline.pin (pcfgs (F := Ideal)) adm) (cellOf_inj adm)) (Pipeline.launchToks (Pipeline.pin (pcfgs (F := Ideal)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v4 (by decide))).trans (W3_main_v4 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- info: 'Cert.KernelIdeal.Hand.run_all' depends on axioms: [propext, Classical.choice, Quot.sound] -/
#guard_msgs in #print axioms run_all

end Cert.KernelIdeal.Hand

end
-- ==== Proof.R0Value.lean ====
/-
  Region 0 read as values: after its 8 grid points each of the three output arrays is the whole matrix product of
  x with one weight. A tile's payload at row p and column q is the sum over the 1024 features of x(p, ·) · w(·, q)
  (the format changes are the identity on the extended reals); grid point t reads rows 512 t … 512 t + 511 of x and
  the whole weight, and writes the same rows of the output; the 8 row blocks cover the 4096 rows.
-/
import proofs.«430317_j3848290697374_3_alg».proof.Proof.R0Body
import Idealize.ShloMosaic.Lib.Pipeline.Value
import Idealize.ShloMosaic.Lib.ValueIdx
import Idealize.ShloMosaic.PureOps.Ideal.Laws

set_option synthInstance.maxSize 4096
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The tile product at an index -/

theorem lhs_qkv_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_qkv_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_qkv_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_qkv_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The tile product into the zero tile, at row p and column q: the sum over the 1024 features. -/
theorem matmul_qkv_apply (a : FVec Ideal S512x1024 .bf16) (b : FVec Ideal S1024x1024 .bf16) (p : Fin 512) (q : Fin 1024) :
    matmul dot_S512x1024_S1024x1024_S512x1024_1_0_0_1_n_n none a b (constant (F := Ideal) S512x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_qkv_0 _ _
    | ⟨1, _⟩ => exact (lhs_qkv_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_qkv_0 _ _).trans hk
    | ⟨1, _⟩ => exact rhs_qkv_1 _ _)
  rw [el, er]

/-- The q tile's payload at row p, column q: the format changes are the identity, the product the feature sum. -/
theorem pay2_apply (x0 : Vec Ideal S512x1024 .f32) (w : Vec Ideal S1024x1024 .bf16) (p : Fin 512) (q : Fin 1024) :
    k0_pay2 x0 w (ix2 p q) = ∑ k : Fin 1024, x0 (ix2 p k) * w (ix2 k q) := by
  unfold k0_pay2 k0_pay1
  rw [truncf_apply, shapeCast_self, matmul_qkv_apply]
  rfl
theorem pay3_apply (x0 : Vec Ideal S512x1024 .f32) (w : Vec Ideal S1024x1024 .bf16) (p : Fin 512) (q : Fin 1024) :
    k0_pay3 x0 w (ix2 p q) = ∑ k : Fin 1024, x0 (ix2 p k) * w (ix2 k q) := by
  unfold k0_pay3 k0_pay1
  rw [truncf_apply, shapeCast_self, matmul_qkv_apply]
  rfl
theorem pay4_apply (x0 : Vec Ideal S512x1024 .f32) (w : Vec Ideal S1024x1024 .bf16) (p : Fin 512) (q : Fin 1024) :
    k0_pay4 x0 w (ix2 p q) = ∑ k : Fin 1024, x0 (ix2 p k) * w (ix2 k q) := by
  unfold k0_pay4 k0_pay1
  rw [truncf_apply, shapeCast_self, matmul_qkv_apply]
  rfl

/-! ## The blocks as rows of the arrays -/

variable (V : (c : Dev nD) → (b : Ref sig .tc) → Buf (Elt Ideal) ((c : Thread nD τ).loc b))

theorem hz0 : (![0, 0] : Fin 2 → Nat) = fun _ => 0 := funext fun a => by
  match a with
  | ⟨0, _⟩ => rfl
  | ⟨1, _⟩ => rfl

/-- The printed index maps over the grid: the x window and the three output windows sit at row block t, the weights at
    block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The x block at point t is rows 512 t … 512 t + 511 of x. -/
theorem xblk_apply (c : Dev nD) (t : Fin cfg0.N) (p : Fin 512) (k : Fin 1024) (r : Fin 4096) (hr : r.val = 512 * t.val + p.val) :
    (iblk0 V c 0 t : Vec Ideal S512x1024 .f32) (ix2 p k) = (V c main_arg0 : S4096x1024.Idx → EReal) (ix2 r k) := by
  have hi := idx_facts0 t
  unfold iblk0
  rw [View.read_apply]
  show V c main_arg0 _ = V c main_arg0 _
  congr 1
  funext a
  apply Fin.ext
  match a with
  | ⟨0, _⟩ => show win0_0.index t (0 : Fin 2) * 512 + 1 * p.val = r.val; rw [hi.1, hr]; omega
  | ⟨1, _⟩ => show win0_0.index t (1 : Fin 2) * 1024 + 1 * k.val = k.val; rw [hi.2.1]; omega

/-- Each weight block is the whole weight, at every point. -/
theorem w1blk_apply (c : Dev nD) (t : Fin cfg0.N) (k q : Fin 1024) :
    (iblk0 V c 1 t : Vec Ideal S1024x1024 .bf16) (ix2 k q) = (V c main_v0 : S1024x1024.Idx → EReal) (ix2 k q) := by
  have hi := idx_facts0 t
  unfold iblk0
  rw [View.read_apply]
  show V c main_v0 _ = V c main_v0 _
  congr 1
  funext a
  apply Fin.ext
  match a with
  | ⟨0, _⟩ => show win0_1.index t (0 : Fin 2) * 1024 + 1 * k.val = k.val; rw [hi.2.2.1]; omega
  | ⟨1, _⟩ => show win0_1.index t (1 : Fin 2) * 1024 + 1 * q.val = q.val; rw [hi.2.2.2.1]; omega
theorem w2blk_apply (c : Dev nD) (t : Fin cfg0.N) (k q : Fin 1024) :
    (iblk0 V c 2 t : Vec Ideal S1024x1024 .bf16) (ix2 k q) = (V c main_v1 : S1024x1024.Idx → EReal) (ix2 k q) := by
  have hi := idx_facts0 t
  unfold iblk0
  rw [View.read_apply]
  show V c main_v1 _ = V c main_v1 _
  congr 1
  funext a
  apply Fin.ext
  match a with
  | ⟨0, _⟩ => show win0_2.index t (0 : Fin 2) * 1024 + 1 * k.val = k.val; rw [hi.2.2.2.2.1]; omega
  | ⟨1, _⟩ => show win0_2.index t (1 : Fin 2) * 1024 + 1 * q.val = q.val; rw [hi.2.2.2.2.2.1]; omega
theorem w3blk_apply (c : Dev nD) (t : Fin cfg0.N) (k q : Fin 1024) :
    (iblk0 V c 3 t : Vec Ideal S1024x1024 .bf16) (ix2 k q) = (V c main_v2 : S1024x1024.Idx → EReal) (ix2 k q) := by
  have hi := idx_facts0 t
  unfold iblk0
  rw [View.read_apply]
  show V c main_v2 _ = V c main_v2 _
  congr 1
  funext a
  apply Fin.ext
  match a with
  | ⟨0, _⟩ => show win0_3.index t (0 : Fin 2) * 1024 + 1 * k.val = k.val; rw [hi.2.2.2.2.2.2.1]; omega
  | ⟨1, _⟩ => show win0_3.index t (1 : Fin 2) * 1024 + 1 * q.val = q.val; rw [hi.2.2.2.2.2.2.2.1]; omega

/-! ## The whole products -/

/-- The product of a 4096 × 1024 array with a 1024 × 1024 one, entry by entry. -/
def prodArr (X : S4096x1024.Idx → EReal) (W : S1024x1024.Idx → EReal) : S4096x1024.Idx → EReal :=
  fun i => ∑ j : Fin 1024, X (ix2 (i 0) j) * W (ix2 j (i 1))

theorem prodArr_def (X : S4096x1024.Idx → EReal) (W : S1024x1024.Idx → EReal) (i : S4096x1024.Idx) :
    prodArr X W i = ∑ j : Fin 1024, X (ix2 (i 0) j) * W (ix2 j (i 1)) := rfl
theorem prodArr_apply (X : S4096x1024.Idx → EReal) (W : S1024x1024.Idx → EReal) (r : Fin 4096) (e : Fin 1024) :
    prodArr X W (ix2 r e) = ∑ j : Fin 1024, X (ix2 r j) * W (ix2 j e) := rfl

/-- The q tile's payload at point t, at an entry of the tile, is the product's entry 512 t rows further down. -/
theorem q_point (c : Dev nD) (t : Fin cfg0.N) (j : S512x1024.Idx) (i : S4096x1024.Idx)
    (h0 : (i 0).val = 512 * t.val + (j 0).val) (h1 : (i 1).val = (j 1).val) :
    k0_pay2 (iblk0 V c 0 t) (iblk0 V c 1 t) j = prodArr (V c main_arg0) (V c main_v0) i := by
  obtain ⟨p, q, rfl⟩ : ∃ (p : Fin 512) (q : Fin 1024), j = ix2 p q := ⟨j 0, j 1, eq_ix2 j⟩
  obtain ⟨r, s, rfl⟩ : ∃ (r : Fin 4096) (s : Fin 1024), i = ix2 r s := ⟨i 0, i 1, eq_ix2 i⟩
  have hs : s = q := Fin.ext h1
  subst hs
  refine (pay2_apply _ _ p s).trans ?_
  unfold prodArr
  refine Finset.sum_congr rfl fun k _ => ?_
  rw [xblk_apply V c t p k r h0, w1blk_apply V c t k s]
theorem k_point (c : Dev nD) (t : Fin cfg0.N) (j : S512x1024.Idx) (i : S4096x1024.Idx)
    (h0 : (i 0).val = 512 * t.val + (j 0).val) (h1 : (i 1).val = (j 1).val) :
    k0_pay3 (iblk0 V c 0 t) (iblk0 V c 2 t) j = prodArr (V c main_arg0) (V c main_v1) i := by
  obtain ⟨p, q, rfl⟩ : ∃ (p : Fin 512) (q : Fin 1024), j = ix2 p q := ⟨j 0, j 1, eq_ix2 j⟩
  obtain ⟨r, s, rfl⟩ : ∃ (r : Fin 4096) (s : Fin 1024), i = ix2 r s := ⟨i 0, i 1, eq_ix2 i⟩
  have hs : s = q := Fin.ext h1
  subst hs
  refine (pay3_apply _ _ p s).trans ?_
  unfold prodArr
  refine Finset.sum_congr rfl fun k _ => ?_
  rw [xblk_apply V c t p k r h0, w2blk_apply V c t k s]
theorem v_point (c : Dev nD) (t : Fin cfg0.N) (j : S512x1024.Idx) (i : S4096x1024.Idx)
    (h0 : (i 0).val = 512 * t.val + (j 0).val) (h1 : (i 1).val = (j 1).val) :
    k0_pay4 (iblk0 V c 0 t) (iblk0 V c 3 t) j = prodArr (V c main_arg0) (V c main_v2) i := by
  obtain ⟨p, q, rfl⟩ : ∃ (p : Fin 512) (q : Fin 1024), j = ix2 p q := ⟨j 0, j 1, eq_ix2 j⟩
  obtain ⟨r, s, rfl⟩ : ∃ (r : Fin 4096) (s : Fin 1024), i = ix2 r s := ⟨i 0, i 1, eq_ix2 i⟩
  have hs : s = q := Fin.ext h1
  subst hs
  refine (pay4_apply _ _ p s).trans ?_
  unfold prodArr
  refine Finset.sum_congr rfl fun k _ => ?_
  rw [xblk_apply V c t p k r h0, w3blk_apply V c t k s]

/-! ## What each point writes back -/

/-- Point t writes back block t of the q product. -/
theorem flushed4_eq (c : Dev nD) (t : Fin cfg0.N) :
    (dat0 V c).flushed 4 t = ((cfg0.win 4).blk t).view.read (Elt Ideal) (prodArr (V c main_arg0) (V c main_v0)) := by
  show (cfg0.win 4).cut (grid0.coords t) ((dat0 V c).after 4 t) = _
  rw [after0_4]
  unfold out0_4
  rw [View.canon_unit_zero hz0]
  simp only [View.ld_unit_zero (S := S512x1024) hz0, View.ld_unit_zero (S := S1024x1024) hz0]
  have hi := idx_facts0 t
  funext j
  rw [View.read_apply]
  refine q_point V c t j _ ?_ ?_
  · show win0_4.index t (0 : Fin 2) * 512 + 1 * (j 0).val = 512 * t.val + (j 0).val
    rw [hi.2.2.2.2.2.2.2.2.1]; omega
  · show win0_4.index t (1 : Fin 2) * 1024 + 1 * (j 1).val = (j 1).val
    rw [hi.2.2.2.2.2.2.2.2.2.1]; omega
theorem flushed5_eq (c : Dev nD) (t : Fin cfg0.N) :
    (dat0 V c).flushed 5 t = ((cfg0.win 5).blk t).view.read (Elt Ideal) (prodArr (V c main_arg0) (V c main_v1)) := by
  show (cfg0.win 5).cut (grid0.coords t) ((dat0 V c).after 5 t) = _
  rw [after0_5]
  unfold out0_5
  rw [View.canon_unit_zero hz0]
  simp only [View.ld_unit_zero (S := S512x1024) hz0, View.ld_unit_zero (S := S1024x1024) hz0]
  have hi := idx_facts0 t
  funext j
  rw [View.read_apply]
  refine k_point V c t j _ ?_ ?_
  · show win0_5.index t (0 : Fin 2) * 512 + 1 * (j 0).val = 512 * t.val + (j 0).val
    rw [hi.2.2.2.2.2.2.2.2.2.2.1]; omega
  · show win0_5.index t (1 : Fin 2) * 1024 + 1 * (j 1).val = (j 1).val
    rw [hi.2.2.2.2.2.2.2.2.2.2.2.1]; omega
theorem flushed6_eq (c : Dev nD) (t : Fin cfg0.N) :
    (dat0 V c).flushed 6 t = ((cfg0.win 6).blk t).view.read (Elt Ideal) (prodArr (V c main_arg0) (V c main_v2)) := by
  show (cfg0.win 6).cut (grid0.coords t) ((dat0 V c).after 6 t) = _
  rw [after0_6]
  unfold out0_6
  rw [View.canon_unit_zero hz0]
  simp only [View.ld_unit_zero (S := S512x1024) hz0, View.ld_unit_zero (S := S1024x1024) hz0]
  have hi := idx_facts0 t
  funext j
  rw [View.read_apply]
  refine v_point V c t j _ ?_ ?_
  · show win0_6.index t (0 : Fin 2) * 512 + 1 * (j 0).val = 512 * t.val + (j 0).val
    rw [hi.2.2.2.2.2.2.2.2.2.2.2.2.1]; omega
  · show win0_6.index t (1 : Fin 2) * 1024 + 1 * (j 1).val = (j 1).val
    rw [hi.2.2.2.2.2.2.2.2.2.2.2.2.2]; omega

/-! ## The 8 row blocks cover the 4096 rows -/

theorem mem_blk4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3_0).slice (win0_4.rect t)).set ↔ _
  rw [View.set_slice_whole, Rect.mem_set_unit]
  exact Iff.rfl
theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v3_1).slice (win0_5.rect t)).set ↔ _
  rw [View.set_slice_whole, Rect.mem_set_unit]
  exact Iff.rfl
theorem mem_blk6 (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v3_2).slice (win0_6.rect t)).set ↔ _
  rw [View.set_slice_whole, Rect.mem_set_unit]
  exact Iff.rfl

/-- Row r of an output array is written by point r / 512. -/
theorem rowPoint (i : S4096x1024.Idx) : (i 0).val / 512 < cfg0.N := by
  have h : (i 0).val < 4096 := (i 0).isLt
  show (i 0).val / 512 < grid0.N
  rw [N_0]; omega

theorem cover4 (i : S4096x1024.Idx) : ∃ t : Fin cfg0.N, (cfg0.win 4).flush t = true ∧ i ∈ ((cfg0.win 4).blk t).view.set := by
  refine ⟨⟨(i 0).val / 512, rowPoint i⟩, flush0_4 _, ?_⟩
  rw [mem_blk4]
  have hi := idx_facts0 ⟨(i 0).val / 512, rowPoint i⟩
  have h0 : (i 0).val < 4096 := (i 0).isLt
  have h1 : (i 1).val < 1024 := (i 1).isLt
  intro a
  match a with
  | ⟨0, _⟩ =>
    show win0_4.index ⟨(i 0).val / 512, rowPoint i⟩ (0 : Fin 2) * 512 ≤ (i 0).val ∧ (i 0).val < win0_4.index ⟨(i 0).val / 512, rowPoint i⟩ (0 : Fin 2) * 512 + 512
    rw [hi.2.2.2.2.2.2.2.2.1]; show (i 0).val / 512 * 512 ≤ (i 0).val ∧ (i 0).val < (i 0).val / 512 * 512 + 512; omega
  | ⟨1, _⟩ =>
    show win0_4.index ⟨(i 0).val / 512, rowPoint i⟩ (1 : Fin 2) * 1024 ≤ (i 1).val ∧ (i 1).val < win0_4.index ⟨(i 0).val / 512, rowPoint i⟩ (1 : Fin 2) * 1024 + 1024
    rw [hi.2.2.2.2.2.2.2.2.2.1]; omega
theorem cover5 (i : S4096x1024.Idx) : ∃ t : Fin cfg0.N, (cfg0.win 5).flush t = true ∧ i ∈ ((cfg0.win 5).blk t).view.set := by
  refine ⟨⟨(i 0).val / 512, rowPoint i⟩, flush0_5 _, ?_⟩
  rw [mem_blk5]
  have hi := idx_facts0 ⟨(i 0).val / 512, rowPoint i⟩
  have h0 : (i 0).val < 4096 := (i 0).isLt
  have h1 : (i 1).val < 1024 := (i 1).isLt
  intro a
  match a with
  | ⟨0, _⟩ =>
    show win0_5.index ⟨(i 0).val / 512, rowPoint i⟩ (0 : Fin 2) * 512 ≤ (i 0).val ∧ (i 0).val < win0_5.index ⟨(i 0).val / 512, rowPoint i⟩ (0 : Fin 2) * 512 + 512
    rw [hi.2.2.2.2.2.2.2.2.2.2.1]; show (i 0).val / 512 * 512 ≤ (i 0).val ∧ (i 0).val < (i 0).val / 512 * 512 + 512; omega
  | ⟨1, _⟩ =>
    show win0_5.index ⟨(i 0).val / 512, rowPoint i⟩ (1 : Fin 2) * 1024 ≤ (i 1).val ∧ (i 1).val < win0_5.index ⟨(i 0).val / 512, rowPoint i⟩ (1 : Fin 2) * 1024 + 1024
    rw [hi.2.2.2.2.2.2.2.2.2.2.2.1]; omega
theorem cover6 (i : S4096x1024.Idx) : ∃ t : Fin cfg0.N, (cfg0.win 6).flush t = true ∧ i ∈ ((cfg0.win 6).blk t).view.set := by
  refine ⟨⟨(i 0).val / 512, rowPoint i⟩, flush0_6 _, ?_⟩
  rw [mem_blk6]
  have hi := idx_facts0 ⟨(i 0).val / 512, rowPoint i⟩
  have h0 : (i 0).val < 4096 := (i 0).isLt
  have h1 : (i 1).val < 1024 := (i 1).isLt
  intro a
  match a with
  | ⟨0, _⟩ =>
    show win0_6.index ⟨(i 0).val / 512, rowPoint i⟩ (0 : Fin 2) * 512 ≤ (i 0).val ∧ (i 0).val < win0_6.index ⟨(i 0).val / 512, rowPoint i⟩ (0 : Fin 2) * 512 + 512
    rw [hi.2.2.2.2.2.2.2.2.2.2.2.2.1]; show (i 0).val / 512 * 512 ≤ (i 0).val ∧ (i 0).val < (i 0).val / 512 * 512 + 512; omega
  | ⟨1, _⟩ =>
    show win0_6.index ⟨(i 0).val / 512, rowPoint i⟩ (1 : Fin 2) * 1024 ≤ (i 1).val ∧ (i 1).val < win0_6.index ⟨(i 0).val / 512, rowPoint i⟩ (1 : Fin 2) * 1024 + 1024
    rw [hi.2.2.2.2.2.2.2.2.2.2.2.2.2]; omega

/-! ## The arrays after the region -/

/-- The q array after the region is x times the first weight. -/
theorem q_arr_eq (c : Dev nD) : (dat0 (F := Ideal) V c).arrAt 4 cfg0.N = prodArr (V c main_arg0) (V c main_v0) :=
  (dat0 V c).arrAt_eq_of_cover 4 (prodArr (V c main_arg0) (V c main_v0)) (fun t _ => flushed4_eq V c t) cover4
/-- The k array after the region is x times the second weight. -/
theorem k_arr_eq (c : Dev nD) : (dat0 (F := Ideal) V c).arrAt 5 cfg0.N = prodArr (V c main_arg0) (V c main_v1) :=
  (dat0 V c).arrAt_eq_of_cover 5 (prodArr (V c main_arg0) (V c main_v1)) (fun t _ => flushed5_eq V c t) cover5
/-- The v array after the region is x times the third weight. -/
theorem v_arr_eq (c : Dev nD) : (dat0 (F := Ideal) V c).arrAt 6 cfg0.N = prodArr (V c main_arg0) (V c main_v2) :=
  (dat0 V c).arrAt_eq_of_cover 6 (prodArr (V c main_arg0) (V c main_v2)) (fun t _ => flushed6_eq V c t) cover6

/-- The same, entry by entry. -/
theorem q_arr (c : Dev nD) (i : S4096x1024.Idx) :
    (dat0 (F := Ideal) V c).arrAt 4 cfg0.N i = prodArr (V c main_arg0) (V c main_v0) i := congrFun (q_arr_eq V c) i
theorem k_arr (c : Dev nD) (i : S4096x1024.Idx) :
    (dat0 (F := Ideal) V c).arrAt 5 cfg0.N i = prodArr (V c main_arg0) (V c main_v1) i := congrFun (k_arr_eq V c) i
theorem v_arr (c : Dev nD) (i : S4096x1024.Idx) :
    (dat0 (F := Ideal) V c).arrAt 6 cfg0.N i = prodArr (V c main_arg0) (V c main_v2) i := congrFun (v_arr_eq V c) i

end Cert.KernelIdeal.Hand

end
-- ==== Proof.RowAlg.lean ====
/-
  One row of the online softmax, abstractly.

  A row's state is a running shift `m`, a running normaliser `l` and a running weighted sum `acc` (one entry per
  feature). One update takes a block of 512 scores `s` of that row (an entry may be `⊥`: a masked column) and the
  block's 512 value rows `v`: the new shift is the maximum of the old shift and the block's scores, the old
  normaliser and sum are rescaled by exp (old shift − new shift), and the block's exp (score − new shift) and their
  products with the value rows are added. The state starts at shift `⊥`, normaliser 0, sum 0.

  The invariant (`Inv`): after the columns `P` of the row have gone in, the shift is SOME real μ and the normaliser
  and the sum are Σ_{c ∈ P} exp (s c − μ) and Σ_{c ∈ P} exp (s c − μ) · v c d over the reals. Which real μ is does
  not matter: the quotient sum / normaliser does not depend on it (`Cert.Spec.softmax_shift`).
-/
import proofs.«430317_j3848290697374_3_alg».proof.Proof.Spec

noncomputable section

open scoped BigOperators

namespace Cert.Row

open Idealize.ShloMosaic

/-- A row's state: shift, normaliser, weighted sum per feature. -/
structure St where
  m : EReal
  l : EReal
  acc : Fin 1024 → EReal

/-- Before any column: shift ⊥, normaliser 0, sum 0. -/
def init : St := ⟨⊥, 0, fun _ => 0⟩

/-- A block's maximum score: the fold of `max` from ⊥. -/
def bmax (s : Fin 512 → EReal) : EReal := (Finset.univ : Finset (Fin 512)).fold max ⊥ s

/-- One block update of a row. -/
def upd (st : St) (s : Fin 512 → EReal) (v : Fin 512 → Fin 1024 → EReal) : St :=
  ⟨max st.m (bmax s),
   Ideal.exp (st.m - max st.m (bmax s)) * st.l + ∑ c : Fin 512, Ideal.exp (s c - max st.m (bmax s)),
   fun d => Ideal.exp (st.m - max st.m (bmax s)) * st.acc d + ∑ c : Fin 512, Ideal.exp (s c - max st.m (bmax s)) * v c d⟩

/-- What the row gives out in the end: sum over normaliser. -/
def out (st : St) (d : Fin 1024) : EReal := Ideal.div (st.acc d) st.l

variable {ι : Type} [DecidableEq ι]

/-- The state after the columns `P` (real scores `sR`, real value rows `vR`). -/
def Inv (sR : ι → ℝ) (vR : ι → Fin 1024 → ℝ) (P : Finset ι) (st : St) : Prop :=
  ∃ μ : ℝ, st.m = (μ : EReal) ∧ st.l = ((∑ c ∈ P, Real.exp (sR c - μ) : ℝ) : EReal)
    ∧ ∀ d, st.acc d = ((∑ c ∈ P, Real.exp (sR c - μ) * vR c d : ℝ) : EReal)

/-- The columns a block brings in: the images of its unmasked lanes. -/
def blockCols (e : Fin 512 ↪ ι) (allowed : Fin 512 → Prop) [DecidablePred allowed] : Finset ι :=
  (Finset.univ.filter allowed).map e

/-! ### The block maximum -/

/-- Every score of a block is at most the block's maximum. -/
theorem le_bmax (s : Fin 512 → EReal) (c : Fin 512) : s c ≤ bmax s :=
  (Finset.le_fold_max (s c)).2 (Or.inr ⟨c, Finset.mem_univ c, le_rfl⟩)

/-- If no score is ⊤, the block's maximum is not ⊤. -/
theorem bmax_ne_top (s : Fin 512 → EReal) (h : ∀ c, s c ≠ ⊤) : bmax s ≠ ⊤ :=
  ((Finset.fold_max_lt (⊤ : EReal)).2 ⟨bot_lt_top, fun c _ => lt_top_iff_ne_top.2 (h c)⟩).ne

/-- The new shift is a real number as soon as the old shift is one or some score of the block is not ⊥
    (no score and no shift being ⊤). -/
theorem shift_real (m : EReal) (s : Fin 512 → EReal) (hm : m ≠ ⊤) (hs : ∀ c, s c ≠ ⊤) (h : m ≠ ⊥ ∨ ∃ c, s c ≠ ⊥) :
    ∃ μ' : ℝ, max m (bmax s) = (μ' : EReal) := by
  have htop : max m (bmax s) ≠ ⊤ := by
    rcases max_choice m (bmax s) with h' | h' <;> rw [h']
    · exact hm
    · exact bmax_ne_top s hs
  have hbot : max m (bmax s) ≠ ⊥ := by
    rcases h with h | ⟨c, hc⟩
    · exact fun h' => h (le_bot_iff.1 (h' ▸ le_max_left m (bmax s)))
    · exact fun h' => hc (le_bot_iff.1 (h' ▸ (le_bmax s c).trans (le_max_right m (bmax s))))
  exact ⟨(max m (bmax s)).toReal, (EReal.coe_toReal htop hbot).symm⟩

/-! ### Sums of reals inside the extended reals -/

/-- The coercion of a finite real sum is the sum of the coercions. -/
theorem coe_sum {α : Type} (t : Finset α) (f : α → ℝ) : ((∑ c ∈ t, f c : ℝ) : EReal) = ∑ c ∈ t, (f c : EReal) := by
  classical
  induction t using Finset.induction_on with
  | empty => simp
  | insert a t ha ih => rw [Finset.sum_insert ha, Finset.sum_insert ha, EReal.coe_add, ih]

/-- One lane's weight: exp (score − shift) for an unmasked lane, 0 for a masked one. -/
theorem lane_exp (sR : ι → ℝ) (e : Fin 512 ↪ ι) (allowed : Fin 512 → Prop) [DecidablePred allowed] (s : Fin 512 → EReal)
    (hs : ∀ c, s c = if allowed c then ((sR (e c) : ℝ) : EReal) else ⊥) (μ' : ℝ) (c : Fin 512) :
    Ideal.exp (s c - (μ' : EReal)) = ((if allowed c then Real.exp (sR (e c) - μ') else 0 : ℝ) : EReal) := by
  rw [hs c]
  split_ifs with h
  · rw [← EReal.coe_sub, Ideal.exp_coe]
  · rw [EReal.bot_sub, Ideal.exp_bot, EReal.coe_zero]

/-- A block's contribution to the normaliser is the real sum over the columns it brings in. -/
theorem block_l (sR : ι → ℝ) (e : Fin 512 ↪ ι) (allowed : Fin 512 → Prop) [DecidablePred allowed] (s : Fin 512 → EReal)
    (hs : ∀ c, s c = if allowed c then ((sR (e c) : ℝ) : EReal) else ⊥) (μ' : ℝ) :
    ∑ c : Fin 512, Ideal.exp (s c - (μ' : EReal)) = ((∑ c ∈ blockCols e allowed, Real.exp (sR c - μ') : ℝ) : EReal) := by
  rw [blockCols, Finset.sum_map, Finset.sum_filter, coe_sum]
  exact Finset.sum_congr rfl fun c _ => lane_exp sR e allowed s hs μ' c

/-- A block's contribution to the weighted sum is the real sum over the columns it brings in. -/
theorem block_acc (sR : ι → ℝ) (vR : ι → Fin 1024 → ℝ) (e : Fin 512 ↪ ι) (allowed : Fin 512 → Prop) [DecidablePred allowed]
    (s : Fin 512 → EReal) (v : Fin 512 → Fin 1024 → EReal)
    (hs : ∀ c, s c = if allowed c then ((sR (e c) : ℝ) : EReal) else ⊥) (hv : ∀ c d, v c d = ((vR (e c) d : ℝ) : EReal))
    (μ' : ℝ) (d : Fin 1024) :
    ∑ c : Fin 512, Ideal.exp (s c - (μ' : EReal)) * v c d
      = ((∑ c ∈ blockCols e allowed, Real.exp (sR c - μ') * vR c d : ℝ) : EReal) := by
  rw [blockCols, Finset.sum_map, Finset.sum_filter, coe_sum]
  refine Finset.sum_congr rfl fun c _ => ?_
  rw [lane_exp sR e allowed s hs μ' c, hv c d, ← EReal.coe_mul, ite_mul, zero_mul]

/-- Rescaling a shifted sum from shift μ to shift μ'. -/
theorem rescale (P : Finset ι) (f w : ι → ℝ) (μ μ' : ℝ) :
    Real.exp (μ - μ') * ∑ c ∈ P, Real.exp (f c - μ) * w c = ∑ c ∈ P, Real.exp (f c - μ') * w c := by
  rw [Finset.mul_sum]
  refine Finset.sum_congr rfl fun c _ => ?_
  rw [← mul_assoc, ← Real.exp_add]
  congr 2
  ring

theorem rescale_one (P : Finset ι) (f : ι → ℝ) (μ μ' : ℝ) :
    Real.exp (μ - μ') * ∑ c ∈ P, Real.exp (f c - μ) = ∑ c ∈ P, Real.exp (f c - μ') := by
  simpa using rescale P f (fun _ => 1) μ μ'

/-- The scores of a block are never ⊤. -/
theorem score_ne_top (sR : ι → ℝ) (e : Fin 512 ↪ ι) (allowed : Fin 512 → Prop) [DecidablePred allowed] (s : Fin 512 → EReal)
    (hs : ∀ c, s c = if allowed c then ((sR (e c) : ℝ) : EReal) else ⊥) (c : Fin 512) : s c ≠ ⊤ := by
  rw [hs c]
  split_ifs
  · exact EReal.coe_ne_top _
  · exact bot_ne_top

/-- The first block of a row, from the initial state, with at least one unmasked lane. -/
theorem upd_init (sR : ι → ℝ) (vR : ι → Fin 1024 → ℝ) (e : Fin 512 ↪ ι) (allowed : Fin 512 → Prop) [DecidablePred allowed]
    (h0 : ∃ c, allowed c) (s : Fin 512 → EReal) (v : Fin 512 → Fin 1024 → EReal)
    (hs : ∀ c, s c = if allowed c then ((sR (e c) : ℝ) : EReal) else ⊥) (hv : ∀ c d, v c d = ((vR (e c) d : ℝ) : EReal)) :
    Inv sR vR (blockCols e allowed) (upd init s v) := by
  obtain ⟨c0, hc0⟩ := h0
  obtain ⟨μ', hμ'⟩ := shift_real (⊥ : EReal) s bot_ne_top (score_ne_top sR e allowed s hs)
    (Or.inr ⟨c0, by rw [hs c0, if_pos hc0]; exact EReal.coe_ne_bot _⟩)
  refine ⟨μ', hμ', ?_, fun d => ?_⟩
  · show Ideal.exp ((⊥ : EReal) - max ⊥ (bmax s)) * 0 + ∑ c : Fin 512, Ideal.exp (s c - max ⊥ (bmax s)) = _
    rw [hμ', mul_zero, zero_add, block_l sR e allowed s hs μ']
  · show Ideal.exp ((⊥ : EReal) - max ⊥ (bmax s)) * 0 + ∑ c : Fin 512, Ideal.exp (s c - max ⊥ (bmax s)) * v c d = _
    rw [hμ', mul_zero, zero_add, block_acc sR vR e allowed s v hs hv μ' d]

/-- A later block: the columns it brings are new. -/
theorem upd_step (sR : ι → ℝ) (vR : ι → Fin 1024 → ℝ) (P : Finset ι) (st : St) (hI : Inv sR vR P st)
    (e : Fin 512 ↪ ι) (allowed : Fin 512 → Prop) [DecidablePred allowed] (hd : Disjoint P (blockCols e allowed))
    (s : Fin 512 → EReal) (v : Fin 512 → Fin 1024 → EReal)
    (hs : ∀ c, s c = if allowed c then ((sR (e c) : ℝ) : EReal) else ⊥) (hv : ∀ c d, v c d = ((vR (e c) d : ℝ) : EReal)) :
    Inv sR vR (P ∪ blockCols e allowed) (upd st s v) := by
  obtain ⟨μ, hm, hl, hacc⟩ := hI
  obtain ⟨μ', hμ'⟩ := shift_real st.m s (by rw [hm]; exact EReal.coe_ne_top _) (score_ne_top sR e allowed s hs)
    (Or.inl (by rw [hm]; exact EReal.coe_ne_bot _))
  refine ⟨μ', hμ', ?_, fun d => ?_⟩
  · show Ideal.exp (st.m - max st.m (bmax s)) * st.l + ∑ c : Fin 512, Ideal.exp (s c - max st.m (bmax s)) = _
    rw [hμ', hm, hl, block_l sR e allowed s hs μ', ← EReal.coe_sub, Ideal.exp_coe, ← EReal.coe_mul, ← EReal.coe_add,
      rescale_one, Finset.sum_union hd]
  · show Ideal.exp (st.m - max st.m (bmax s)) * st.acc d + ∑ c : Fin 512, Ideal.exp (s c - max st.m (bmax s)) * v c d = _
    rw [hμ', hm, hacc d, block_acc sR vR e allowed s v hs hv μ' d, ← EReal.coe_sub, Ideal.exp_coe, ← EReal.coe_mul,
      ← EReal.coe_add, rescale P sR (fun c => vR c d), Finset.sum_union hd]

/-- The quotient at the end is the unshifted softmax-weighted sum over the columns that went in. -/
theorem out_eq (sR : ι → ℝ) (vR : ι → Fin 1024 → ℝ) (P : Finset ι) (hP : P.Nonempty) (st : St) (hI : Inv sR vR P st) (d : Fin 1024) :
    out st d = (((∑ c ∈ P, Real.exp (sR c) * vR c d) / (∑ c ∈ P, Real.exp (sR c)) : ℝ) : EReal) := by
  obtain ⟨μ, -, hl, hacc⟩ := hI
  have hpos : 0 < ∑ c ∈ P, Real.exp (sR c - μ) := Finset.sum_pos (fun c _ => Real.exp_pos _) hP
  rw [out, hacc d, hl, Ideal.div_coe hpos.ne', ← EReal.coe_mul, mul_one_div,
    Cert.Spec.softmax_shift P sR (fun c => vR c d) μ]

end Cert.Row

end
-- ==== Proof.KernelValueCore.lean ====
/-
  From the two regions to the specification, over abstract boundary contents. The projection region leaves in q, k, v
  the products of x with the three weights; when every entry of the arguments is real those products are the real
  projections (a sum of products of reals is the real sum of the real products). The attention region turns real
  q, k, v into the real causal attention, and the specification at arguments with real entries is that same
  attention of the same projections.
-/
import proofs.«430317_j3848290697374_3_alg».proof.Proof.R0Value
import proofs.«430317_j3848290697374_3_alg».proof.Proof.Spec
import proofs.«430317_j3848290697374_3_alg».proof.Proof.RowAlg

set_option synthInstance.maxSize 4096
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## A product of real matrices, entry by entry -/

/-- The product array of two arrays whose entries are real is, at row r and column e, the real projection. -/
theorem prodArr_coe (A : S4096x1024.Idx → EReal) (W : S1024x1024.Idx → EReal)
    (X : Fin 4096 → Fin 1024 → ℝ) (WR : Fin 1024 → Fin 1024 → ℝ)
    (hA : ∀ r j, A (ix2 r j) = ((X r j : ℝ) : EReal)) (hW : ∀ j e, W (ix2 j e) = ((WR j e : ℝ) : EReal))
    (r : Fin 4096) (e : Fin 1024) :
    prodArr A W (ix2 r e) = ((Cert.Spec.proj X WR r e : ℝ) : EReal) := by
  rw [prodArr_apply]
  unfold Cert.Spec.proj
  rw [Cert.Row.coe_sum]
  refine Finset.sum_congr rfl fun j _ => ?_
  rw [hA, hW, EReal.coe_mul]

/-! ## The specification at real arguments -/

/-- On arrays whose entries are real the specification is the real attention of the real matrices. -/
theorem G_of_real (x : FVec Ideal Cert.Spec.SX .f32) (wq wk wv : FVec Ideal Cert.Spec.SW .f32)
    (X : Fin 4096 → Fin 1024 → ℝ) (WQ WK WV : Fin 1024 → Fin 1024 → ℝ)
    (hx : ∀ r j, x (ix2 r j) = ((X r j : ℝ) : EReal)) (hq : ∀ j e, wq (ix2 j e) = ((WQ j e : ℝ) : EReal))
    (hk : ∀ j e, wk (ix2 j e) = ((WK j e : ℝ) : EReal)) (hv : ∀ j e, wv (ix2 j e) = ((WV j e : ℝ) : EReal)) :
    Cert.Spec.G x wq wk wv = fun i => ((Cert.Spec.attnR X WQ WK WV (i 0) (i 1) : ℝ) : EReal) := by
  have ex : Cert.Spec.re2 x = X := funext fun r => funext fun j => by
    unfold Cert.Spec.re2; rw [hx]; exact EReal.toReal_coe _
  have eq : Cert.Spec.re2 wq = WQ := funext fun r => funext fun j => by
    unfold Cert.Spec.re2; rw [hq]; exact EReal.toReal_coe _
  have ek : Cert.Spec.re2 wk = WK := funext fun r => funext fun j => by
    unfold Cert.Spec.re2; rw [hk]; exact EReal.toReal_coe _
  have ev : Cert.Spec.re2 wv = WV := funext fun r => funext fun j => by
    unfold Cert.Spec.re2; rw [hv]; exact EReal.toReal_coe _
  funext i
  unfold Cert.Spec.G
  rw [ex, eq, ek, ev]

/-! ## From the two regions to the specification -/

/-- The chain of the two regions, over any boundary contents V1 (where the projection region is entered) and V2
    (where the attention region is entered) and any result array O: if the four arguments x, wq, wk, wv have real
    entries, V1 holds x and the three weights entry for entry, V2 holds in q, k, v what the projection region's
    write-backs leave, and O is the real attention of whatever real q, k, v the attention region finds, then O is the
    specification of the four arguments. The projection region left q, k, v at the real projections (a sum of
    products of reals is the real sum of the real products); the real attention of those is the specification. -/
theorem spec_of_regions (c : Dev nD)
    (x : S4096x1024.Idx → EReal) (wq wk wv : S1024x1024.Idx → EReal)
    (V1 V2 : (c : Dev nD) → (b : Ref sig .tc) → Buf (Elt Ideal) ((c : Thread nD τ).loc b))
    (O : S4096x1024.Idx → EReal)
    (hfin : (∀ i, ∃ a : ℝ, x i = (a : EReal)) ∧ (∀ i, ∃ a : ℝ, wq i = (a : EReal))
      ∧ (∀ i, ∃ a : ℝ, wk i = (a : EReal)) ∧ (∀ i, ∃ a : ℝ, wv i = (a : EReal)))
    (h1x : ∀ i, (V1 c main_arg0 : S4096x1024.Idx → EReal) i = x i)
    (h1q : ∀ i, (V1 c main_v0 : S1024x1024.Idx → EReal) i = wq i)
    (h1k : ∀ i, (V1 c main_v1 : S1024x1024.Idx → EReal) i = wk i)
    (h1v : ∀ i, (V1 c main_v2 : S1024x1024.Idx → EReal) i = wv i)
    (h2q : V2 c main_v3_0 = (dat0 (F := Ideal) V1 c).arrAt 4 cfg0.N)
    (h2k : V2 c main_v3_1 = (dat0 (F := Ideal) V1 c).arrAt 5 cfg0.N)
    (h2v : V2 c main_v3_2 = (dat0 (F := Ideal) V1 c).arrAt 6 cfg0.N)
    (hO : ∀ Q K Vv : Fin 4096 → Fin 1024 → ℝ,
      (∀ r e, (V2 c main_v3_0 : S4096x1024.Idx → EReal) (ix2 r e) = ((Q r e : ℝ) : EReal)) →
      (∀ r e, (V2 c main_v3_1 : S4096x1024.Idx → EReal) (ix2 r e) = ((K r e : ℝ) : EReal)) →
      (∀ r e, (V2 c main_v3_2 : S4096x1024.Idx → EReal) (ix2 r e) = ((Vv r e : ℝ) : EReal)) →
      O = fun i => ((Cert.Spec.attn (Cert.Spec.score Q K) Vv (i 0) (i 1) : ℝ) : EReal)) :
    O = Cert.Spec.G x wq wk wv := by
  obtain ⟨h0, h1, h2, h3⟩ := hfin
  choose X0 hX0 using h0
  choose X1 hX1 using h1
  choose X2 hX2 using h2
  choose X3 hX3 using h3
  have hx1 : ∀ r j, (V1 c main_arg0 : S4096x1024.Idx → EReal) (ix2 r j) = (((fun r j => X0 (ix2 r j)) r j : ℝ) : EReal) :=
    fun r j => (h1x (ix2 r j)).trans (hX0 (ix2 r j))
  have hwq1 : ∀ j e, (V1 c main_v0 : S1024x1024.Idx → EReal) (ix2 j e) = (((fun j e => X1 (ix2 j e)) j e : ℝ) : EReal) :=
    fun j e => (h1q (ix2 j e)).trans (hX1 (ix2 j e))
  have hwk1 : ∀ j e, (V1 c main_v1 : S1024x1024.Idx → EReal) (ix2 j e) = (((fun j e => X2 (ix2 j e)) j e : ℝ) : EReal) :=
    fun j e => (h1k (ix2 j e)).trans (hX2 (ix2 j e))
  have hwv1 : ∀ j e, (V1 c main_v2 : S1024x1024.Idx → EReal) (ix2 j e) = (((fun j e => X3 (ix2 j e)) j e : ℝ) : EReal) :=
    fun j e => (h1v (ix2 j e)).trans (hX3 (ix2 j e))
  rw [hO (Cert.Spec.proj (fun r j => X0 (ix2 r j)) (fun j e => X1 (ix2 j e)))
      (Cert.Spec.proj (fun r j => X0 (ix2 r j)) (fun j e => X2 (ix2 j e)))
      (Cert.Spec.proj (fun r j => X0 (ix2 r j)) (fun j e => X3 (ix2 j e)))
      (fun r e => (congrFun h2q (ix2 r e)).trans ((q_arr V1 c (ix2 r e)).trans (prodArr_coe _ _ _ _ hx1 hwq1 r e)))
      (fun r e => (congrFun h2k (ix2 r e)).trans ((k_arr V1 c (ix2 r e)).trans (prodArr_coe _ _ _ _ hx1 hwk1 r e)))
      (fun r e => (congrFun h2v (ix2 r e)).trans ((v_arr V1 c (ix2 r e)).trans (prodArr_coe _ _ _ _ hx1 hwv1 r e)))]
  exact (G_of_real x wq wk wv _ _ _ _ (fun r j => hX0 (ix2 r j)) (fun j e => hX1 (ix2 j e))
    (fun j e => hX2 (ix2 j e)) (fun j e => hX3 (ix2 j e))).symm

end Cert.KernelIdeal.Hand

end
-- ==== Proof.PayDefs.lean ====
/-
  The vocabulary the flash kernel's stored values are read in, one row of a 512-row tile at a time.

  A grid step holds a query tile `qb`, a key tile `kb` and a value tile `vb` (512 rows of 1024 features each) and
  the three scratch blocks: the running shifts `m0` and normalisers `l0` (512 × 1) and the running sums `a0`
  (512 × 1024). Row r of the tile has the state (m0 r, l0 r, a0 r ·), its scores against the key tile are
  (Σ_e qb r e · kb c e) · 2⁻⁵ (2⁻⁵ = 1/√1024), and the value rows are vb c ·.
-/
import proofs.«430317_j3848290697374_3_alg».proof.Proof.Gen.KernelIdeal.Skeleton
import proofs.«430317_j3848290697374_3_alg».proof.Proof.RowAlg
import Idealize.ShloMosaic.Lib.ValueIdx

noncomputable section

open scoped BigOperators

namespace Cert.KernelIdeal.Hand

open Idealize.ShloMosaic Idealize.ShloMosaic.ValueIdx Cert.KernelIdeal Cert.KernelIdeal.Gen

/-- Row r's state, read out of the three scratch blocks. -/
def rowSt (m0 l0 : Vec Ideal S512x1 .f32) (a0 : Vec Ideal S512x1024 .f32) (r : Fin 512) : Cert.Row.St :=
  ⟨m0 (ix2 r (0 : Fin 1)), l0 (ix2 r (0 : Fin 1)), fun d => a0 (ix2 r d)⟩

/-- The scaled score of the tile's row r against key row c: the feature sum times 2⁻⁵. -/
def scoreOff (qb kb : Vec Ideal S512x1024 .bf16) (r c : Fin 512) : EReal :=
  (∑ e : Fin 1024, qb (ix2 r e) * kb (ix2 c e)) * Ideal.ofBits .f32 0x3D000000#32

/-- The value tile by rows. -/
def vrows (vb : Vec Ideal S512x1024 .bf16) (c : Fin 512) (d : Fin 1024) : EReal := vb (ix2 c d)

/-- The whole update of row r by an unmasked tile. -/
def updOff (qb kb vb : Vec Ideal S512x1024 .bf16) (m0 l0 : Vec Ideal S512x1 .f32) (a0 : Vec Ideal S512x1024 .f32) (r : Fin 512) : Cert.Row.St :=
  Cert.Row.upd (rowSt m0 l0 a0 r) (scoreOff qb kb r) (vrows vb)

/-- The diagonal tile's scores: the columns after the row are masked out. -/
def scoreDiag (qb kb : Vec Ideal S512x1024 .bf16) (r c : Fin 512) : EReal :=
  if c ≤ r then scoreOff qb kb r c else ⊥

/-- The whole update of row r by the diagonal tile. -/
def updDiag (qb kb vb : Vec Ideal S512x1024 .bf16) (m0 l0 : Vec Ideal S512x1 .f32) (a0 : Vec Ideal S512x1024 .f32) (r : Fin 512) : Cert.Row.St :=
  Cert.Row.upd (rowSt m0 l0 a0 r) (scoreDiag qb kb r) (vrows vb)

end Cert.KernelIdeal.Hand

end
-- ==== Proof.TileChain.lean ====
/-
  One row across its column tiles.

  Row r of row tile qi is the global row R = qi·512 + r. Its columns come in tiles of 512: lane c of tile j is the
  global column j·512 + c. The tiles j = 0, 1, …, qi go into the row's state in that order; a tile before the diagonal
  (j < qi) brings all its 512 columns, the diagonal tile (j = qi) brings the lanes c ≤ r alone. Both cases are one
  rule: tile j brings the columns j·512 + c that are not after R. After tile j the columns that have gone in are
  those c' ≤ R with c' / 512 ≤ j; after the diagonal tile they are all the columns c' ≤ R, which is the set the
  specification sums over, so the row's quotient is the specification's attention value.
-/
import proofs.«430317_j3848290697374_3_alg».proof.Proof.RowAlg

noncomputable section

open scoped BigOperators

namespace Cert.Row

/-- The global column of lane c of column tile j. -/
def colOf (j : Fin 8) (c : Fin 512) : Fin 4096 := ⟨j.val * 512 + c.val, by have := j.isLt; have := c.isLt; omega⟩

/-- The global row of row r of row tile qi. -/
def rowOf (qi : Fin 8) (r : Fin 512) : Fin 4096 := colOf qi r

theorem colOf_val (j : Fin 8) (c : Fin 512) : (colOf j c).val = j.val * 512 + c.val := rfl

theorem rowOf_val (qi : Fin 8) (r : Fin 512) : (rowOf qi r).val = qi.val * 512 + r.val := rfl

/-- Distinct lanes of a tile are distinct columns. -/
def tileEmb (j : Fin 8) : Fin 512 ↪ Fin 4096 :=
  ⟨colOf j, fun a b h => by
    have h' := congrArg Fin.val h
    rw [colOf_val, colOf_val] at h'
    exact Fin.ext (by omega)⟩

theorem tileEmb_apply (j : Fin 8) (c : Fin 512) : tileEmb j c = colOf j c := rfl

/-- The columns tile jj brings to row (qi, r): those of the tile that are not after the row. -/
def tileCols (qi : Fin 8) (r : Fin 512) (jj : Fin 8) : Finset (Fin 4096) :=
  blockCols (tileEmb jj) (fun c => colOf jj c ≤ rowOf qi r)

/-- The columns that have gone in after tiles 0, …, j: those not after the row, in a tile up to j. -/
def colsUpTo (qi : Fin 8) (r : Fin 512) (j : ℕ) : Finset (Fin 4096) :=
  Finset.univ.filter fun c' => c'.val / 512 ≤ j ∧ c' ≤ rowOf qi r

theorem mem_colsUpTo (qi : Fin 8) (r : Fin 512) (j : ℕ) (c' : Fin 4096) :
    c' ∈ colsUpTo qi r j ↔ c'.val / 512 ≤ j ∧ c' ≤ rowOf qi r := by
  unfold colsUpTo
  rw [Finset.mem_filter]
  exact ⟨fun h => h.2, fun h => ⟨Finset.mem_univ _, h⟩⟩

theorem mem_tileCols (qi : Fin 8) (r : Fin 512) (jj : Fin 8) (c' : Fin 4096) :
    c' ∈ tileCols qi r jj ↔ c'.val / 512 = jj.val ∧ c' ≤ rowOf qi r := by
  unfold tileCols blockCols
  rw [Finset.mem_map]
  constructor
  · rintro ⟨c, hc, rfl⟩
    rw [Finset.mem_filter] at hc
    refine ⟨?_, hc.2⟩
    rw [tileEmb_apply, colOf_val]
    have := c.isLt
    omega
  · rintro ⟨h1, h2⟩
    have hc : colOf jj ⟨c'.val % 512, Nat.mod_lt _ (by norm_num)⟩ = c' :=
      Fin.ext (by rw [colOf_val]; show jj.val * 512 + c'.val % 512 = c'.val; omega)
    refine ⟨⟨c'.val % 512, Nat.mod_lt _ (by norm_num)⟩, ?_, hc⟩
    rw [Finset.mem_filter]
    refine ⟨Finset.mem_univ _, ?_⟩
    rw [hc]
    exact h2

theorem colsUpTo_zero (qi : Fin 8) (r : Fin 512) : colsUpTo qi r 0 = tileCols qi r ⟨0, by omega⟩ := by
  ext c'
  rw [mem_colsUpTo, mem_tileCols]
  show c'.val / 512 ≤ 0 ∧ _ ↔ c'.val / 512 = 0 ∧ _
  rw [Nat.le_zero]

theorem colsUpTo_succ (qi : Fin 8) (r : Fin 512) (j : ℕ) (hj : j + 1 < 8) :
    colsUpTo qi r (j + 1) = colsUpTo qi r j ∪ tileCols qi r ⟨j + 1, hj⟩ := by
  ext c'
  rw [Finset.mem_union, mem_colsUpTo, mem_colsUpTo, mem_tileCols]
  show c'.val / 512 ≤ j + 1 ∧ _ ↔ (c'.val / 512 ≤ j ∧ _) ∨ (c'.val / 512 = j + 1 ∧ _)
  constructor
  · rintro ⟨h1, h2⟩
    rcases Nat.lt_or_ge (c'.val / 512) (j + 1) with h | h
    · exact Or.inl ⟨by omega, h2⟩
    · exact Or.inr ⟨by omega, h2⟩
  · rintro (⟨h1, h2⟩ | ⟨h1, h2⟩)
    · exact ⟨by omega, h2⟩
    · exact ⟨by omega, h2⟩

theorem disjoint_colsUpTo (qi : Fin 8) (r : Fin 512) (j : ℕ) (hj : j + 1 < 8) :
    Disjoint (colsUpTo qi r j) (tileCols qi r ⟨j + 1, hj⟩) := by
  refine Finset.disjoint_left.2 fun a ha hb => ?_
  rw [mem_colsUpTo] at ha
  rw [mem_tileCols] at hb
  have h1 : a.val / 512 = j + 1 := hb.1
  have h2 := ha.1
  omega

/-- After the diagonal tile, the columns that have gone in are the ones the specification sums over. -/
theorem colsUpTo_last (qi : Fin 8) (r : Fin 512) : colsUpTo qi r qi.val = Cert.Spec.cols (rowOf qi r) := by
  ext c'
  unfold Cert.Spec.cols
  rw [mem_colsUpTo, Finset.mem_filter]
  constructor
  · rintro ⟨_, h⟩
    exact ⟨Finset.mem_univ _, h⟩
  · rintro ⟨_, h⟩
    refine ⟨?_, h⟩
    have h' : c'.val ≤ (rowOf qi r).val := h
    rw [rowOf_val] at h'
    have := r.isLt
    omega

theorem cols_nonempty (R : Fin 4096) : (Cert.Spec.cols R).Nonempty := by
  refine ⟨⟨0, by norm_num⟩, ?_⟩
  unfold Cert.Spec.cols
  rw [Finset.mem_filter]
  exact ⟨Finset.mem_univ _, Fin.le_def.2 (Nat.zero_le _)⟩

/-- The tiles 0, …, qi of row (qi, r), chained: the row's quotient is the specification's attention value. -/
theorem tile_chain (qi : Fin 8) (r : Fin 512) (S : Fin 4096 → Fin 4096 → ℝ) (vR : Fin 4096 → Fin 1024 → ℝ)
    (st : ℕ → St) (s : ℕ → Fin 512 → EReal) (v : ℕ → Fin 512 → Fin 1024 → EReal)
    (hs : ∀ j (hj : j < qi.val) c, s j c = ((S (rowOf qi r) (colOf ⟨j, by have := qi.isLt; omega⟩ c) : ℝ) : EReal))
    (hsd : ∀ c, s qi.val c = if c ≤ r then ((S (rowOf qi r) (colOf qi c) : ℝ) : EReal) else ⊥)
    (hv : ∀ j (hj : j ≤ qi.val) c d, v j c d = ((vR (colOf ⟨j, by have := qi.isLt; omega⟩ c) d : ℝ) : EReal))
    (h0 : st 0 = upd init (s 0) (v 0))
    (hstep : ∀ j, j < qi.val → st (j + 1) = upd (st j) (s (j + 1)) (v (j + 1)))
    (d : Fin 1024) : out (st qi.val) d = ((Cert.Spec.attn S vR (rowOf qi r) d : ℝ) : EReal) := by
  have hq := qi.isLt
  -- every tile's scores, by the one rule: a lane's score is real if its column is not after the row, ⊥ otherwise
  have hsu : ∀ j (hj : j ≤ qi.val) (c : Fin 512),
      s j c = if colOf ⟨j, by omega⟩ c ≤ rowOf qi r
        then ((S (rowOf qi r) (tileEmb ⟨j, by omega⟩ c) : ℝ) : EReal) else ⊥ := by
    intro j hj c
    rcases Nat.lt_or_ge j qi.val with h | h
    · rw [hs j h c, if_pos]
      · rfl
      · refine Fin.le_def.2 ?_
        rw [colOf_val, rowOf_val]
        show j * 512 + c.val ≤ qi.val * 512 + r.val
        have := c.isLt
        omega
    · have hjq : j = qi.val := le_antisymm hj h
      subst hjq
      rw [hsd c]
      refine if_congr ?_ rfl rfl
      rw [Fin.le_def, Fin.le_def, colOf_val, rowOf_val]
      show c.val ≤ r.val ↔ qi.val * 512 + c.val ≤ qi.val * 512 + r.val
      omega
  have key : ∀ j (hj : j ≤ qi.val), Inv (S (rowOf qi r)) vR (colsUpTo qi r j) (st j) := by
    intro j
    induction j with
    | zero =>
      intro hj
      rw [h0, colsUpTo_zero]
      refine upd_init (S (rowOf qi r)) vR (tileEmb ⟨0, by omega⟩) (fun c => colOf ⟨0, by omega⟩ c ≤ rowOf qi r)
        ⟨⟨0, by norm_num⟩, ?_⟩ (s 0) (v 0) (hsu 0 hj) (fun c d => hv 0 hj c d)
      refine Fin.le_def.2 ?_
      rw [colOf_val, rowOf_val]
      show 0 * 512 + 0 ≤ qi.val * 512 + r.val
      omega
    | succ j ih =>
      intro hj
      rw [hstep j (by omega), colsUpTo_succ qi r j (by omega)]
      exact upd_step (S (rowOf qi r)) vR (colsUpTo qi r j) (st j) (ih (by omega)) (tileEmb ⟨j + 1, by omega⟩)
        (fun c => colOf ⟨j + 1, by omega⟩ c ≤ rowOf qi r) (disjoint_colsUpTo qi r j (by omega))
        (s (j + 1)) (v (j + 1)) (hsu (j + 1) hj) (fun c d => hv (j + 1) hj c d)
  have hfin := key qi.val le_rfl
  rw [colsUpTo_last] at hfin
  rw [out_eq (S (rowOf qi r)) vR (Cert.Spec.cols (rowOf qi r)) (cols_nonempty _) (st qi.val) hfin d]
  rfl

end Cert.Row

end
-- ==== Proof.R1ValueA.lean ====
/-
  The flash region read as values, first half: where each window's block sits in its array at every step, the
  scores of a tile over the reals, and one row followed through the steps of its row tile.

  The 36 steps visit the row tiles in the order 0, 7, 1, 6, 2, 5, 3, 4; within row tile qi the column tile ascends
  0, 1, …, qi, so the steps of one row tile are consecutive, starting at a step t0 qi. At a step the query block is
  rows qi·512 … qi·512 + 511 of q and the key and value blocks are rows ki·512 … ki·512 + 511 of k and v. A row's
  state after a step is the block update of its state after the step before, or of the empty state when the column
  tile is 0; chaining the updates of a row tile's steps gives, after its last (diagonal) step, a state whose
  quotient is the specification's attention value.
-/
import proofs.«430317_j3848290697374_3_alg».proof.Proof.R1Defs
import proofs.«430317_j3848290697374_3_alg».proof.Proof.PayDefs
import proofs.«430317_j3848290697374_3_alg».proof.Proof.TileChain
import proofs.«430317_j3848290697374_3_alg».proof.Proof.Consts
import Idealize.ShloMosaic.Lib.Pipeline.Value
import Idealize.ShloMosaic.Lib.ValueIdx
import Idealize.ShloMosaic.PureOps.Ideal.Laws

set_option synthInstance.maxSize 4096
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## Where the blocks sit -/

/-- The index maps over the 36 steps: the query block and the output block sit at row block qi, the key and value
    blocks at row block ki, all at column block 0. -/
theorem idx_facts1 : ∀ t : Fin cfgA.N,
    (cfgA.win 0).index t (0 : Fin 2) = qiOf t.val ∧ (cfgA.win 0).index t (1 : Fin 2) = 0
    ∧ (cfgA.win 1).index t (0 : Fin 2) = kiOf t.val ∧ (cfgA.win 1).index t (1 : Fin 2) = 0
    ∧ (cfgA.win 2).index t (0 : Fin 2) = kiOf t.val ∧ (cfgA.win 2).index t (1 : Fin 2) = 0
    ∧ (cfgA.win 3).index t (0 : Fin 2) = qiOf t.val ∧ (cfgA.win 3).index t (1 : Fin 2) = 0 := by
  decide +kernel

/-- The output block is written back exactly at the diagonal steps. -/
theorem flush_facts1 : ∀ t : Fin cfgA.N, (cfgA.win 3).flush t = true ↔ kiOf t.val = qiOf t.val := by
  decide +kernel

/-! ## The steps of a row tile -/

/-- The first step of row tile qi. -/
def t0 : Fin 8 → ℕ := ![0, 9, 18, 27, 31, 21, 11, 1]

/-- Step t0 qi + j works on row tile qi and column tile j, for j = 0, …, qi. -/
theorem t0_facts : ∀ (qi j : Fin 8), j.val ≤ qi.val →
    qiOf (t0 qi + j.val) = qi.val ∧ kiOf (t0 qi + j.val) = j.val ∧ t0 qi + j.val < 36 := by
  decide +kernel

theorem t0_qi (qi : Fin 8) (j : ℕ) (hj : j ≤ qi.val) : qiOf (t0 qi + j) = qi.val :=
  (t0_facts qi ⟨j, by have := qi.isLt; omega⟩ hj).1
theorem t0_ki (qi : Fin 8) (j : ℕ) (hj : j ≤ qi.val) : kiOf (t0 qi + j) = j :=
  (t0_facts qi ⟨j, by have := qi.isLt; omega⟩ hj).2.1
theorem t0_lt (qi : Fin 8) (j : ℕ) (hj : j ≤ qi.val) : t0 qi + j < 36 :=
  (t0_facts qi ⟨j, by have := qi.isLt; omega⟩ hj).2.2

/-! ## A tile's scores over the reals -/

/-- When the query row and the key row are real, the scaled score is the real feature sum over 32. -/
theorem scoreOff_real (qb kb : Vec Ideal S512x1024 .bf16) (q k : Fin 1024 → ℝ) (r c : Fin 512)
    (hq : ∀ e, qb (ix2 r e) = ((q e : ℝ) : EReal)) (hk : ∀ e, kb (ix2 c e) = ((k e : ℝ) : EReal)) :
    scoreOff qb kb r c = (((∑ e : Fin 1024, q e * k e) / 32 : ℝ) : EReal) := by
  unfold scoreOff
  rw [Cert.Consts.ofBits_scale]
  have hsum : (∑ e : Fin 1024, qb (ix2 r e) * kb (ix2 c e)) = ((∑ e : Fin 1024, q e * k e : ℝ) : EReal) := by
    rw [Cert.Row.coe_sum]
    refine Finset.sum_congr rfl fun e _ => ?_
    rw [hq e, hk e, EReal.coe_mul]
  rw [hsum, ← EReal.coe_mul]
  refine congrArg _ ?_
  ring

/-! ## One row through the steps of its row tile -/

/-- A family of row states indexed by the step, with each step's scores and value rows: at a step whose column tile
    is 0 the state is the update of the empty state, at any other step the update of the state one step before.
    If the scores and value rows are those of the real arrays, then after the last step of row tile qi the row's
    quotient is the specification's attention value. -/
theorem chain_out (Q K Vv : Fin 4096 → Fin 1024 → ℝ)
    (stAt : ℕ → Fin 512 → Cert.Row.St) (sc : ℕ → Fin 512 → Fin 512 → EReal) (vr : ℕ → Fin 512 → Fin 1024 → EReal)
    (hoff : ∀ n, n < 36 → ∀ qi ki : Fin 8, qiOf n = qi.val → kiOf n = ki.val → ki.val < qi.val → ∀ r c,
      sc n r c = ((Cert.Spec.score Q K (Cert.Row.rowOf qi r) (Cert.Row.colOf ki c) : ℝ) : EReal))
    (hdiag : ∀ n, n < 36 → ∀ qi : Fin 8, qiOf n = qi.val → kiOf n = qi.val → ∀ r c,
      sc n r c = if c ≤ r then ((Cert.Spec.score Q K (Cert.Row.rowOf qi r) (Cert.Row.colOf qi c) : ℝ) : EReal) else ⊥)
    (hvr : ∀ n, n < 36 → ∀ ki : Fin 8, kiOf n = ki.val → ∀ c d, vr n c d = ((Vv (Cert.Row.colOf ki c) d : ℝ) : EReal))
    (hfirst : ∀ n, n < 36 → kiOf n = 0 → ∀ r, stAt n r = Cert.Row.upd Cert.Row.init (sc n r) (vr n))
    (hnext : ∀ n, n + 1 < 36 → kiOf (n + 1) ≠ 0 → ∀ r, stAt (n + 1) r = Cert.Row.upd (stAt n r) (sc (n + 1) r) (vr (n + 1)))
    (qi : Fin 8) (r : Fin 512) (d : Fin 1024) :
    Cert.Row.out (stAt (t0 qi + qi.val) r) d
      = ((Cert.Spec.attn (Cert.Spec.score Q K) Vv (Cert.Row.rowOf qi r) d : ℝ) : EReal) := by
  have hq8 := qi.isLt
  refine Cert.Row.tile_chain qi r (Cert.Spec.score Q K) Vv (fun j => stAt (t0 qi + j) r)
    (fun j => sc (t0 qi + j) r) (fun j => vr (t0 qi + j)) ?_ ?_ ?_ ?_ ?_ d
  · intro j hj c
    exact hoff (t0 qi + j) (t0_lt qi j hj.le) qi ⟨j, by omega⟩ (t0_qi qi j hj.le) (t0_ki qi j hj.le) hj r c
  · intro c
    exact hdiag (t0 qi + qi.val) (t0_lt qi _ le_rfl) qi (t0_qi qi _ le_rfl) (t0_ki qi _ le_rfl) r c
  · intro j hj c d'
    exact hvr (t0 qi + j) (t0_lt qi j hj) ⟨j, by omega⟩ (t0_ki qi j hj) c d'
  · exact hfirst (t0 qi + 0) (t0_lt qi 0 (Nat.zero_le _)) (t0_ki qi 0 (Nat.zero_le _)) r
  · intro j hj
    have hk : kiOf (t0 qi + j + 1) ≠ 0 := by
      have := t0_ki qi (j + 1) hj
      rw [show t0 qi + (j + 1) = t0 qi + j + 1 from rfl] at this
      omega
    exact hnext (t0 qi + j) (t0_lt qi (j + 1) hj) hk r

/-! ## The blocks as rows of the arrays -/

variable (V : (c : Dev nD) → (b : Ref sig .tc) → Buf (Elt Ideal) ((c : Thread nD τ).loc b))

/-- Window w's block at step t, read off its array as the region finds it. -/
abbrev blkOf (c : Dev nD) (w : Fin cfgA.W) (t : Fin cfgA.N) : ((cfgA.win w).xblock (cfgA.grid.coords t)).Idx → Elt Ideal (cfgA.win w).elt :=
  ((cfgA.win w).blk t).view.read (Elt Ideal) (V c (Pipeline.arrRef spec1 w))

/-- The query block at a step of row tile qi is rows qi·512 … qi·512 + 511 of q. -/
theorem qblk_apply (c : Dev nD) (t : Fin cfgA.N) (qi : Fin 8) (hqi : qiOf t.val = qi.val) (r : Fin 512) (e : Fin 1024) :
    (blkOf V c 0 t : Vec Ideal S512x1024 .bf16) (ix2 r e)
      = (V c main_v3_0 : S4096x1024.Idx → EReal) (ix2 (Cert.Row.rowOf qi r) e) := by
  have hi := idx_facts1 t
  unfold blkOf
  rw [View.read_apply]
  show V c main_v3_0 _ = V c main_v3_0 _
  refine congrArg _ ?_
  funext a
  apply Fin.ext
  match a with
  | ⟨0, _⟩ => show (cfgA.win 0).index t (0 : Fin 2) * 512 + 1 * r.val = qi.val * 512 + r.val; rw [hi.1, hqi]; omega
  | ⟨1, _⟩ => show (cfgA.win 0).index t (1 : Fin 2) * 1024 + 1 * e.val = e.val; rw [hi.2.1]; omega

/-- The key block at a step of column tile ki is rows ki·512 … of k. -/
theorem kblk_apply (c : Dev nD) (t : Fin cfgA.N) (ki : Fin 8) (hki : kiOf t.val = ki.val) (r : Fin 512) (e : Fin 1024) :
    (blkOf V c 1 t : Vec Ideal S512x1024 .bf16) (ix2 r e)
      = (V c main_v3_1 : S4096x1024.Idx → EReal) (ix2 (Cert.Row.colOf ki r) e) := by
  have hi := idx_facts1 t
  unfold blkOf
  rw [View.read_apply]
  show V c main_v3_1 _ = V c main_v3_1 _
  refine congrArg _ ?_
  funext a
  apply Fin.ext
  match a with
  | ⟨0, _⟩ => show (cfgA.win 1).index t (0 : Fin 2) * 512 + 1 * r.val = ki.val * 512 + r.val; rw [hi.2.2.1, hki]; omega
  | ⟨1, _⟩ => show (cfgA.win 1).index t (1 : Fin 2) * 1024 + 1 * e.val = e.val; rw [hi.2.2.2.1]; omega

/-- The value block at a step of column tile ki is rows ki·512 … of v. -/
theorem vblk_apply (c : Dev nD) (t : Fin cfgA.N) (ki : Fin 8) (hki : kiOf t.val = ki.val) (r : Fin 512) (e : Fin 1024) :
    (blkOf V c 2 t : Vec Ideal S512x1024 .bf16) (ix2 r e)
      = (V c main_v3_2 : S4096x1024.Idx → EReal) (ix2 (Cert.Row.colOf ki r) e) := by
  have hi := idx_facts1 t
  unfold blkOf
  rw [View.read_apply]
  show V c main_v3_2 _ = V c main_v3_2 _
  refine congrArg _ ?_
  funext a
  apply Fin.ext
  match a with
  | ⟨0, _⟩ => show (cfgA.win 2).index t (0 : Fin 2) * 512 + 1 * r.val = ki.val * 512 + r.val; rw [hi.2.2.2.2.1, hki]; omega
  | ⟨1, _⟩ => show (cfgA.win 2).index t (1 : Fin 2) * 1024 + 1 * e.val = e.val; rw [hi.2.2.2.2.2.1]; omega

/-! ## The output blocks cover the array -/

/-- An index of the output array is in step t's block iff each coordinate is in the block's range on its axis. -/
theorem mem_blk3 (t : Fin cfgA.N) (i : S4096x1024.Idx) :
    i ∈ ((cfgA.win 3).blk t).view.set ↔ ∀ a : Fin 2, (cfgA.win 3).index t a * S512x1024.size a ≤ (i a).val ∧ (i a).val < (cfgA.win 3).index t a * S512x1024.size a + S512x1024.size a := by
  show i ∈ ((View.whole main_v4).slice ((cfgA.win 3).rect t)).set ↔ _
  rw [View.set_slice_whole, Rect.mem_set_unit]
  exact Iff.rfl

/-- Row R of the output array lies in the block of the diagonal step of row tile R / 512. -/
theorem cover3 (i : S4096x1024.Idx) : ∃ t : Fin cfgA.N, (cfgA.win 3).flush t = true ∧ i ∈ ((cfgA.win 3).blk t).view.set := by
  have h0 : (i 0).val < 4096 := (i 0).isLt
  have h1 : (i 1).val < 1024 := (i 1).isLt
  let qi : Fin 8 := ⟨(i 0).val / 512, by omega⟩
  have hlt : t0 qi + qi.val < cfgA.N := by rw [N_A]; exact t0_lt qi _ le_rfl
  refine ⟨⟨t0 qi + qi.val, hlt⟩, ?_, ?_⟩
  · rw [flush_facts1]
    show kiOf (t0 qi + qi.val) = qiOf (t0 qi + qi.val)
    rw [t0_ki qi _ le_rfl, t0_qi qi _ le_rfl]
  · rw [mem_blk3]
    have hi := idx_facts1 ⟨t0 qi + qi.val, hlt⟩
    have hq : qiOf (t0 qi + qi.val) = (i 0).val / 512 := t0_qi qi _ le_rfl
    intro a
    match a with
    | ⟨0, _⟩ =>
      show (cfgA.win 3).index ⟨t0 qi + qi.val, hlt⟩ (0 : Fin 2) * 512 ≤ (i 0).val ∧ (i 0).val < (cfgA.win 3).index ⟨t0 qi + qi.val, hlt⟩ (0 : Fin 2) * 512 + 512
      rw [hi.2.2.2.2.2.2.1]
      show qiOf (t0 qi + qi.val) * 512 ≤ (i 0).val ∧ (i 0).val < qiOf (t0 qi + qi.val) * 512 + 512
      rw [hq]; omega
    | ⟨1, _⟩ =>
      show (cfgA.win 3).index ⟨t0 qi + qi.val, hlt⟩ (1 : Fin 2) * 1024 ≤ (i 1).val ∧ (i 1).val < (cfgA.win 3).index ⟨t0 qi + qi.val, hlt⟩ (1 : Fin 2) * 1024 + 1024
      rw [hi.2.2.2.2.2.2.2]; omega

end Cert.KernelIdeal.Hand

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.PayOff.lean ====
/-
  The flash kernel's stored values of one grid step, read one row of the tile at a time: the reset of the three
  scratch blocks and the step against a tile that lies wholly before the row's own columns (no column masked).

  Row r of the step's 512 rows has the state (m, l, acc) = (m0 r, l0 r, a0 r ·) (`rowSt`). Its scores against the key
  tile are s c = (Σ_e qb r e · kb c e) · 2⁻⁵ (`scoreOff`). The step stores
    m' = max m (max_c s c),
    l' = exp (m − m') · l + Σ_c exp (s c − m'),
    acc' d = exp (m − m') · acc d + Σ_c exp (s c − m') · vb c d,
  which is `Cert.Row.upd` of the row's state, its scores and the value tile's rows (`updOff`). The reset stores
  m = ⊥, l = 0, acc = 0: `Cert.Row.init`.

  Every extended-real operation is read through pointwise; the two products of the tile are sums over the one
  contracted axis; the maximum and the sum over the lanes of a row are a fold of `max` from ⊥ and a sum over the
  row's 512 columns; the kept axis of both (a 512-vector cast to a 512 × 1 column, the column broadcast along the
  rows) reads the row's entry.
-/
import proofs.«430317_j3848290697374_3_alg».proof.Proof.PayDefs
import proofs.«430317_j3848290697374_3_alg».proof.Proof.LibColumns
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! ## The two products of the tile, read at an index -/

/- Where the score product reads its operands: at the output entry (i₀, i₁) and contraction position q, the queries at
   (i₀, q) and the keys at (i₁, q). -/
theorem lhs_qk_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_qk_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_qk_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_qk_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Q · Kᵀ at (r, c): the sum over the features of row r of the queries times row c of the keys. -/
theorem qk_apply (qb' kb' : FVec Ideal S512x1024 .bf16) (r c : Fin 512) :
    FloatOps.matmul dot_S512x1024_S512x1024_S512x512_1_1_0_0_n_n none qb' kb' (constant (F := Ideal) S512x512 .f32 0x00000000#32) (ix2 r c)
      = ∑ e : Fin 1024, qb' (ix2 r e) * kb' (ix2 c e) := by
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r c) ((contrEquiv1 dot_S512x1024_S512x1024_S512x512_1_1_0_0_n_n 1024 rfl rfl).symm k) = ix2 r k := funext fun a => Fin.ext (by
    match a with
    | ⟨0, _⟩ => exact lhs_qk_0 _ _
    | ⟨1, _⟩ => exact (lhs_qk_1 _ _).trans hk)
  have er : dot_S512x1024_S512x1024_S512x512_1_1_0_0_n_n.rhsIdx (ix2 r c) ((contrEquiv1 dot_S512x1024_S512x1024_S512x512_1_1_0_0_n_n 1024 rfl rfl).symm k) = ix2 c k := funext fun a => Fin.ext (by
    match a with
    | ⟨0, _⟩ => exact rhs_qk_0 _ _
    | ⟨1, _⟩ => exact (rhs_qk_1 _ _).trans hk)
  rw [el, er]

/- Where the weighted sum reads its operands: at the output entry (i₀, i₁) and contraction position q, the weights at
   (i₀, q) and the value tile at (q, i₁). -/
theorem lhs_pv_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_pv_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_pv_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_pv_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- P · V at (r, d): the sum over the tile's columns of the weight of column c times feature d of value row c. -/
theorem pv_apply (p : FVec Ideal S512x512 .bf16) (vb' : FVec Ideal S512x1024 .bf16) (r : Fin 512) (d : Fin 1024) :
    FloatOps.matmul dot_S512x512_S512x1024_S512x1024_1_0_0_1_n_n none p vb' (constant (F := Ideal) S512x1024 .f32 0x00000000#32) (ix2 r d)
      = ∑ c : Fin 512, p (ix2 r c) * vb' (ix2 c d) := by
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r d) ((contrEquiv1 dot_S512x512_S512x1024_S512x1024_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S512x512_S512x1024_S512x1024_1_0_0_1_n_n.rhsIdx (ix2 r d) ((contrEquiv1 dot_S512x512_S512x1024_S512x1024_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

/-! ## Pointwise exponential -/

/-- The exponential at an index is the exponential of the element. -/
theorem exp_apply {s : Shape} {φ : FTy} (a : FVec Ideal s φ) (i : s.Idx) : exp a i = Ideal.exp (a i) := rfl

/-! ## The scores -/

/-- The score block at (r, c): row r of the queries against row c of the keys, times 2⁻⁵. -/
theorem pay8_apply (qb kb : Vec Ideal S512x1024 .bf16) (r c : Fin 512) :
    k1_pay8 qb kb (ix2 r c) = scoreOff qb kb r c := by
  unfold k1_pay8 scoreOff
  simp only [matmul]
  rw [mulf_apply, shapeCast_self, shapeCast_self, qk_apply, broadcast_apply]
  rfl

/-! ## The reset -/

/-- The masking constant is ⊥ on the extended reals, by the certificate's table of named constants. -/
theorem neg_big_eq : Named.named (F := Ideal) κ "neg_big" (φ := .f32) 0xFE967699#32 = (⊥ : EReal) :=
  IdealRules.named_const.ideal_named_scalar _ _ _ _ rfl

theorem reset_m (r : Fin 512) : k1_pay1 (F := Ideal) (ix2 r (0 : Fin 1)) = ⊥ := by
  unfold k1_pay1
  rw [shapeCast_self, broadcast_apply]
  exact neg_big_eq

theorem reset_l (r : Fin 512) : k1_pay2 (F := Ideal) (ix2 r (0 : Fin 1)) = 0 := by
  unfold k1_pay2
  rw [shapeCast_self, broadcast_apply]
  exact Ideal.ofBits_zero_f32

theorem reset_acc (r : Fin 512) (d : Fin 1024) : k1_pay3 (F := Ideal) (ix2 r d) = 0 := by
  unfold k1_pay3
  rw [shapeCast_self, broadcast_apply]
  exact Ideal.ofBits_zero_f32

/-! ## A row's lanes -/

/-- The pattern of −∞ is ⊥. -/
theorem ofBits_neg_inf_f32 : Ideal.ofBits .f32 0xFF800000#32 = (⊥ : EReal) := by rfl

/-- Over the row index r, lane c of a 512 × 512 block is its entry (r, c). -/
theorem lift_row (h : S512x512.Reduces [1] S512) (r c : Fin 512) : h.lift (ValueIdx.ix1 r) c = ix2 r c := by
  funext a
  apply Fin.ext
  match a with
  | ⟨0, _⟩ => rfl
  | ⟨1, _⟩ => rfl

/-- The maximum over the lanes of row r: the fold of `max` from ⊥ over the row's entries. -/
theorem rowmax_apply (x : FVec Ideal S512x512 .f32) (h : S512x512.Reduces [1] S512) (hφ : FKind.Formats .f32)
    (hacc : (0xFF800000#32 : BitVec 32) = 0xFF800000#32) (r : Fin 512) :
    multiReduction (F := Ideal) .maximumf [1] S512 x 0xFF800000#32 h hφ hacc (ValueIdx.ix1 r) = Cert.Row.bmax fun c => x (ix2 r c) := by
  refine (Ideal.multiReduction_maximumf_single x 0xFF800000#32 h hφ hacc (ValueIdx.ix1 r)).trans ?_
  have e : (x ∘ h.lift (ValueIdx.ix1 r)) = fun c : Fin 512 => x (ix2 r c) := funext fun c => congrArg x (lift_row h r c)
  rw [e, Ideal.ofBits_def, ofBits_neg_inf_f32]
  rfl

/-- The sum over the lanes of row r. -/
theorem rowsum_apply (x : FVec Ideal S512x512 .f32) (h : S512x512.Reduces [1] S512) (hφ : FKind.Formats .f32)
    (hacc : (0x00000000#32 : BitVec 32) = 0x00000000#32) (r : Fin 512) :
    multiReduction (F := Ideal) .add [1] S512 x 0x00000000#32 h hφ hacc (ValueIdx.ix1 r) = ∑ c : Fin 512, x (ix2 r c) := by
  refine (Ideal.multiReduction_add_single x 0x00000000#32 h hφ hacc (ValueIdx.ix1 r)).trans ?_
  exact Finset.sum_congr rfl fun c _ => congrArg x (lift_row h r c)

/-! ## The step against an unmasked tile -/

/-- The new shift of row r: the old shift against the row's largest score. -/
theorem pay9_apply (qb kb : Vec Ideal S512x1024 .bf16) (m0 : Vec Ideal S512x1 .f32) (r : Fin 512) :
    k1_pay9 qb kb m0 (ix2 r (0 : Fin 1)) = max (m0 (ix2 r (0 : Fin 1))) (Cert.Row.bmax (scoreOff qb kb r)) := by
  unfold k1_pay9
  rw [maximumf_apply, Cert.Columns.shapeCast_a_a1_apply, rowmax_apply,
    show (fun c => k1_pay8 qb kb (ix2 r c)) = scoreOff qb kb r from funext (pay8_apply qb kb r)]

/-- The factor the old normaliser and sums are rescaled by: exp (old shift − new shift). -/
theorem pay10_apply (qb kb : Vec Ideal S512x1024 .bf16) (m0 m1 : Vec Ideal S512x1 .f32) (r : Fin 512) :
    k1_pay10 qb kb m0 m1 (ix2 r (0 : Fin 1))
      = Ideal.exp (m1 (ix2 r (0 : Fin 1)) - max (m0 (ix2 r (0 : Fin 1))) (Cert.Row.bmax (scoreOff qb kb r))) := by
  unfold k1_pay10
  rw [exp_apply, subf_apply, pay9_apply]

/-- The weight of column c in row r: exp (score − new shift). -/
theorem pay11_apply (qb kb : Vec Ideal S512x1024 .bf16) (m0 : Vec Ideal S512x1 .f32) (r c : Fin 512) :
    k1_pay11 qb kb m0 (ix2 r c)
      = Ideal.exp (scoreOff qb kb r c - max (m0 (ix2 r (0 : Fin 1))) (Cert.Row.bmax (scoreOff qb kb r))) := by
  unfold k1_pay11
  rw [exp_apply, subf_apply, pay8_apply, Cert.Columns.broadcastTo_a1_ab_apply, pay9_apply]

variable (qb kb vb : Vec Ideal S512x1024 .bf16) (m0 l0 : Vec Ideal S512x1 .f32) (a0 : Vec Ideal S512x1024 .f32)

/-- The stored shift of row r is the updated state's. -/
theorem off_m (r : Fin 512) :
    k1_pay4 (k1_pay9 qb kb m0) (ix2 r (0 : Fin 1)) = (updOff qb kb vb m0 l0 a0 r).m := by
  unfold k1_pay4
  rw [shapeCast_self, pay9_apply]
  rfl

/-- The stored normaliser of row r is the updated state's. -/
theorem off_l (r : Fin 512) :
    k1_pay12 qb kb m0 m0 l0 (ix2 r (0 : Fin 1)) = (updOff qb kb vb m0 l0 a0 r).l := by
  unfold k1_pay12
  rw [shapeCast_self, addf_apply, mulf_apply, pay10_apply, Cert.Columns.shapeCast_a_a1_apply, rowsum_apply]
  simp only [pay11_apply]
  rfl

/-- The stored sum of row r at feature d is the updated state's. -/
theorem off_acc (r : Fin 512) (d : Fin 1024) :
    k1_pay13 qb kb m0 m0 vb a0 (ix2 r d) = (updOff qb kb vb m0 l0 a0 r).acc d := by
  unfold k1_pay13
  simp only [matmul, shapeCast_self]
  rw [addf_apply, mulf_apply, Cert.Columns.broadcastTo_a1_ab_apply, pay10_apply, pv_apply]
  simp only [truncf_apply, pay11_apply]
  rfl

end Cert.KernelIdeal.Hand

end
-- ==== Proof.PayDiag.lean ====
/-
  The flash kernel's diagonal step, read one row at a time.

  On the diagonal tile (column tile = row tile) the scores after the row's own column are masked out: the kernel
  compares the global row number r + 512·t with the global column number c + 512·t and puts ⊥ where the column is
  later. The masked scores then go through the same update as any tile — the new shift is the maximum of the old
  shift and the row's scores, the old normaliser and sums are rescaled by exp (old shift − new shift), and the
  row's exp (score − new shift) and their products with the value rows are added — and, this being the row's last
  tile, the sums are divided by the normaliser.
-/
import proofs.«430317_j3848290697374_3_alg».proof.Proof.PayDefs
import proofs.«430317_j3848290697374_3_alg».proof.Proof.LibColumns
import proofs.«430317_j3848290697374_3_alg».proof.Proof.PayOff
import proofs.«430317_j3848290697374_3_alg».proof.Proof.Consts
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.KernelIdeal.Hand

open Idealize.ShloMosaic Idealize.ShloMosaic.ValueIdx Cert.KernelIdeal Cert.KernelIdeal.Gen Cert.Columns

/-! ## A row of a 512 × 512 tile: its maximum and its sum -/

/-- Row r of the tile with column c put back in is the entry (r, c). -/
theorem diag_lift_row (h : S512x512.Reduces [1] S512) (r : Fin 512) (c : Fin 512) :
    h.lift (ValueIdx.ix1 r) c = ix2 r c := by
  funext ax
  apply Fin.ext
  refine (h.lift_val _ _ ax).trans ?_
  match ax with
  | ⟨0, _⟩ => rfl
  | ⟨1, _⟩ => rfl

/-- The lane maximum of row r is the block maximum of the row's entries. -/
theorem diag_rowmax (src : FVec Ideal S512x512 .f32) (r : Fin 512) (hφ : FKind.Formats .f32)
    (hacc : (0xFF800000#32 : BitVec 32) = 0xFF800000#32) :
    multiReduction (F := Ideal) .maximumf [1] S512 src 0xFF800000#32 reduces_S512x512_S512 hφ hacc (ValueIdx.ix1 r)
      = Cert.Row.bmax fun c => src (ix2 r c) := by
  refine (Ideal.multiReduction_maximumf_single src 0xFF800000#32 reduces_S512x512_S512 hφ hacc (ValueIdx.ix1 r)).trans ?_
  have e : (src ∘ reduces_S512x512_S512.lift (ValueIdx.ix1 r)) = fun c : Fin 512 => src (ix2 r c) :=
    funext fun c => congrArg src (diag_lift_row _ r c)
  rw [e, Ideal.ofBits_def, Cert.Consts.ofBits_neg_inf]
  rfl

/-- The lane sum of row r is the sum of the row's entries. -/
theorem diag_rowsum (src : FVec Ideal S512x512 .f32) (r : Fin 512) (hφ : FKind.Formats .f32)
    (hacc : (0x00000000#32 : BitVec 32) = 0x00000000#32) :
    multiReduction (F := Ideal) .add [1] S512 src 0x00000000#32 reduces_S512x512_S512 hφ hacc (ValueIdx.ix1 r)
      = ∑ c : Fin 512, src (ix2 r c) := by
  refine (Ideal.multiReduction_add_single src 0x00000000#32 reduces_S512x512_S512 hφ hacc (ValueIdx.ix1 r)).trans ?_
  exact Finset.sum_congr rfl fun c _ => congrArg src (diag_lift_row _ r c)

variable (v2 v5 : Elt Ideal .i32) (qb kb vb : Vec Ideal S512x1024 .bf16) (m0 l0 : Vec Ideal S512x1 .f32)
  (a0 a1 : Vec Ideal S512x1024 .f32) (l1 : Vec Ideal S512x1 .f32) (r c : Fin 512) (d : Fin 1024)

/-! ## The final quotient -/

/-- What the row gives out: its sums over its normaliser, feature by feature. -/
theorem diag_out : k1_pay7 (F := Ideal) a1 l1 (ix2 r d) = Cert.Row.out ⟨0, l1 (ix2 r (0 : Fin 1)), fun d => a1 (ix2 r d)⟩ d := by
  show Ideal.div (a1 (ix2 r d)) (broadcastTo S512x1024 l1 broadcasts_S512x1_S512x1024 (ix2 r d)) = _
  rw [broadcastTo_a1_ab_apply]
  rfl

/-! ## The causal mask and the diagonal tile's scores -/

/-- The named mask value is ⊥, by the certificate's table. -/
theorem diag_neg_big : Named.named (F := Ideal) κ "neg_big" (φ := .f32) 0xFE967699#32 = (⊥ : EReal) :=
  IdealRules.named_const.ideal_named_scalar _ _ _ _ rfl

/-- A global row or column number of tile t < 8: the lane number plus 512·t, with no wrap. -/
theorem diag_word_toNat (t : BitVec 32) (ht : t.toNat < 8) (r : Fin 512) :
    (IntOp.addi (BitVec.ofNat 32 r.val) (Scalar.muli t 512#32)).toNat = r.val + t.toNat * 512 := by
  show (BitVec.ofNat 32 r.val + t * 512#32).toNat = _
  rw [BitVec.toNat_add, BitVec.toNat_mul, BitVec.toNat_ofNat]
  have := r.isLt
  show (r.val % 2 ^ 32 + t.toNat * 512 % 2 ^ 32) % 2 ^ 32 = _
  omega

/-- On the diagonal tile the signed compare of the global row and column numbers is c ≤ r. -/
theorem diag_mask (t : BitVec 32) (ht : t.toNat < 8) (r c : Fin 512) :
    IntOp.cmpi .sge (IntOp.addi (BitVec.ofNat 32 r.val) (Scalar.muli t 512#32))
        (IntOp.addi (BitVec.ofNat 32 c.val) (Scalar.muli t 512#32)) = 1#1 ↔ c ≤ r := by
  have hr := diag_word_toNat t ht r
  have hc := diag_word_toNat t ht c
  have := r.isLt
  have := c.isLt
  rw [StableHlo.Predicate.sge_iff_toNat (by rw [hr]; omega) (by rw [hc]; omega), hr, hc, Fin.le_def]
  omega

/-- The diagonal tile's masked score at (r, c): the scaled feature sum where c ≤ r, ⊥ after it. -/
theorem pay14_apply (h : v5 = v2) (hlt : v2.toNat < 8) : k1_pay14 (F := Ideal) v2 v5 qb kb (ix2 r c) = scoreDiag qb kb r c := by
  subst h
  show Scalar.select (IntOp.cmpi .sge
      (IntOp.addi (iota .tc S512x512 32 [0] iota_S512x512_d0_w32 (ix2 r c)) (Scalar.muli v5 512#32))
      (IntOp.addi (iota .tc S512x512 32 [1] iota_S512x512_d1_w32 (ix2 r c)) (Scalar.muli v5 512#32)))
    (FloatOps.matmul dot_S512x1024_S512x1024_S512x512_1_1_0_0_n_n none
        (shapeCast S512x1024 qb shapeCasts_S512x1024_S512x1024) (shapeCast S512x1024 kb shapeCasts_S512x1024_S512x1024)
        (constant (F := Ideal) S512x512 .f32 0x00000000#32) (ix2 r c) * Ideal.ofBits .f32 0x3D000000#32)
    (Named.named (F := Ideal) κ "neg_big" (φ := .f32) 0xFE967699#32) = _
  have e0 : iota .tc S512x512 32 [0] iota_S512x512_d0_w32 (ix2 r c) = BitVec.ofNat 32 r.val := iota_single_apply _ _ _ _ _ _
  have e1 : iota .tc S512x512 32 [1] iota_S512x512_d1_w32 (ix2 r c) = BitVec.ofNat 32 c.val := iota_single_apply _ _ _ _ _ _
  rw [e0, e1, shapeCast_self, shapeCast_self, qk_apply, diag_neg_big]
  show _ = if c ≤ r then (∑ e : Fin 1024, qb (ix2 r e) * kb (ix2 c e)) * Ideal.ofBits .f32 0x3D000000#32 else ⊥
  by_cases hcr : c ≤ r
  · rw [(diag_mask v5 hlt r c).2 hcr, select_one, if_pos hcr]
  · have hm : IntOp.cmpi .sge (IntOp.addi (BitVec.ofNat 32 r.val) (Scalar.muli v5 512#32))
        (IntOp.addi (BitVec.ofNat 32 c.val) (Scalar.muli v5 512#32)) = 0#1 :=
      eq_zero_of_ne_one fun h1 => hcr ((diag_mask v5 hlt r c).1 h1)
    rw [hm, select_zero, if_neg hcr]

/-! ## The update of row r by the diagonal tile -/

/-- The new shift: the old one against the row's maximum score. -/
theorem diag_pay15 (m : Vec Ideal S512x1 .f32) :
    k1_pay15 (F := Ideal) v2 v5 qb kb m (ix2 r (0 : Fin 1))
      = max (m (ix2 r (0 : Fin 1))) (Cert.Row.bmax fun c => k1_pay14 (F := Ideal) v2 v5 qb kb (ix2 r c)) := by
  show max (m (ix2 r (0 : Fin 1)))
      (shapeCast S512x1 (multiReduction (F := Ideal) .maximumf [1] S512 (k1_pay14 (F := Ideal) v2 v5 qb kb) 0xFF800000#32
        reduces_S512x512_S512 (.inl rfl) rfl) shapeCasts_S512_S512x1 (ix2 r (0 : Fin 1))) = _
  rw [shapeCast_a_a1_apply, diag_rowmax]

/-- The rescaling factor of the old normaliser and sums. -/
theorem diag_pay16 (m m' : Vec Ideal S512x1 .f32) :
    k1_pay16 (F := Ideal) v2 v5 qb kb m m' (ix2 r (0 : Fin 1))
      = Ideal.exp (m' (ix2 r (0 : Fin 1)) - k1_pay15 (F := Ideal) v2 v5 qb kb m (ix2 r (0 : Fin 1))) := rfl

/-- The row's weights: exp (score − new shift). -/
theorem diag_pay17 (m : Vec Ideal S512x1 .f32) :
    k1_pay17 (F := Ideal) v2 v5 qb kb m (ix2 r c)
      = Ideal.exp (k1_pay14 (F := Ideal) v2 v5 qb kb (ix2 r c) - k1_pay15 (F := Ideal) v2 v5 qb kb m (ix2 r (0 : Fin 1))) := by
  show Ideal.exp (k1_pay14 (F := Ideal) v2 v5 qb kb (ix2 r c)
      - broadcastTo S512x512 (k1_pay15 (F := Ideal) v2 v5 qb kb m) broadcasts_S512x1_S512x512 (ix2 r c)) = _
  rw [broadcastTo_a1_ab_apply]

/-- The new normaliser: the rescaled old one plus the row's weights. -/
theorem diag_pay18 (m m' l : Vec Ideal S512x1 .f32) :
    k1_pay18 (F := Ideal) v2 v5 qb kb m m' l (ix2 r (0 : Fin 1))
      = k1_pay16 (F := Ideal) v2 v5 qb kb m m' (ix2 r (0 : Fin 1)) * l (ix2 r (0 : Fin 1))
        + ∑ c : Fin 512, k1_pay17 (F := Ideal) v2 v5 qb kb m (ix2 r c) := by
  show shapeCast S512x1 (addf (mulf (k1_pay16 (F := Ideal) v2 v5 qb kb m m') l)
      (shapeCast S512x1 (multiReduction (F := Ideal) .add [1] S512 (k1_pay17 (F := Ideal) v2 v5 qb kb m) 0x00000000#32
        reduces_S512x512_S512 (.inl rfl) rfl) shapeCasts_S512_S512x1)) shapeCasts_S512x1_S512x1 (ix2 r (0 : Fin 1)) = _
  rw [shapeCast_self, addf_apply, mulf_apply, shapeCast_a_a1_apply, diag_rowsum]

/-- The new sums: the rescaled old ones plus the weights against the value rows. -/
theorem diag_pay5 (f : FVec Ideal S512x1 .f32) (p : FVec Ideal S512x512 .bf16) (vb' : Vec Ideal S512x1024 .bf16)
    (a : Vec Ideal S512x1024 .f32) :
    k1_pay5 (F := Ideal) f p vb' a (ix2 r d)
      = f (ix2 r (0 : Fin 1)) * a (ix2 r d) + ∑ c : Fin 512, p (ix2 r c) * vb' (ix2 c d) := by
  show shapeCast S512x1024 (addf (mulf (broadcastTo S512x1024 f broadcasts_S512x1_S512x1024) a)
      (FloatOps.matmul dot_S512x512_S512x1024_S512x1024_1_0_0_1_n_n none p
        (shapeCast S512x1024 vb' shapeCasts_S512x1024_S512x1024) (constant (F := Ideal) S512x1024 .f32 0x00000000#32)))
      shapeCasts_S512x1024_S512x1024 (ix2 r d) = _
  rw [shapeCast_self, shapeCast_self, addf_apply, mulf_apply, broadcastTo_a1_ab_apply, pv_apply]

/-- The stored shift of row r is the updated row state's shift. -/
theorem diag_m : k1_pay6 (F := Ideal) (k1_pay15 (F := Ideal) v2 v5 qb kb m0) (ix2 r (0 : Fin 1))
    = (Cert.Row.upd (rowSt m0 l0 a0 r) (fun c => k1_pay14 (F := Ideal) v2 v5 qb kb (ix2 r c)) (vrows vb)).m := by
  show shapeCast S512x1 (k1_pay15 (F := Ideal) v2 v5 qb kb m0) shapeCasts_S512x1_S512x1 (ix2 r (0 : Fin 1)) = _
  rw [shapeCast_self, diag_pay15]
  rfl

/-- The stored normaliser of row r is the updated row state's normaliser. -/
theorem diag_l : k1_pay18 (F := Ideal) v2 v5 qb kb m0 m0 l0 (ix2 r (0 : Fin 1))
    = (Cert.Row.upd (rowSt m0 l0 a0 r) (fun c => k1_pay14 (F := Ideal) v2 v5 qb kb (ix2 r c)) (vrows vb)).l := by
  rw [diag_pay18, diag_pay16]
  simp only [diag_pay17, diag_pay15]
  rfl

/-- The stored sums of row r are the updated row state's sums. -/
theorem diag_acc : k1_pay5 (F := Ideal) (k1_pay16 (F := Ideal) v2 v5 qb kb m0 m0) (k1_pay19 (F := Ideal) v2 v5 qb kb m0) vb a0 (ix2 r d)
    = (Cert.Row.upd (rowSt m0 l0 a0 r) (fun c => k1_pay14 (F := Ideal) v2 v5 qb kb (ix2 r c)) (vrows vb)).acc d := by
  rw [diag_pay5, diag_pay16]
  have e : ∀ c : Fin 512, k1_pay19 (F := Ideal) v2 v5 qb kb m0 (ix2 r c) = k1_pay17 (F := Ideal) v2 v5 qb kb m0 (ix2 r c) := fun _ => rfl
  simp only [e, diag_pay17, diag_pay15]
  rfl

/-- On the diagonal tile the update is by the masked scores: the columns after the row count for nothing. -/
theorem diag_upd (h : v5 = v2) (hlt : v2.toNat < 8) :
    Cert.Row.upd (rowSt m0 l0 a0 r) (fun c => k1_pay14 (F := Ideal) v2 v5 qb kb (ix2 r c)) (vrows vb) = updDiag qb kb vb m0 l0 a0 r := by
  have e : (fun c => k1_pay14 (F := Ideal) v2 v5 qb kb (ix2 r c)) = scoreDiag qb kb r :=
    funext fun c => pay14_apply v2 v5 qb kb r c h hlt
  rw [e]
  rfl

end Cert.KernelIdeal.Hand

end
-- ==== Proof.ScoreCoe.lean ====
/-
  A tile's scaled scores and value rows over the reals.

  When the query, key and value tiles hold finite numbers — entry (r, e) of the query tile is the real Q r e, and so on —
  the scaled score of row r against key row c is the real (Σ_e Q r e · K c e) / 32: the sum of the products is the
  coercion of the real sum, and the scale 2⁻⁵ is the real 1/32. On the diagonal tile the columns after the row are ⊥.
  The value rows are the coercions of the real rows, and the reset scratch is a row's initial state (⊥, 0, 0).
-/
import proofs.«430317_j3848290697374_3_alg».proof.Proof.PayDefs
import proofs.«430317_j3848290697374_3_alg».proof.Proof.Consts
import proofs.«430317_j3848290697374_3_alg».proof.Proof.RowAlg
import proofs.«430317_j3848290697374_3_alg».proof.Proof.PayOff

noncomputable section

open scoped BigOperators

namespace Cert.KernelIdeal.Hand

open Idealize.ShloMosaic Idealize.ShloMosaic.ValueIdx Cert.KernelIdeal Cert.KernelIdeal.Gen

/-- The scaled score of real tiles is the real feature sum over 32. -/
theorem scoreOff_coe (qb kb : Vec Ideal S512x1024 .bf16) (Qr Kr : Fin 512 → Fin 1024 → ℝ)
    (hq : ∀ r e, qb (ix2 r e) = ((Qr r e : ℝ) : EReal)) (hk : ∀ c e, kb (ix2 c e) = ((Kr c e : ℝ) : EReal)) (r c : Fin 512) :
    scoreOff qb kb r c = (((∑ e : Fin 1024, Qr r e * Kr c e) / 32 : ℝ) : EReal) := by
  have h : (∑ e : Fin 1024, qb (ix2 r e) * kb (ix2 c e)) = ((∑ e : Fin 1024, Qr r e * Kr c e : ℝ) : EReal) := by
    rw [Cert.Row.coe_sum]
    exact Finset.sum_congr rfl fun e _ => by rw [hq r e, hk c e, EReal.coe_mul]
  unfold scoreOff
  rw [h, Cert.Consts.ofBits_scale, ← EReal.coe_mul, mul_one_div]

/-- On the diagonal tile: the real score up to the row's own column, ⊥ after it. -/
theorem scoreDiag_coe (qb kb : Vec Ideal S512x1024 .bf16) (Qr Kr : Fin 512 → Fin 1024 → ℝ)
    (hq : ∀ r e, qb (ix2 r e) = ((Qr r e : ℝ) : EReal)) (hk : ∀ c e, kb (ix2 c e) = ((Kr c e : ℝ) : EReal)) (r c : Fin 512) :
    scoreDiag qb kb r c = if c ≤ r then (((∑ e : Fin 1024, Qr r e * Kr c e) / 32 : ℝ) : EReal) else ⊥ := by
  unfold scoreDiag
  rw [scoreOff_coe qb kb Qr Kr hq hk r c]

/-- The value rows of a real tile. -/
theorem vrows_coe (vb : Vec Ideal S512x1024 .bf16) (Vr : Fin 512 → Fin 1024 → ℝ)
    (hv : ∀ c d, vb (ix2 c d) = ((Vr c d : ℝ) : EReal)) (c : Fin 512) (d : Fin 1024) :
    vrows vb c d = ((Vr c d : ℝ) : EReal) :=
  hv c d

/-- The reset scratch holds every row's initial state: shift ⊥, normaliser 0, sums 0. -/
theorem rowSt_reset (r : Fin 512) :
    rowSt (k1_pay1 (F := Ideal)) (k1_pay2 (F := Ideal)) (k1_pay3 (F := Ideal)) r = Cert.Row.init := by
  unfold rowSt Cert.Row.init
  simp only [reset_m, reset_l, reset_acc]

end Cert.KernelIdeal.Hand

end
-- ==== Proof.R1StepPay.lean ====
/-
  One step of the flash-attention region in closed form. What a step leaves in the three scratch buffers and, at a
  diagonal tile, in the output tile, was named as what the step's course finds there; here each of those is written
  as a term of the step's three input tiles, of the two words the step reads from the tables, and of what the
  scratch held before the step (after a reset: of the reset's constants). Below the diagonal the running shift is
  the larger of the old shift and the tile's row maxima, the normaliser and the sum are rescaled by the
  exponential of the shift's change and take the tile's contribution; at the diagonal the same with the tile's
  scores masked, and the output tile is the new sum divided by the new normaliser.
-/
import proofs.«430317_j3848290697374_3_alg».proof.Proof.R1Body
import proofs.«430317_j3848290697374_3_alg».proof.Proof.R1RunAB
import proofs.«430317_j3848290697374_3_alg».proof.Proof.R1RunCD

set_option maxRecDepth 16384
set_option Elab.async false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

-- the core's buffer contents when the region is entered
variable (V : (c : Dev nD) → (b : Ref sig .tc) → Buf (Elt Ideal) ((c : Thread nD τ).loc b))

/-- Before a step that is not the first: what the step before left. -/
theorem prev1_succ (c : Dev nD) (n : ℕ) (h : n + 1 < cfgA.N) : prev1 V c ⟨n + 1, h⟩ = traj1 V c n (Nat.lt_of_succ_lt h) := by
  unfold prev1; simp only [Nat.add_one_ne_zero, dif_neg, not_false_eq_true]; rfl

/-! ## A tile below the diagonal over the carried scratch -/

theorem step1_C_m (c : Dev nD) (t : Fin cfgA.N) (prev : St1 c) (hF : ¬isFirst t) (hD : ¬isDiag t) :
    ((step1 V c t prev).2.1 : S512x1.Idx → EReal) = k1_pay4 (k1_pay9 (iblk1 V c (0 : Fin 4) t) (iblk1 V c (1 : Fin 4) t) prev.2.1) := by
  rw [step1_C V c t prev hF hD]; dsimp only
  exact run_C_m c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) prev.2.1 prev.2.2.1 prev.2.2.2 hF (off_of_not_diag t hD) hD
theorem step1_C_l (c : Dev nD) (t : Fin cfgA.N) (prev : St1 c) (hF : ¬isFirst t) (hD : ¬isDiag t) :
    ((step1 V c t prev).2.2.1 : S512x1.Idx → EReal) = k1_pay12 (iblk1 V c (0 : Fin 4) t) (iblk1 V c (1 : Fin 4) t) prev.2.1 prev.2.1 prev.2.2.1 := by
  rw [step1_C V c t prev hF hD]; dsimp only
  exact run_C_l c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) prev.2.1 prev.2.2.1 prev.2.2.2 hF (off_of_not_diag t hD) hD
theorem step1_C_acc (c : Dev nD) (t : Fin cfgA.N) (prev : St1 c) (hF : ¬isFirst t) (hD : ¬isDiag t) :
    ((step1 V c t prev).2.2.2 : S512x1024.Idx → EReal) = k1_pay13 (iblk1 V c (0 : Fin 4) t) (iblk1 V c (1 : Fin 4) t) prev.2.1 prev.2.1 (iblk1 V c (2 : Fin 4) t) prev.2.2.2 := by
  rw [step1_C V c t prev hF hD]; dsimp only
  exact run_C_acc c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) prev.2.1 prev.2.2.1 prev.2.2.2 hF (off_of_not_diag t hD) hD
theorem step1_C_out (c : Dev nD) (t : Fin cfgA.N) (prev : St1 c) (hF : ¬isFirst t) (hD : ¬isDiag t) :
    (step1 V c t prev).1 = prev.1 := by
  rw [step1_C V c t prev hF hD]

/-! ## The reset, then a tile below the diagonal -/

theorem step1_B_m (c : Dev nD) (t : Fin cfgA.N) (prev : St1 c) (hF : isFirst t) (hD : ¬isDiag t) :
    ((step1 V c t prev).2.1 : S512x1.Idx → EReal) = k1_pay4 (k1_pay9 (iblk1 V c (0 : Fin 4) t) (iblk1 V c (1 : Fin 4) t) (k1_pay1 (F := Ideal))) := by
  rw [step1_B V c t prev hF hD]; dsimp only
  exact run_B_m c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (off_of_not_diag t hD) hD
theorem step1_B_l (c : Dev nD) (t : Fin cfgA.N) (prev : St1 c) (hF : isFirst t) (hD : ¬isDiag t) :
    ((step1 V c t prev).2.2.1 : S512x1.Idx → EReal) = k1_pay12 (iblk1 V c (0 : Fin 4) t) (iblk1 V c (1 : Fin 4) t) (k1_pay1 (F := Ideal)) (k1_pay1 (F := Ideal)) (k1_pay2 (F := Ideal)) := by
  rw [step1_B V c t prev hF hD]; dsimp only
  exact run_B_l c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (off_of_not_diag t hD) hD
theorem step1_B_acc (c : Dev nD) (t : Fin cfgA.N) (prev : St1 c) (hF : isFirst t) (hD : ¬isDiag t) :
    ((step1 V c t prev).2.2.2 : S512x1024.Idx → EReal) = k1_pay13 (iblk1 V c (0 : Fin 4) t) (iblk1 V c (1 : Fin 4) t) (k1_pay1 (F := Ideal)) (k1_pay1 (F := Ideal)) (iblk1 V c (2 : Fin 4) t) (k1_pay3 (F := Ideal)) := by
  rw [step1_B V c t prev hF hD]; dsimp only
  exact run_B_acc c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (off_of_not_diag t hD) hD
theorem step1_B_out (c : Dev nD) (t : Fin cfgA.N) (prev : St1 c) (hF : isFirst t) (hD : ¬isDiag t) :
    (step1 V c t prev).1 = prev.1 := by
  rw [step1_B V c t prev hF hD]

/-! ## The diagonal tile over the carried scratch -/

theorem step1_D_m (c : Dev nD) (t : Fin cfgA.N) (prev : St1 c) (hF : ¬isFirst t) (hD : isDiag t) :
    ((step1 V c t prev).2.1 : S512x1.Idx → EReal) = k1_pay6 (k1_pay15 (wQ t) (wK t) (iblk1 V c (0 : Fin 4) t) (iblk1 V c (1 : Fin 4) t) prev.2.1) := by
  rw [step1_D V c t prev hF hD]; dsimp only
  exact run_D_m c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) prev.2.1 prev.2.2.1 prev.2.2.2 hF (notOff_of_diag t hD) hD
theorem step1_D_l (c : Dev nD) (t : Fin cfgA.N) (prev : St1 c) (hF : ¬isFirst t) (hD : isDiag t) :
    ((step1 V c t prev).2.2.1 : S512x1.Idx → EReal) = k1_pay18 (wQ t) (wK t) (iblk1 V c (0 : Fin 4) t) (iblk1 V c (1 : Fin 4) t) prev.2.1 prev.2.1 prev.2.2.1 := by
  rw [step1_D V c t prev hF hD]; dsimp only
  exact run_D_l c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) prev.2.1 prev.2.2.1 prev.2.2.2 hF (notOff_of_diag t hD) hD
theorem step1_D_acc (c : Dev nD) (t : Fin cfgA.N) (prev : St1 c) (hF : ¬isFirst t) (hD : isDiag t) :
    ((step1 V c t prev).2.2.2 : S512x1024.Idx → EReal) = k1_pay5 (k1_pay16 (wQ t) (wK t) (iblk1 V c (0 : Fin 4) t) (iblk1 V c (1 : Fin 4) t) prev.2.1 prev.2.1) (k1_pay19 (wQ t) (wK t) (iblk1 V c (0 : Fin 4) t) (iblk1 V c (1 : Fin 4) t) prev.2.1) (iblk1 V c (2 : Fin 4) t) prev.2.2.2 := by
  rw [step1_D V c t prev hF hD]; dsimp only
  exact run_D_acc c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) prev.2.1 prev.2.2.1 prev.2.2.2 hF (notOff_of_diag t hD) hD
/-- The stored output tile is the new sum over the new normaliser. -/
theorem step1_D_out (c : Dev nD) (t : Fin cfgA.N) (prev : St1 c) (hF : ¬isFirst t) (hD : isDiag t) :
    ((step1 V c t prev).1 : S512x1024.Idx → EReal) = k1_pay7 ((step1 V c t prev).2.2.2 : S512x1024.Idx → EReal) ((step1 V c t prev).2.2.1 : S512x1.Idx → EReal) := by
  rw [step1_D V c t prev hF hD]
  dsimp only
  unfold out1_D
  exact (View.read_writes_of_cover VO1 VO1.junk (ms1_3 t).view (ms1_3 t).view.junk _ (cover3_D V c t prev.2.1 prev.2.2.1 prev.2.2.2 hF hD)).trans
    (run_D_out c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) prev.2.1 prev.2.2.1 prev.2.2.2 hF (notOff_of_diag t hD) hD (ms1_3 t).view.junk)

/-! ## The reset, then the diagonal tile -/

theorem step1_A_m (c : Dev nD) (t : Fin cfgA.N) (prev : St1 c) (hF : isFirst t) (hD : isDiag t) :
    ((step1 V c t prev).2.1 : S512x1.Idx → EReal) = k1_pay6 (k1_pay15 (wQ t) (wK t) (iblk1 V c (0 : Fin 4) t) (iblk1 V c (1 : Fin 4) t) (k1_pay1 (F := Ideal))) := by
  rw [step1_A V c t prev hF hD]; dsimp only
  exact run_A_m c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (notOff_of_diag t hD) hD
theorem step1_A_l (c : Dev nD) (t : Fin cfgA.N) (prev : St1 c) (hF : isFirst t) (hD : isDiag t) :
    ((step1 V c t prev).2.2.1 : S512x1.Idx → EReal) = k1_pay18 (wQ t) (wK t) (iblk1 V c (0 : Fin 4) t) (iblk1 V c (1 : Fin 4) t) (k1_pay1 (F := Ideal)) (k1_pay1 (F := Ideal)) (k1_pay2 (F := Ideal)) := by
  rw [step1_A V c t prev hF hD]; dsimp only
  exact run_A_l c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (notOff_of_diag t hD) hD
theorem step1_A_acc (c : Dev nD) (t : Fin cfgA.N) (prev : St1 c) (hF : isFirst t) (hD : isDiag t) :
    ((step1 V c t prev).2.2.2 : S512x1024.Idx → EReal) = k1_pay5 (k1_pay16 (wQ t) (wK t) (iblk1 V c (0 : Fin 4) t) (iblk1 V c (1 : Fin 4) t) (k1_pay1 (F := Ideal)) (k1_pay1 (F := Ideal))) (k1_pay19 (wQ t) (wK t) (iblk1 V c (0 : Fin 4) t) (iblk1 V c (1 : Fin 4) t) (k1_pay1 (F := Ideal))) (iblk1 V c (2 : Fin 4) t) (k1_pay3 (F := Ideal)) := by
  rw [step1_A V c t prev hF hD]; dsimp only
  exact run_A_acc c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (notOff_of_diag t hD) hD
theorem step1_A_out (c : Dev nD) (t : Fin cfgA.N) (prev : St1 c) (hF : isFirst t) (hD : isDiag t) :
    ((step1 V c t prev).1 : S512x1024.Idx → EReal) = k1_pay7 ((step1 V c t prev).2.2.2 : S512x1024.Idx → EReal) ((step1 V c t prev).2.2.1 : S512x1.Idx → EReal) := by
  rw [step1_A V c t prev hF hD]
  dsimp only
  unfold out1_A
  exact (View.read_writes_of_cover VO1 VO1.junk (ms1_3 t).view (ms1_3 t).view.junk _ (cover3_A V c t hF hD)).trans
    (run_A_out c (crd t) (ms1_0 t) (hs1_0 t) (ms1_1 t) (hs1_1 t) (ms1_2 t) (hs1_2 t) (ms1_3 t) (hs1_3 t) tQ tK (iblk1 V c (0 : Fin 4) t) (iblk1 V c (1 : Fin 4) t) (iblk1 V c (2 : Fin 4) t) hF (notOff_of_diag t hD) hD (ms1_3 t).view.junk)

end Cert.KernelIdeal.Hand

end
-- ==== Proof.R1Value.lean ====
/-
  The flash region read as values, second half: what the region leaves in its output array.

  After a step the three stored payloads, read at a row, are the block update of that row's state before the step
  (of the empty state when the step resets), by the step's scores — masked on the diagonal tile — and value rows.
  The blocks are rows of q, k and v, which are real, so the scores are the specification's; following a row through
  the consecutive steps of its row tile, the state after the diagonal step has the specification's attention value
  as its quotient, and that quotient is what the diagonal step stores in the output block. The output block is
  written back exactly at the diagonal steps, one per row tile, and the eight row tiles cover the 4096 rows.
-/
import proofs.«430317_j3848290697374_3_alg».proof.Proof.R1ValueA
import proofs.«430317_j3848290697374_3_alg».proof.Proof.PayOff
import proofs.«430317_j3848290697374_3_alg».proof.Proof.PayDiag
import proofs.«430317_j3848290697374_3_alg».proof.Proof.ScoreCoe
import proofs.«430317_j3848290697374_3_alg».proof.Proof.R1StepPay

set_option synthInstance.maxSize 4096
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The stored payloads as row updates -/

/-- Two row states with the same shift, normaliser and sums are the same. -/
theorem St_ext {s t : Cert.Row.St} (hm : s.m = t.m) (hl : s.l = t.l) (ha : ∀ d, s.acc d = t.acc d) : s = t := by
  cases s with | mk sm sl sa =>
  cases t with | mk tm tl ta =>
  have h3 : sa = ta := funext ha
  have h1 : sm = tm := hm
  have h2 : sl = tl := hl
  rw [h1, h2, h3]

/-- After a step below the diagonal, row r's state read out of the three stored payloads is the update of its
    state before by the tile's scores and value rows. -/
theorem rowSt_off (qb kb vb : Vec Ideal S512x1024 .bf16) (m0 l0 : Vec Ideal S512x1 .f32) (a0 : Vec Ideal S512x1024 .f32) (r : Fin 512) :
    rowSt (k1_pay4 (k1_pay9 qb kb m0)) (k1_pay12 qb kb m0 m0 l0) (k1_pay13 qb kb m0 m0 vb a0) r
      = updOff qb kb vb m0 l0 a0 r :=
  St_ext (off_m qb kb vb m0 l0 a0 r) (off_l qb kb vb m0 l0 a0 r) (fun d => off_acc qb kb vb m0 l0 a0 r d)

/-- After a diagonal step, likewise with the masked scores. -/
theorem rowSt_diag (v2 v5 : Elt Ideal .i32) (qb kb vb : Vec Ideal S512x1024 .bf16) (m0 l0 : Vec Ideal S512x1 .f32) (a0 : Vec Ideal S512x1024 .f32)
    (r : Fin 512) (h : v5 = v2) (hlt : v2.toNat < 8) :
    rowSt (k1_pay6 (k1_pay15 v2 v5 qb kb m0)) (k1_pay18 v2 v5 qb kb m0 m0 l0)
        (k1_pay5 (k1_pay16 v2 v5 qb kb m0 m0) (k1_pay19 v2 v5 qb kb m0) vb a0) r
      = updDiag qb kb vb m0 l0 a0 r :=
  (St_ext (diag_m v2 v5 qb kb vb m0 l0 a0 r) (diag_l v2 v5 qb kb vb m0 l0 a0 r) (fun d => diag_acc v2 v5 qb kb vb m0 l0 a0 r d)).trans
    (diag_upd v2 v5 qb kb vb m0 l0 a0 r h hlt)

/-- The written-out block at row r, feature d is the quotient of the row's state. -/
theorem out_rowSt (a1 : Vec Ideal S512x1024 .f32) (m1 l1 : Vec Ideal S512x1 .f32) (r : Fin 512) (d : Fin 1024) :
    k1_pay7 (F := Ideal) a1 l1 (ix2 r d) = Cert.Row.out (rowSt m1 l1 a1 r) d :=
  diag_out a1 l1 r d

/-! ## The rows of a row tile, over step-indexed blocks -/

/-- Step-indexed blocks that are rows of real arrays, and step-indexed row states that are the block update of the
    state one step before (of the empty state when the column tile is 0) by the step's scores, masked on the
    diagonal, and value rows: after the last step of row tile qi the row's quotient is the specification's
    attention value. -/
theorem rows_out (Q K Vv : Fin 4096 → Fin 1024 → ℝ)
    (x0 x1 x2 : ℕ → Vec Ideal S512x1024 .bf16) (stAt : ℕ → Fin 512 → Cert.Row.St)
    (hx0 : ∀ n, n < 36 → ∀ qi : Fin 8, qiOf n = qi.val → ∀ r e, x0 n (ix2 r e) = ((Q (Cert.Row.rowOf qi r) e : ℝ) : EReal))
    (hx1 : ∀ n, n < 36 → ∀ ki : Fin 8, kiOf n = ki.val → ∀ r e, x1 n (ix2 r e) = ((K (Cert.Row.colOf ki r) e : ℝ) : EReal))
    (hx2 : ∀ n, n < 36 → ∀ ki : Fin 8, kiOf n = ki.val → ∀ r e, x2 n (ix2 r e) = ((Vv (Cert.Row.colOf ki r) e : ℝ) : EReal))
    (hfirstD : ∀ n, n < 36 → kiOf n = 0 → kiOf n = qiOf n → ∀ r,
      stAt n r = Cert.Row.upd Cert.Row.init (scoreDiag (x0 n) (x1 n) r) (vrows (x2 n)))
    (hfirstO : ∀ n, n < 36 → kiOf n = 0 → kiOf n ≠ qiOf n → ∀ r,
      stAt n r = Cert.Row.upd Cert.Row.init (scoreOff (x0 n) (x1 n) r) (vrows (x2 n)))
    (hnextD : ∀ n, n + 1 < 36 → kiOf (n + 1) ≠ 0 → kiOf (n + 1) = qiOf (n + 1) → ∀ r,
      stAt (n + 1) r = Cert.Row.upd (stAt n r) (scoreDiag (x0 (n + 1)) (x1 (n + 1)) r) (vrows (x2 (n + 1))))
    (hnextO : ∀ n, n + 1 < 36 → kiOf (n + 1) ≠ 0 → kiOf (n + 1) ≠ qiOf (n + 1) → ∀ r,
      stAt (n + 1) r = Cert.Row.upd (stAt n r) (scoreOff (x0 (n + 1)) (x1 (n + 1)) r) (vrows (x2 (n + 1))))
    (qi : Fin 8) (r : Fin 512) (d : Fin 1024) :
    Cert.Row.out (stAt (t0 qi + qi.val) r) d
      = ((Cert.Spec.attn (Cert.Spec.score Q K) Vv (Cert.Row.rowOf qi r) d : ℝ) : EReal) := by
  refine chain_out Q K Vv stAt
    (fun n r c => if kiOf n = qiOf n then scoreDiag (x0 n) (x1 n) r c else scoreOff (x0 n) (x1 n) r c)
    (fun n => vrows (x2 n)) ?_ ?_ ?_ ?_ ?_ qi r d
  · intro n hn qi' ki' hq hk hlt r' c'
    have hne : kiOf n ≠ qiOf n := by omega
    show (if kiOf n = qiOf n then scoreDiag (x0 n) (x1 n) r' c' else scoreOff (x0 n) (x1 n) r' c') = _
    rw [if_neg hne]
    exact scoreOff_real (x0 n) (x1 n) (Q (Cert.Row.rowOf qi' r')) (K (Cert.Row.colOf ki' c')) r' c'
      (fun e => hx0 n hn qi' hq r' e) (fun e => hx1 n hn ki' hk c' e)
  · intro n hn qi' hq hk r' c'
    have heq : kiOf n = qiOf n := by omega
    show (if kiOf n = qiOf n then scoreDiag (x0 n) (x1 n) r' c' else scoreOff (x0 n) (x1 n) r' c') = _
    rw [if_pos heq]
    unfold scoreDiag
    refine if_congr Iff.rfl ?_ rfl
    exact scoreOff_real (x0 n) (x1 n) (Q (Cert.Row.rowOf qi' r')) (K (Cert.Row.colOf qi' c')) r' c'
      (fun e => hx0 n hn qi' hq r' e) (fun e => hx1 n hn qi' hk c' e)
  · intro n hn ki' hk c' d'
    exact hx2 n hn ki' hk c' d'
  · intro n hn hk r'
    by_cases hd : kiOf n = qiOf n
    · rw [hfirstD n hn hk hd r']
      refine congrArg (fun s => Cert.Row.upd Cert.Row.init s (vrows (x2 n))) ?_
      funext c'
      rw [if_pos hd]
    · rw [hfirstO n hn hk hd r']
      refine congrArg (fun s => Cert.Row.upd Cert.Row.init s (vrows (x2 n))) ?_
      funext c'
      rw [if_neg hd]
  · intro n hn hk r'
    by_cases hd : kiOf (n + 1) = qiOf (n + 1)
    · rw [hnextD n hn hk hd r']
      refine congrArg (fun s => Cert.Row.upd (stAt n r') s (vrows (x2 (n + 1)))) ?_
      funext c'
      rw [if_pos hd]
    · rw [hnextO n hn hk hd r']
      refine congrArg (fun s => Cert.Row.upd (stAt n r') s (vrows (x2 (n + 1)))) ?_
      funext c'
      rw [if_neg hd]

/-! ## The trajectory read row by row -/

variable (V : (c : Dev nD) → (b : Ref sig .tc) → Buf (Elt Ideal) ((c : Thread nD τ).loc b))

/-- At a diagonal step the two words the body reads are equal and below 8. -/
theorem diag_words : ∀ t : Fin cfgA.N, isDiag t → wK t = wQ t ∧ (wQ t).toNat < 8 := by
  decide +kernel

/-- A diagonal step is the last step of its row tile. -/
theorem diag_step : ∀ t : Fin cfgA.N, kiOf t.val = qiOf t.val → ∃ qi : Fin 8, qiOf t.val = qi.val ∧ t.val = t0 qi + qi.val := by
  decide +kernel

/-- The three input blocks at step n (zero past the grid). -/
def x0At (c : Dev nD) (n : ℕ) : Vec Ideal S512x1024 .bf16 := if h : n < cfgA.N then iblk1 V c (0 : Fin 4) ⟨n, h⟩ else fun _ => (0 : EReal)
def x1At (c : Dev nD) (n : ℕ) : Vec Ideal S512x1024 .bf16 := if h : n < cfgA.N then iblk1 V c (1 : Fin 4) ⟨n, h⟩ else fun _ => (0 : EReal)
def x2At (c : Dev nD) (n : ℕ) : Vec Ideal S512x1024 .bf16 := if h : n < cfgA.N then iblk1 V c (2 : Fin 4) ⟨n, h⟩ else fun _ => (0 : EReal)

theorem x0At_eq (c : Dev nD) (t : Fin cfgA.N) : x0At V c t.val = iblk1 V c (0 : Fin 4) t := by
  unfold x0At; rw [dif_pos t.isLt]
theorem x1At_eq (c : Dev nD) (t : Fin cfgA.N) : x1At V c t.val = iblk1 V c (1 : Fin 4) t := by
  unfold x1At; rw [dif_pos t.isLt]
theorem x2At_eq (c : Dev nD) (t : Fin cfgA.N) : x2At V c t.val = iblk1 V c (2 : Fin 4) t := by
  unfold x2At; rw [dif_pos t.isLt]

/-- Row r's state in the scratch part of a trajectory point. -/
def stRow (c : Dev nD) (s : St1 c) (r : Fin 512) : Cert.Row.St := rowSt s.2.1 s.2.2.1 s.2.2.2 r

theorem stRow_def (c : Dev nD) (s : St1 c) (r : Fin 512) :
    stRow c s r = rowSt (s.2.1 : S512x1.Idx → EReal) (s.2.2.1 : S512x1.Idx → EReal) (s.2.2.2 : S512x1024.Idx → EReal) r := rfl

/-- Row r's state in the scratch after step t. -/
def stOf (c : Dev nD) (t : Fin cfgA.N) (r : Fin 512) : Cert.Row.St := stRow c (traj1 V c t.val t.isLt) r

/-- Row r's state after step n (the empty state past the grid). -/
def stAt (c : Dev nD) (n : ℕ) (r : Fin 512) : Cert.Row.St :=
  if h : n < cfgA.N then stOf V c ⟨n, h⟩ r else Cert.Row.init

theorem stAt_eq (c : Dev nD) (t : Fin cfgA.N) (r : Fin 512) : stAt V c t.val r = stOf V c t r := by
  unfold stAt; rw [dif_pos t.isLt]

/-- Before a step that is not the first, the trajectory one step earlier. -/
theorem prev1_next (c : Dev nD) (n : ℕ) (h : n + 1 < cfgA.N) : prev1 V c ⟨n + 1, h⟩ = traj1 V c n (Nat.lt_of_succ_lt h) := by
  unfold prev1
  rw [dif_neg (Nat.succ_ne_zero n)]
  rfl

/-- Reset, then the diagonal tile (the first step). -/
theorem st_A (c : Dev nD) (t : Fin cfgA.N) (hF : isFirst t) (hD : isDiag t) (r : Fin 512) :
    stOf V c t r = Cert.Row.upd Cert.Row.init (scoreDiag (iblk1 V c (0 : Fin 4) t) (iblk1 V c (1 : Fin 4) t) r) (vrows (iblk1 V c (2 : Fin 4) t)) := by
  unfold stOf
  rw [traj1_eq, stRow_def, step1_A_m V c t _ hF hD, step1_A_l V c t _ hF hD, step1_A_acc V c t _ hF hD]
  have hw := diag_words t hD
  rw [rowSt_diag _ _ _ _ _ _ _ _ r hw.1 hw.2]
  unfold updDiag
  rw [rowSt_reset]

/-- Reset, then a tile below the diagonal. -/
theorem st_B (c : Dev nD) (t : Fin cfgA.N) (hF : isFirst t) (hD : ¬isDiag t) (r : Fin 512) :
    stOf V c t r = Cert.Row.upd Cert.Row.init (scoreOff (iblk1 V c (0 : Fin 4) t) (iblk1 V c (1 : Fin 4) t) r) (vrows (iblk1 V c (2 : Fin 4) t)) := by
  unfold stOf
  rw [traj1_eq, stRow_def, step1_B_m V c t _ hF hD, step1_B_l V c t _ hF hD, step1_B_acc V c t _ hF hD, rowSt_off]
  unfold updOff
  rw [rowSt_reset]

/-- A tile below the diagonal over the carried state. -/
theorem st_C (c : Dev nD) (n : ℕ) (h : n + 1 < cfgA.N) (hF : ¬isFirst ⟨n + 1, h⟩) (hD : ¬isDiag ⟨n + 1, h⟩) (r : Fin 512) :
    stOf V c ⟨n + 1, h⟩ r = Cert.Row.upd (stOf V c ⟨n, Nat.lt_of_succ_lt h⟩ r)
      (scoreOff (iblk1 V c (0 : Fin 4) ⟨n + 1, h⟩) (iblk1 V c (1 : Fin 4) ⟨n + 1, h⟩) r) (vrows (iblk1 V c (2 : Fin 4) ⟨n + 1, h⟩)) := by
  unfold stOf
  rw [traj1_eq V c ⟨n + 1, h⟩, prev1_next V c n h, stRow_def, step1_C_m V c ⟨n + 1, h⟩ _ hF hD, step1_C_l V c ⟨n + 1, h⟩ _ hF hD,
    step1_C_acc V c ⟨n + 1, h⟩ _ hF hD, rowSt_off]
  rfl

/-- The diagonal tile over the carried state. -/
theorem st_D (c : Dev nD) (n : ℕ) (h : n + 1 < cfgA.N) (hF : ¬isFirst ⟨n + 1, h⟩) (hD : isDiag ⟨n + 1, h⟩) (r : Fin 512) :
    stOf V c ⟨n + 1, h⟩ r = Cert.Row.upd (stOf V c ⟨n, Nat.lt_of_succ_lt h⟩ r)
      (scoreDiag (iblk1 V c (0 : Fin 4) ⟨n + 1, h⟩) (iblk1 V c (1 : Fin 4) ⟨n + 1, h⟩) r) (vrows (iblk1 V c (2 : Fin 4) ⟨n + 1, h⟩)) := by
  unfold stOf
  rw [traj1_eq V c ⟨n + 1, h⟩, prev1_next V c n h, stRow_def, step1_D_m V c ⟨n + 1, h⟩ _ hF hD, step1_D_l V c ⟨n + 1, h⟩ _ hF hD,
    step1_D_acc V c ⟨n + 1, h⟩ _ hF hD]
  have hw := diag_words ⟨n + 1, h⟩ hD
  rw [rowSt_diag _ _ _ _ _ _ _ _ r hw.1 hw.2]
  rfl

/-- The output block after a diagonal step holds, at row r, the quotient of the row's state. -/
theorem out_diag (c : Dev nD) (t : Fin cfgA.N) (hD : isDiag t) (r : Fin 512) (d : Fin 1024) :
    ((traj1 V c t.val t.isLt).1 : S512x1024.Idx → EReal) (ix2 r d) = Cert.Row.out (stOf V c t r) d := by
  unfold stOf
  rw [traj1_eq, stRow_def]
  by_cases hF : isFirst t
  · rw [step1_A_out V c t _ hF hD]
    exact out_rowSt _ _ _ r d
  · rw [step1_D_out V c t _ hF hD]
    exact out_rowSt _ _ _ r d

/-! ## The rows of the result -/

section Result

variable (c : Dev nD) (Q K Vv : Fin 4096 → Fin 1024 → ℝ)
  (hq : ∀ r e, (V c main_v3_0 : S4096x1024.Idx → EReal) (ix2 r e) = ((Q r e : ℝ) : EReal))
  (hk : ∀ r e, (V c main_v3_1 : S4096x1024.Idx → EReal) (ix2 r e) = ((K r e : ℝ) : EReal))
  (hv : ∀ r e, (V c main_v3_2 : S4096x1024.Idx → EReal) (ix2 r e) = ((Vv r e : ℝ) : EReal))

include hq hk hv

/-- After the last step of row tile qi, row r's quotient is the specification's attention value at row qi·512 + r. -/
theorem row_result (qi : Fin 8) (r : Fin 512) (d : Fin 1024) :
    Cert.Row.out (stAt V c (t0 qi + qi.val) r) d
      = ((Cert.Spec.attn (Cert.Spec.score Q K) Vv (Cert.Row.rowOf qi r) d : ℝ) : EReal) := by
  refine rows_out Q K Vv (x0At V c) (x1At V c) (x2At V c) (stAt V c) ?_ ?_ ?_ ?_ ?_ ?_ ?_ qi r d
  · intro n hn qi' hq' r' e
    have hn' : n < cfgA.N := by rw [N_A]; exact hn
    have e0 : x0At V c n = iblk1 V c (0 : Fin 4) ⟨n, hn'⟩ := x0At_eq V c ⟨n, hn'⟩
    rw [e0]
    exact (qblk_apply V c ⟨n, hn'⟩ qi' hq' r' e).trans (hq _ _)
  · intro n hn ki' hk' r' e
    have hn' : n < cfgA.N := by rw [N_A]; exact hn
    have e1 : x1At V c n = iblk1 V c (1 : Fin 4) ⟨n, hn'⟩ := x1At_eq V c ⟨n, hn'⟩
    rw [e1]
    exact (kblk_apply V c ⟨n, hn'⟩ ki' hk' r' e).trans (hk _ _)
  · intro n hn ki' hk' r' e
    have hn' : n < cfgA.N := by rw [N_A]; exact hn
    have e2 : x2At V c n = iblk1 V c (2 : Fin 4) ⟨n, hn'⟩ := x2At_eq V c ⟨n, hn'⟩
    rw [e2]
    exact (vblk_apply V c ⟨n, hn'⟩ ki' hk' r' e).trans (hv _ _)
  · intro n hn hk0 hd r'
    have hn' : n < cfgA.N := by rw [N_A]; exact hn
    have e0 : x0At V c n = iblk1 V c (0 : Fin 4) ⟨n, hn'⟩ := x0At_eq V c ⟨n, hn'⟩
    have e1 : x1At V c n = iblk1 V c (1 : Fin 4) ⟨n, hn'⟩ := x1At_eq V c ⟨n, hn'⟩
    have e2 : x2At V c n = iblk1 V c (2 : Fin 4) ⟨n, hn'⟩ := x2At_eq V c ⟨n, hn'⟩
    have es : stAt V c n r' = stOf V c ⟨n, hn'⟩ r' := stAt_eq V c ⟨n, hn'⟩ r'
    rw [e0, e1, e2, es]
    exact st_A V c ⟨n, hn'⟩ ((isFirst_iff ⟨n, hn'⟩).2 hk0) ((isDiag_iff ⟨n, hn'⟩).2 hd) r'
  · intro n hn hk0 hd r'
    have hn' : n < cfgA.N := by rw [N_A]; exact hn
    have e0 : x0At V c n = iblk1 V c (0 : Fin 4) ⟨n, hn'⟩ := x0At_eq V c ⟨n, hn'⟩
    have e1 : x1At V c n = iblk1 V c (1 : Fin 4) ⟨n, hn'⟩ := x1At_eq V c ⟨n, hn'⟩
    have e2 : x2At V c n = iblk1 V c (2 : Fin 4) ⟨n, hn'⟩ := x2At_eq V c ⟨n, hn'⟩
    have es : stAt V c n r' = stOf V c ⟨n, hn'⟩ r' := stAt_eq V c ⟨n, hn'⟩ r'
    rw [e0, e1, e2, es]
    exact st_B V c ⟨n, hn'⟩ ((isFirst_iff ⟨n, hn'⟩).2 hk0) (fun h => hd ((isDiag_iff ⟨n, hn'⟩).1 h)) r'
  · intro n hn hk0 hd r'
    have hn' : n + 1 < cfgA.N := by rw [N_A]; exact hn
    have e0 : x0At V c (n + 1) = iblk1 V c (0 : Fin 4) ⟨n + 1, hn'⟩ := x0At_eq V c ⟨n + 1, hn'⟩
    have e1 : x1At V c (n + 1) = iblk1 V c (1 : Fin 4) ⟨n + 1, hn'⟩ := x1At_eq V c ⟨n + 1, hn'⟩
    have e2 : x2At V c (n + 1) = iblk1 V c (2 : Fin 4) ⟨n + 1, hn'⟩ := x2At_eq V c ⟨n + 1, hn'⟩
    have es : stAt V c (n + 1) r' = stOf V c ⟨n + 1, hn'⟩ r' := stAt_eq V c ⟨n + 1, hn'⟩ r'
    have ep : stAt V c n r' = stOf V c ⟨n, Nat.lt_of_succ_lt hn'⟩ r' := stAt_eq V c ⟨n, Nat.lt_of_succ_lt hn'⟩ r'
    rw [e0, e1, e2, es, ep]
    exact st_D V c n hn' (fun h => hk0 ((isFirst_iff ⟨n + 1, hn'⟩).1 h)) ((isDiag_iff ⟨n + 1, hn'⟩).2 hd) r'
  · intro n hn hk0 hd r'
    have hn' : n + 1 < cfgA.N := by rw [N_A]; exact hn
    have e0 : x0At V c (n + 1) = iblk1 V c (0 : Fin 4) ⟨n + 1, hn'⟩ := x0At_eq V c ⟨n + 1, hn'⟩
    have e1 : x1At V c (n + 1) = iblk1 V c (1 : Fin 4) ⟨n + 1, hn'⟩ := x1At_eq V c ⟨n + 1, hn'⟩
    have e2 : x2At V c (n + 1) = iblk1 V c (2 : Fin 4) ⟨n + 1, hn'⟩ := x2At_eq V c ⟨n + 1, hn'⟩
    have es : stAt V c (n + 1) r' = stOf V c ⟨n + 1, hn'⟩ r' := stAt_eq V c ⟨n + 1, hn'⟩ r'
    have ep : stAt V c n r' = stOf V c ⟨n, Nat.lt_of_succ_lt hn'⟩ r' := stAt_eq V c ⟨n, Nat.lt_of_succ_lt hn'⟩ r'
    rw [e0, e1, e2, es, ep]
    exact st_C V c n hn' (fun h => hk0 ((isFirst_iff ⟨n + 1, hn'⟩).1 h)) (fun h => hd ((isDiag_iff ⟨n + 1, hn'⟩).1 h)) r'

/-- The output block of a step that writes back, at an entry of the block, is the specification's value qi·512
    rows further down. -/
theorem o_point (t : Fin cfgA.N) (hf : (cfgA.win 3).flush t = true) (j : S512x1024.Idx) (i : S4096x1024.Idx)
    (h0 : (i 0).val = qiOf t.val * 512 + (j 0).val) (h1 : (i 1).val = (j 1).val) :
    (traj1 V c t.val t.isLt).1 j = ((Cert.Spec.attn (Cert.Spec.score Q K) Vv (i 0) (i 1) : ℝ) : EReal) := by
  obtain ⟨r, d, rfl⟩ : ∃ (r : Fin 512) (d : Fin 1024), j = ix2 r d := ⟨j 0, j 1, eq_ix2 j⟩
  have hkq : kiOf t.val = qiOf t.val := (flush_facts1 t).1 hf
  have hD : isDiag t := (isDiag_iff t).2 hkq
  obtain ⟨qi, hqi, ht⟩ := diag_step t hkq
  have e0 : i 0 = Cert.Row.rowOf qi r := Fin.ext (by rw [h0, hqi]; rfl)
  have e1 : i 1 = d := Fin.ext h1
  rw [out_diag V c t hD r d, ← stAt_eq V c t r, ht, row_result V c Q K Vv hq hk hv qi r d, e0, e1]

/-- A step that writes back writes block t of the specification's result. -/
theorem flushed3_eq (t : Fin cfgA.N) (hf : (cfgA.win 3).flush t = true) :
    (dat1 V c).flushed 3 t = ((cfgA.win 3).blk t).view.read (Elt Ideal)
      (fun i : S4096x1024.Idx => ((Cert.Spec.attn (Cert.Spec.score Q K) Vv (i 0) (i 1) : ℝ) : EReal)) := by
  show (cfgA.win 3).cut (cfgA.grid.coords t) ((dat1 V c).after 3 t) = _
  rw [after1_3]
  have hi := idx_facts1 t
  funext j
  rw [View.read_apply]
  refine o_point V c Q K Vv hq hk hv t hf j _ ?_ ?_
  · show (cfgA.win 3).index t (0 : Fin 2) * 512 + 1 * (j 0).val = qiOf t.val * 512 + (j 0).val
    rw [hi.2.2.2.2.2.2.1]; omega
  · show (cfgA.win 3).index t (1 : Fin 2) * 1024 + 1 * (j 1).val = (j 1).val
    rw [hi.2.2.2.2.2.2.2]; omega

/-- After the region the output array holds the specification's causal softmax attention of q, k and v. -/
theorem o_arr :
    ((dat1 V c).arrAt 3 cfgA.N : S4096x1024.Idx → EReal)
      = fun i => ((Cert.Spec.attn (Cert.Spec.score Q K) Vv (i 0) (i 1) : ℝ) : EReal) :=
  (dat1 V c).arrAt_eq_of_cover 3 _ (fun t hf => flushed3_eq V c Q K Vv hq hk hv t hf) cover3

end Result

end Cert.KernelIdeal.Hand

end
-- ==== Proof.KernelValue.lean ====
/-
  What the kernel program leaves in its result buffer, on finite inputs, is the specification of the four argument
  arrays: the run's boundary contents (x as launched and each weight through the identity format change where the
  projection region is entered; the projection region's write-backs where the attention region is entered), the
  attention region's result on real q, k, v, and the finiteness of the arguments, put through the chain of the two
  regions.
-/
import proofs.«430317_j3848290697374_3_alg».proof.Proof.KernelValueCore
import proofs.«430317_j3848290697374_3_alg».proof.Proof.RunAll
import proofs.«430317_j3848290697374_3_alg».proof.Proof.R1Value
import proofs.«430317_j3848290697374_3_alg».proof.Proof.Finite

set_option synthInstance.maxSize 4096
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The kernel program's result -/

section
variable [Cert.Pre_finite_inputs.Facts]

/-- On finite inputs the result array the attention region leaves is the specification of the four arguments. -/
theorem kernel_eq_G (m : (ℓ : Loc nD τ sig) → Buf (Elt Ideal) ℓ) (ρ : Dev nD → PrngReg) (hpre : Cert.Pre_KernelIdeal m) (c : Dev nD) :
    ((dat1 (V2 m ρ) c).arrAt 3 cfgA.N : S4096x1024.Idx → EReal)
      = Cert.Spec.G (m ((c.tc : Thread nD τ).loc main_arg0)) (m ((c.tc : Thread nD τ).loc main_arg1))
          (m ((c.tc : Thread nD τ).loc main_arg2)) (m ((c.tc : Thread nD τ).loc main_arg3)) :=
  spec_of_regions c _ _ _ _ (V1 m ρ) (V2 m ρ) _ (finite_of_pre m hpre c)
    (fun i => congrFun (V1_x m ρ c) i) (fun i => congrFun (V1_wq m ρ c) i)
    (fun i => congrFun (V1_wk m ρ c) i) (fun i => congrFun (V1_wv m ρ c) i)
    (V2_q m ρ c) (V2_k m ρ c) (V2_v m ρ c)
    (fun Q K Vv hq hk hv => o_arr (V2 m ρ) c Q K Vv hq hk hv)

end

end Cert.KernelIdeal.Hand

end
-- ==== Proof.RefValue.lean ====
/-
  The reference's result is the specification: its host operations, read one at a time at an index, compose to
  `Cert.Spec.G` of the argument arrays when every entry is finite.

  With X, Wq, Wk, Wv the real parts of the four arrays, every intermediate of the reference is the coercion of a real
  quantity or one of the two constants -∞ and 0: the three projections are the real projections; the score matrix is the
  real inner product of a query row with a key row; the causal mask keeps the columns c ≤ r of row r and fills the rest
  with -∞; the divisor is √1024 = 32; the row maximum μ r is a real number (the diagonal entry of the row is real and no
  entry is +∞); the shifted exponential is exp (s r c - μ r) on c ≤ r and exp (-∞) = 0 elsewhere; the row sum is the
  positive real Z r = Σ_{c ≤ r} exp (s r c - μ r); the weights are exp (s r c - μ r) / Z r on c ≤ r and 0 elsewhere; the
  last product is Σ_{c ≤ r} (exp (s r c - μ r) / Z r) · v c d. A softmax does not see the common shift μ r
  (`Cert.Spec.softmax_shift`), which gives the specification's unshifted quotient.
-/
import proofs.«430317_j3848290697374_3_alg».proof.Proof.Gen.ReferenceIdeal.Read
import proofs.«430317_j3848290697374_3_alg».proof.Proof.Spec
import proofs.«430317_j3848290697374_3_alg».proof.Proof.Consts
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx
open scoped BigOperators

/-- The coercion of the reals into the extended reals commutes with finite sums. -/
theorem coe_sum {ι : Type} (S : Finset ι) (f : ι → ℝ) : ((∑ i ∈ S, f i : ℝ) : EReal) = ∑ i ∈ S, (f i : EReal) := by
  classical
  induction S using Finset.induction_on with
  | empty => rw [Finset.sum_empty, Finset.sum_empty, EReal.coe_zero]
  | insert a S ha ih => rw [Finset.sum_insert ha, Finset.sum_insert ha, EReal.coe_add, ih]

/-- A finite entry is the coercion of its real part. -/
theorem coe_re2 {n0 n1 : Nat} (a : (⟨2, ![n0, n1]⟩ : Shape).Idx → EReal) (ha : ∀ i, ∃ r : ℝ, a i = (r : EReal))
    (i : Fin n0) (j : Fin n1) : a (ix2 i j) = ((Cert.Spec.re2 a i j : ℝ) : EReal) := by
  obtain ⟨r, hr⟩ := ha (ix2 i j)
  show a (ix2 i j) = (((a (ix2 i j)).toReal : ℝ) : EReal)
  rw [hr, EReal.toReal_coe]

/-- A projection x·w of finite arrays is, entry by entry, the coercion of the real projection. -/
theorem proj_apply (x : FVec Ideal S4096x1024 .f32) (w : FVec Ideal S1024x1024 .f32)
    (hx : ∀ i, ∃ a : ℝ, x i = (a : EReal)) (hw : ∀ i, ∃ a : ℝ, w i = (a : EReal)) (r : Fin 4096) (e : Fin 1024) :
    val_main_v0 (F := Ideal) x w (ix2 r e) = ((Cert.Spec.proj (Cert.Spec.re2 x) (Cert.Spec.re2 w) r e : ℝ) : EReal) := by
  rw [val_main_v0_apply]
  show _ = ((∑ j : Fin 1024, Cert.Spec.re2 x r j * Cert.Spec.re2 w j e : ℝ) : EReal)
  rw [coe_sum]
  refine Finset.sum_congr rfl fun k _ => ?_
  have hl : lidx_main_v0 (ix2 r e) k = ix2 r k := funext fun a => by match a with | ⟨0, _⟩ => rfl | ⟨1, _⟩ => rfl
  have hr : ridx_main_v0 (ix2 r e) k = ix2 k e := funext fun a => by match a with | ⟨0, _⟩ => rfl | ⟨1, _⟩ => rfl
  rw [hl, hr, coe_re2 x hx, coe_re2 w hw, EReal.coe_mul]

/-- The unscaled score of query row r against key row c is the coercion of the real inner product. -/
theorem v4_apply (x : FVec Ideal S4096x1024 .f32) (wq wk : FVec Ideal S1024x1024 .f32)
    (hx : ∀ i, ∃ a : ℝ, x i = (a : EReal)) (hq : ∀ i, ∃ a : ℝ, wq i = (a : EReal)) (hk : ∀ i, ∃ a : ℝ, wk i = (a : EReal))
    (r c : Fin 4096) :
    val_main_v4 (F := Ideal) x wq wk (ix2 r c)
      = ((∑ e : Fin 1024, Cert.Spec.proj (Cert.Spec.re2 x) (Cert.Spec.re2 wq) r e
            * Cert.Spec.proj (Cert.Spec.re2 x) (Cert.Spec.re2 wk) c e : ℝ) : EReal) := by
  rw [val_main_v4_apply, coe_sum]
  refine Finset.sum_congr rfl fun k _ => ?_
  have hl : lidx_main_v4 (ix2 r c) k = ix2 r k := funext fun a => by match a with | ⟨0, _⟩ => rfl | ⟨1, _⟩ => rfl
  have hr : idx_main_v3 (ridx_main_v4 (ix2 r c) k) = ix2 c k := funext fun a => by match a with | ⟨0, _⟩ => rfl | ⟨1, _⟩ => rfl
  rw [val_main_v3_apply, hl, hr, proj_apply x wq hx hq,
    show val_main_v1 (F := Ideal) x wk = val_main_v0 (F := Ideal) x wk from rfl, proj_apply x wk hx hk, EReal.coe_mul]

/-- The causal mask: the bit at (r, c) is set exactly when column c is not after row r. -/
theorem v6_apply (r c : Fin 4096) : val_main_v6 (F := Ideal) (ix2 r c) = if c ≤ r then 1#1 else 0#1 := by
  rw [val_main_v6_apply, val_main_call0_v4_apply, val_main_call0_v2_apply, val_main_call0_v0_apply, val_main_call0_v1_apply,
    val_main_call0_c_apply, val_main_call0_v3_apply, val_main_v5_apply, val_main_c_apply, val_main_call0_v5_apply,
    val_main_call0_c_0_apply]
  show Scalar.select (IntOp.cmpi .sge (IntOp.addi (BitVec.ofNat 32 r.val) 0#32) (BitVec.ofNat 32 c.val)) 1#1 0#1 = _
  have hr := r.isLt
  have hc := c.isLt
  have h : IntOp.cmpi .sge (IntOp.addi (BitVec.ofNat 32 r.val) 0#32) (BitVec.ofNat 32 c.val) = 1#1 ↔ c ≤ r := by
    rw [show IntOp.addi (BitVec.ofNat 32 r.val) 0#32 = BitVec.ofNat 32 r.val from BitVec.add_zero _,
      StableHlo.Predicate.sge_iff_toNat (by rw [BitVec.toNat_ofNat]; omega) (by rw [BitVec.toNat_ofNat]; omega),
      BitVec.toNat_ofNat, BitVec.toNat_ofNat, Nat.mod_eq_of_lt (by omega), Nat.mod_eq_of_lt (by omega)]
    exact Fin.le_def.symm
  by_cases hcr : c ≤ r
  · rw [if_pos hcr, h.mpr hcr, select_one]
  · rw [if_neg hcr, eq_zero_of_ne_one (mt h.mp hcr), select_zero]

/-- The divisor of the scores: the square root of 1024, which is 32. -/
theorem sqrt_1024 : Ideal.sqrt (Ideal.ofBits .f32 0x44800000#32) = ((32 : ℝ) : EReal) := by
  rw [Cert.Consts.ofBits_1024, Ideal.sqrt_coe, if_neg (by norm_num)]
  congr 1
  rw [show (1024 : ℝ) = 32 ^ 2 by norm_num, Real.sqrt_sq (by norm_num)]

/-- The real scaled scores of finite arrays. -/
abbrev sc (x : FVec Ideal S4096x1024 .f32) (wq wk : FVec Ideal S1024x1024 .f32) : Fin 4096 → Fin 4096 → ℝ :=
  Cert.Spec.score (Cert.Spec.proj (Cert.Spec.re2 x) (Cert.Spec.re2 wq)) (Cert.Spec.proj (Cert.Spec.re2 x) (Cert.Spec.re2 wk))

/-- The masked, scaled score: the real score where column c is not after row r, -∞ elsewhere. -/
theorem v10_apply (x : FVec Ideal S4096x1024 .f32) (wq wk : FVec Ideal S1024x1024 .f32)
    (hx : ∀ i, ∃ a : ℝ, x i = (a : EReal)) (hq : ∀ i, ∃ a : ℝ, wq i = (a : EReal)) (hk : ∀ i, ∃ a : ℝ, wk i = (a : EReal))
    (r c : Fin 4096) :
    val_main_v10 (F := Ideal) x wq wk (ix2 r c) = if c ≤ r then ((sc x wq wk r c : ℝ) : EReal) else ⊥ := by
  rw [val_main_v10_apply, val_main_v7_apply, v6_apply, v4_apply x wq wk hx hq hk, val_main_call1_v1_apply,
    val_main_call1_v0_apply, val_main_cst_apply, val_main_v9_apply, val_main_v8_apply, val_main_cst_0_apply]
  simp only [Ideal.hostDivf_def, Ideal.hostUnary_sqrt_def, Ideal.ofBits_def]
  rw [sqrt_1024, Cert.Consts.ofBits_neg_inf, Ideal.div_coe (by norm_num)]
  by_cases hcr : c ≤ r
  · rw [if_pos hcr, if_pos hcr, select_one, ← EReal.coe_mul]
    congr 1
    exact mul_one_div _ _
  · rw [if_neg hcr, if_neg hcr, select_zero, EReal.bot_mul_coe_of_pos (by norm_num)]

/-- At the extended reals the float maximum is the lattice maximum, under a fold too. -/
theorem fold_maximumf {ι : Type} (S : Finset ι) (b : EReal) (f : ι → EReal) :
    S.fold (FloatOps.maximumf (F := Ideal) (φ := .f32)) b f = S.fold max b f := rfl

theorem hR : Shape.Reduces S4096x4096 [1] S4096 := by decide

/-- Row r with column k inserted is the index (r, k). -/
theorem lift_row (r k : Fin 4096) : hR.lift (ix1 r) k = ix2 r k :=
  funext fun a => Fin.ext (by match a with | ⟨0, _⟩ => rfl | ⟨1, _⟩ => rfl)

/-- The maximum of a row of masked scores, as a fold of max from -∞ over the row's columns. -/
theorem v11_apply (x : FVec Ideal S4096x1024 .f32) (wq wk : FVec Ideal S1024x1024 .f32) (r : Fin 4096) :
    val_main_v11 (F := Ideal) x wq wk (ix1 r)
      = (Finset.univ : Finset (Fin 4096)).fold max ⊥ (fun k => val_main_v10 (F := Ideal) x wq wk (ix2 r k)) := by
  delta val_main_v11
  generalize val_main_v10 (F := Ideal) x wq wk = y
  have h := Host.reduce_eq_fold_single (FloatOps.maximumf (F := Ideal) (φ := .f32)) y (val_main_cst_1 (F := Ideal))
    reducesTo_S4096x4096_S4096_d1 hR h_S_ (ix1 r)
  refine h.trans ?_
  rw [val_main_cst_1_apply, Ideal.ofBits_def, Cert.Consts.ofBits_neg_inf, fold_maximumf]
  have hf : (y ∘ hR.lift (ix1 r)) = fun k : Fin 4096 => y (ix2 r k) := funext fun k => congrArg y (lift_row r k)
  rw [hf]
  rfl

/-- The row maximum is a real number: no entry of the row is +∞, and the diagonal entry is real. -/
theorem v13_real (x : FVec Ideal S4096x1024 .f32) (wq wk : FVec Ideal S1024x1024 .f32)
    (hx : ∀ i, ∃ a : ℝ, x i = (a : EReal)) (hq : ∀ i, ∃ a : ℝ, wq i = (a : EReal)) (hk : ∀ i, ∃ a : ℝ, wk i = (a : EReal))
    (r : Fin 4096) : ∃ μ : ℝ, val_main_v13 (F := Ideal) x wq wk (ix1 r) = (μ : EReal) := by
  have h13 : val_main_v13 (F := Ideal) x wq wk (ix1 r) = val_main_v11 (F := Ideal) x wq wk (ix1 r) := by
    rw [val_main_v13_apply, val_main_v12_apply, val_main_cst_2_apply, Ideal.ofBits_def, Cert.Consts.ofBits_neg_inf,
      Ideal.maximumf_def]
    exact max_eq_right bot_le
  rw [h13, v11_apply]
  have hlt : (Finset.univ : Finset (Fin 4096)).fold max ⊥ (fun k => val_main_v10 (F := Ideal) x wq wk (ix2 r k)) < ⊤ := by
    rw [Finset.fold_max_lt]
    refine ⟨bot_lt_top, fun k _ => ?_⟩
    rw [v10_apply x wq wk hx hq hk]
    split
    · exact EReal.coe_lt_top _
    · exact bot_lt_top
  have hgt : ⊥ < (Finset.univ : Finset (Fin 4096)).fold max ⊥ (fun k => val_main_v10 (F := Ideal) x wq wk (ix2 r k)) := by
    rw [Finset.lt_fold_max]
    refine Or.inr ⟨r, Finset.mem_univ _, ?_⟩
    rw [v10_apply x wq wk hx hq hk, if_pos le_rfl]
    exact EReal.bot_lt_coe _
  exact ⟨_, (EReal.coe_toReal hlt.ne hgt.ne').symm⟩

/-- The row maximum the reference subtracts, as a real number. -/
def mu (x : FVec Ideal S4096x1024 .f32) (wq wk : FVec Ideal S1024x1024 .f32) (r : Fin 4096) : ℝ :=
  (val_main_v13 (F := Ideal) x wq wk (ix1 r)).toReal

theorem v13_apply (x : FVec Ideal S4096x1024 .f32) (wq wk : FVec Ideal S1024x1024 .f32)
    (hx : ∀ i, ∃ a : ℝ, x i = (a : EReal)) (hq : ∀ i, ∃ a : ℝ, wq i = (a : EReal)) (hk : ∀ i, ∃ a : ℝ, wk i = (a : EReal))
    (r : Fin 4096) : val_main_v13 (F := Ideal) x wq wk (ix1 r) = ((mu x wq wk r : ℝ) : EReal) := by
  obtain ⟨μ, h⟩ := v13_real x wq wk hx hq hk r
  show _ = (((val_main_v13 (F := Ideal) x wq wk (ix1 r)).toReal : ℝ) : EReal)
  rw [h, EReal.toReal_coe]

/-- The shifted exponential: exp (s r c - μ r) where column c is not after row r, 0 elsewhere. -/
theorem v17_apply (x : FVec Ideal S4096x1024 .f32) (wq wk : FVec Ideal S1024x1024 .f32)
    (hx : ∀ i, ∃ a : ℝ, x i = (a : EReal)) (hq : ∀ i, ∃ a : ℝ, wq i = (a : EReal)) (hk : ∀ i, ∃ a : ℝ, wk i = (a : EReal))
    (r c : Fin 4096) :
    val_main_v17 (F := Ideal) x wq wk (ix2 r c)
      = if c ≤ r then ((Real.exp (sc x wq wk r c - mu x wq wk r) : ℝ) : EReal) else 0 := by
  have hi : idx_main_v14 (idx_main_v15 (ix2 r c)) = ix1 r := funext fun a => by match a with | ⟨0, _⟩ => rfl
  rw [val_main_v17_apply, val_main_v16_apply, v10_apply x wq wk hx hq hk, val_main_v15_apply, val_main_v14_apply, hi,
    v13_apply x wq wk hx hq hk]
  simp only [Ideal.hostUnary_exp_def, Ideal.subf_def]
  by_cases hcr : c ≤ r
  · rw [if_pos hcr, if_pos hcr, ← EReal.coe_sub, Ideal.exp_coe]
  · rw [if_neg hcr, if_neg hcr, EReal.bot_sub, Ideal.exp_bot]

/-- The normaliser of row r: the sum of the shifted exponentials over the columns not after r. -/
def Z (x : FVec Ideal S4096x1024 .f32) (wq wk : FVec Ideal S1024x1024 .f32) (r : Fin 4096) : ℝ :=
  ∑ c ∈ Cert.Spec.cols r, Real.exp (sc x wq wk r c - mu x wq wk r)

theorem Z_pos (x : FVec Ideal S4096x1024 .f32) (wq wk : FVec Ideal S1024x1024 .f32) (r : Fin 4096) : 0 < Z x wq wk r :=
  Finset.sum_pos (fun _ _ => Real.exp_pos _) ⟨r, Finset.mem_filter.2 ⟨Finset.mem_univ _, le_rfl⟩⟩

/-- A sum over every column of terms that vanish after the diagonal is the sum over the columns not after it. -/
theorem sum_masked (r : Fin 4096) (f : Fin 4096 → ℝ) :
    (∑ k : Fin 4096, if k ≤ r then ((f k : ℝ) : EReal) else 0) = ((∑ k ∈ Cert.Spec.cols r, f k : ℝ) : EReal) := by
  show _ = ((∑ k ∈ Finset.univ.filter (fun c : Fin 4096 => c ≤ r), f k : ℝ) : EReal)
  rw [coe_sum, Finset.sum_filter]

/-- The row sum of the shifted exponentials is the normaliser. -/
theorem v18_apply (x : FVec Ideal S4096x1024 .f32) (wq wk : FVec Ideal S1024x1024 .f32)
    (hx : ∀ i, ∃ a : ℝ, x i = (a : EReal)) (hq : ∀ i, ∃ a : ℝ, wq i = (a : EReal)) (hk : ∀ i, ∃ a : ℝ, wk i = (a : EReal))
    (r : Fin 4096) : val_main_v18 (F := Ideal) x wq wk (ix1 r) = ((Z x wq wk r : ℝ) : EReal) := by
  have hi : ∀ k : Fin 4096, idx_main_v18 (ix1 r) k = ix2 r k := fun k => funext fun a => by
    match a with | ⟨0, _⟩ => rfl | ⟨1, _⟩ => rfl
  rw [val_main_v18_apply, val_main_cst_3_apply, Ideal.ofBits_def, Cert.Consts.ofBits_zero, zero_add]
  show _ = ((∑ c ∈ Cert.Spec.cols r, Real.exp (sc x wq wk r c - mu x wq wk r) : ℝ) : EReal)
  rw [← sum_masked]
  refine Finset.sum_congr rfl fun k _ => ?_
  rw [hi, v17_apply x wq wk hx hq hk]

/-- The softmax weight: the shifted exponential over the normaliser where column c is not after row r, 0 elsewhere. -/
theorem v21_apply (x : FVec Ideal S4096x1024 .f32) (wq wk : FVec Ideal S1024x1024 .f32)
    (hx : ∀ i, ∃ a : ℝ, x i = (a : EReal)) (hq : ∀ i, ∃ a : ℝ, wq i = (a : EReal)) (hk : ∀ i, ∃ a : ℝ, wk i = (a : EReal))
    (r c : Fin 4096) :
    val_main_v21 (F := Ideal) x wq wk (ix2 r c)
      = if c ≤ r then ((Real.exp (sc x wq wk r c - mu x wq wk r) * (1 / Z x wq wk r) : ℝ) : EReal) else 0 := by
  have hi : idx_main_v19 (idx_main_v20 (ix2 r c)) = ix1 r := funext fun a => by match a with | ⟨0, _⟩ => rfl
  rw [val_main_v21_apply, v17_apply x wq wk hx hq hk, val_main_v20_apply, val_main_v19_apply, hi, v18_apply x wq wk hx hq hk,
    Ideal.hostDivf_def, Ideal.div_coe (Z_pos x wq wk r).ne']
  by_cases hcr : c ≤ r
  · rw [if_pos hcr, if_pos hcr, EReal.coe_mul]
  · rw [if_neg hcr, if_neg hcr, zero_mul]

/-- The reference's result at (r, d) is the specification's causal attention there. -/
theorem v22_apply (x : FVec Ideal S4096x1024 .f32) (wq wk wv : FVec Ideal S1024x1024 .f32)
    (hx : ∀ i, ∃ a : ℝ, x i = (a : EReal)) (hq : ∀ i, ∃ a : ℝ, wq i = (a : EReal)) (hk : ∀ i, ∃ a : ℝ, wk i = (a : EReal))
    (hv : ∀ i, ∃ a : ℝ, wv i = (a : EReal)) (r : Fin 4096) (d : Fin 1024) :
    val_main_v22 (F := Ideal) x wq wk wv (ix2 r d)
      = ((Cert.Spec.attnR (Cert.Spec.re2 x) (Cert.Spec.re2 wq) (Cert.Spec.re2 wk) (Cert.Spec.re2 wv) r d : ℝ) : EReal) := by
  have hl : ∀ k : Fin 4096, lidx_main_v22 (ix2 r d) k = ix2 r k := fun k => funext fun a => by
    match a with | ⟨0, _⟩ => rfl | ⟨1, _⟩ => rfl
  have hr : ∀ k : Fin 4096, ridx_main_v22 (ix2 r d) k = ix2 k d := fun k => funext fun a => by
    match a with | ⟨0, _⟩ => rfl | ⟨1, _⟩ => rfl
  have hsum : val_main_v22 (F := Ideal) x wq wk wv (ix2 r d)
      = ∑ k : Fin 4096, if k ≤ r then
          ((Real.exp (sc x wq wk r k - mu x wq wk r) * (1 / Z x wq wk r)
            * Cert.Spec.proj (Cert.Spec.re2 x) (Cert.Spec.re2 wv) k d : ℝ) : EReal) else 0 := by
    rw [val_main_v22_apply]
    refine Finset.sum_congr rfl fun k _ => ?_
    rw [hl, hr, v21_apply x wq wk hx hq hk, show val_main_v2 (F := Ideal) x wv = val_main_v0 (F := Ideal) x wv from rfl,
      proj_apply x wv hx hv]
    by_cases hkr : k ≤ r
    · rw [if_pos hkr, if_pos hkr, ← EReal.coe_mul]
    · rw [if_neg hkr, if_neg hkr, zero_mul]
  rw [hsum, sum_masked]
  congr 1
  show _ = (∑ c ∈ Cert.Spec.cols r, Real.exp (sc x wq wk r c) * Cert.Spec.proj (Cert.Spec.re2 x) (Cert.Spec.re2 wv) c d)
      / (∑ c ∈ Cert.Spec.cols r, Real.exp (sc x wq wk r c))
  rw [← Cert.Spec.softmax_shift (Cert.Spec.cols r) (sc x wq wk r)
    (fun c => Cert.Spec.proj (Cert.Spec.re2 x) (Cert.Spec.re2 wv) c d) (mu x wq wk r), Finset.sum_div]
  refine Finset.sum_congr rfl fun k _ => ?_
  show _ = _ / Z x wq wk r
  ring

/-- The reference's result is the specification of the four argument arrays when every entry is finite. -/
theorem ref_eq_G (x : FVec Ideal Cert.Spec.SX .f32) (wq wk wv : FVec Ideal Cert.Spec.SW .f32)
    (hx : ∀ i, ∃ a : ℝ, x i = (a : EReal)) (hq : ∀ i, ∃ a : ℝ, wq i = (a : EReal)) (hk : ∀ i, ∃ a : ℝ, wk i = (a : EReal))
    (hv : ∀ i, ∃ a : ℝ, wv i = (a : EReal)) :
    val_main_v22 (F := Ideal) x wq wk wv = Cert.Spec.G x wq wk wv := by
  funext i
  obtain ⟨r, d, rfl⟩ : ∃ (r : Fin 4096) (d : Fin 1024), i = ix2 r d := ⟨i 0, i 1, eq_ix2 i⟩
  rw [Cert.Spec.G_apply]
  exact v22_apply x wq wk wv hx hq hk hv r d

section Run
open Idealize.ShloMosaic.TcCoe Idealize.SL.Sem

/-- The same of the term a run leaves in the result buffer, from any memory whose four argument arrays are finite. -/
theorem res_eq_G (m : (ℓ : Loc nD τ sig) → Buf (Elt Ideal) ℓ) (c : Dev nD)
    (hx : ∀ i, ∃ a : ℝ, m ((c.tc : Thread nD τ).loc main_arg0) i = (a : EReal))
    (hq : ∀ i, ∃ a : ℝ, m ((c.tc : Thread nD τ).loc main_arg1) i = (a : EReal))
    (hk : ∀ i, ∃ a : ℝ, m ((c.tc : Thread nD τ).loc main_arg2) i = (a : EReal))
    (hv : ∀ i, ∃ a : ℝ, m ((c.tc : Thread nD τ).loc main_arg3) i = (a : EReal)) :
    Cert.ReferenceIdeal.Value.res_main_v22 m c
      = Cert.Spec.G (m ((c.tc : Thread nD τ).loc main_arg0)) (m ((c.tc : Thread nD τ).loc main_arg1))
          (m ((c.tc : Thread nD τ).loc main_arg2)) (m ((c.tc : Thread nD τ).loc main_arg3)) :=
  (val_main_v22_eq m c).trans (ref_eq_G _ _ _ _ hx hq hk hv)

end Run

end Cert.ReferenceIdeal.RefValue

end
-- ==== Proof.lean ====
/-
  Causal self-attention computed two ways is one function of its arguments.

  The arguments are x : 4096 × 1024 and three weights wq, wk, wv : 1024 × 1024. Both programs form the projections
  q = x·wq, k = x·wk, v = x·wv and, for each row r, weigh the value rows v c · of the columns c ≤ r by the softmax of
  the scores s r c = (Σ_e q r e · k c e) / 32 (32 = √1024).

  The reference does it whole: the 4096 × 4096 score matrix, every score of a column after its row replaced by −∞,
  the division by √1024, each row's maximum subtracted, the exponentials, their row sums, the quotient, the product
  with v.

  The kernel never holds a row of scores. One launch writes the three projections. A second launch walks the
  512 × 512 tiles of the score matrix that lie on or below the diagonal: row tile by row tile and, within a row tile,
  from the first column tile to the diagonal one. For every row it keeps a running shift m (the largest score met
  so far), a running normaliser l = Σ exp (s − m) and running sums acc d = Σ exp (s − m) · v c d over the columns
  met so far. A new tile raises m to the maximum with the tile's scores, rescales l and acc by exp (old m − new m)
  and adds the tile's own terms. On the diagonal tile the columns after the row are filled with a constant the
  kernel spells −9.99999968·10³⁷; after that tile the row's result acc d / l is written.

  Why they agree, over the extended reals with exact operations, on finite arguments:

  * A softmax-weighted sum does not see a common shift of its scores: (Σ_c exp (s c − μ) · v c) / (Σ_c exp (s c − μ))
    is the same number for every real μ (`Cert.Spec.softmax_shift`). The reference shifts a row by its maximum, the
    kernel by whatever its running maximum has reached; both quotients are the unshifted one, which is how the
    specification `Cert.Spec.G` is written.
  * A row's running state, after any number of its tiles, is the state of the columns that have gone in, at SOME
    real shift (`Cert.Row.Inv`): true after the first tile (`Cert.Row.upd_init`), kept by every later one
    (`Cert.Row.upd_step`), and enough to read the final quotient (`Cert.Row.out_eq`). The first tile of a row always
    brings an unmasked column, so the shift is a real number from then on and no ∞ − ∞ is ever formed.
  * A masked score adds exp (−∞ − m) = 0 to the normaliser and to every sum, on either side. For the kernel this needs
    its fill to BE −∞: the constant is named, and the certificate's table reads the name as ⊥ — the `preserves`
    conjunct below states exactly that reading, at both sites of the constant.
  * After the diagonal tile the columns that have gone into row r are all the columns c ≤ r: the set the
    specification sums over.
  * The precondition says every entry of the four arguments is finite. Then every projection, score and weight is a
    real number and every extended-real sum is the coercion of a real sum, so both sides are computed in ℝ.

  Which module proves what:
  * `Spec`: the specification over the reals, `G`, and the shift lemma. `Consts`: the bit patterns of ±∞, 0, 1/32
    and 1024 as extended reals. `Finite`: the precondition gives real entries.
  * `RowAlg`: one row of the online softmax, abstractly: state, update, invariant, final quotient.
  * `PayDefs`, `PayOff`, `PayDiag`, `ScoreCoe`, `LibColumns`: what one grid step of the attention launch stores, read
    one row at a time, is the abstract update of that row (a tile before the diagonal; the diagonal tile with its
    mask and the final division; the reset), and its scores and value rows are coercions of the real ones.
  * `R0Body`, `R0Value`: the projection launch, point by point, leaves the three matrix products.
  * `R1Defs`, `R1RunAB`, `R1RunCD`, `R1StepPay`, `R1Body`: the attention launch at the index tables @main writes: its
    four courses through a step (reset then diagonal tile, reset then a tile below the diagonal, a carried state with
    either kind of tile), what each leaves in the three scratch blocks and the output tile, and the step's triple.
  * `TileChain`, `R1ValueA`, `R1Value`: which columns have gone into a row after each of its tiles; a row followed
    through the steps of its row tile; hence what the launch leaves in its output array.
  * `RunAll`: the whole run of @main over the extended reals, boundary to boundary. `KernelValueCore`, `KernelValue`:
    its result array is `G` of the arguments. `BitsRunAll`, with the `Bits…` twins of the region modules: the same
    run for the program as compiled, which is all the first frame claim needs.
  * `RefValue`: the reference's composed host operations, read at an index, are `G` of the arguments.
  The five conjuncts are put together at the end of this file.
-/
import proofs.«430317_j3848290697374_3_alg».proof.Defs
import proofs.«430317_j3848290697374_3_alg».proof.Proof.Gen.Kernel
import proofs.«430317_j3848290697374_3_alg».proof.Proof.Gen.Kernel.Skeleton
import proofs.«430317_j3848290697374_3_alg».proof.Proof.Gen.Kernel.Launch
import proofs.«430317_j3848290697374_3_alg».proof.Proof.Gen.Kernel.Regions
import proofs.«430317_j3848290697374_3_alg».proof.Proof.Gen.Kernel.Points
import proofs.«430317_j3848290697374_3_alg».proof.Proof.Gen.KernelIdeal
import proofs.«430317_j3848290697374_3_alg».proof.Proof.Gen.KernelIdeal.Skeleton
import proofs.«430317_j3848290697374_3_alg».proof.Proof.Gen.KernelIdeal.Launch
import proofs.«430317_j3848290697374_3_alg».proof.Proof.Gen.KernelIdeal.Regions
import proofs.«430317_j3848290697374_3_alg».proof.Proof.Gen.KernelIdeal.Points
import proofs.«430317_j3848290697374_3_alg».proof.Proof.Gen.ReferenceIdeal
import proofs.«430317_j3848290697374_3_alg».proof.Proof.Gen.Pre_finite_inputs
import proofs.«430317_j3848290697374_3_alg».proof.Proof.Gen.ReferenceIdeal.Run
import proofs.«430317_j3848290697374_3_alg».proof.Proof.Gen.ReferenceIdeal.Read
import proofs.«430317_j3848290697374_3_alg».proof.Proof.Spec
import proofs.«430317_j3848290697374_3_alg».proof.Proof.Finite
import proofs.«430317_j3848290697374_3_alg».proof.Proof.BitsRunAll
import proofs.«430317_j3848290697374_3_alg».proof.Proof.RunAll
import proofs.«430317_j3848290697374_3_alg».proof.Proof.KernelValue
import proofs.«430317_j3848290697374_3_alg».proof.Proof.RefValue
import Idealize.ShloMosaic.PureOps.IdealRules
import Idealize.ShloMosaic.Adequacy
import Idealize.ShloMosaic.Init

noncomputable section

namespace Cert.Proof

open Idealize.ShloMosaic Idealize.SL.Sem

/-- The kernel as compiled runs and leaves its four arguments as they were. -/
theorem frame_k : Cert.frame_Kernel := fun m ρ _ =>
  (θ_run Cert.Kernel.defs _ _).mono (fun _ h c => (h c).2) (Cert.Kernel.Hand.run_all m ρ)

/-- So does the kernel over the extended reals. -/
theorem frame_ki : Cert.frame_KernelIdeal := fun m ρ _ =>
  (θ_run Cert.KernelIdeal.defs _ _).mono (fun _ h c => (h c).2) (Cert.KernelIdeal.Hand.run_all m ρ)

/-- And the reference over the extended reals. -/
theorem frame_ri : Cert.frame_ReferenceIdeal := fun m ρ _ =>
  (θ_run Cert.ReferenceIdeal.defs _ _).mono (fun _ h c => (h c).2) (Cert.ReferenceIdeal.Value.run (F := Ideal) m ρ)

/-- The one constant the two kernels differ in, at its two sites: the fill −9.99999968·10³⁷ of a masked score is read
    as −∞, the value the certificate's table gives the name. -/
theorem preserves : Cert.preserves_Kernel_KernelIdeal :=
  ⟨IdealRules.named_const.statement Cert.KernelIdeal.κ "neg_big" .f32 0xFE967699#32 ⊥ rfl,
   IdealRules.named_const.statement Cert.KernelIdeal.κ "neg_big" .f32 0xFE967699#32 ⊥ rfl⟩

/-- On finite arguments that agree, both programs end with the causal softmax attention `Cert.Spec.G` of the
    arguments in their result array. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_eq_G m ρ hpre c), (h c).2⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨hx, hq, hk, hv⟩ := Cert.KernelIdeal.Hand.finite_of_pre m hpre c
    rw [Cert.ReferenceIdeal.Read.val_main_v22_eq, (hagree c).1, (hagree c).2.1, (hagree c).2.2.1, (hagree c).2.2.2]
    exact Cert.ReferenceIdeal.RefValue.ref_eq_G _ _ _ _ hx hq hk hv

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
